-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2560x64x5x5 : Shape := ⟨4, ![2560, 64, 5, 5]⟩
abbrev S8192x64x5x5 : Shape := ⟨4, ![8192, 64, 5, 5]⟩
abbrev S2560 : Shape := ⟨1, ![2560]⟩
abbrev S_ : Shape := ⟨0, ![]⟩
abbrev S512 : Shape := ⟨1, ![512]⟩
abbrev S2560x1 : Shape := ⟨2, ![2560, 1]⟩

class Facts : Prop where
  bcast_S_S2560x64x5x5 : S_.BroadcastsInDim S2560x64x5x5 (![] : Fin 0 → Fin S2560x64x5x5.rank)
  reducesTo_S2560x64x5x5_S_d0_1_2_3 : S2560x64x5x5.ReducesTo [0, 1, 2, 3] S_
  h_S_ : 0 < S_.numel
  bcast_S_S8192x64x5x5 : S_.BroadcastsInDim S8192x64x5x5 (![] : Fin 0 → Fin S8192x64x5x5.rank)
  reducesTo_S8192x64x5x5_S_d0_1_2_3 : S8192x64x5x5.ReducesTo [0, 1, 2, 3] S_
  bcast_S_S2560 : S_.BroadcastsInDim S2560 (![] : Fin 0 → Fin S2560.rank)
  bcast_S_S512 : S_.BroadcastsInDim S512 (![] : Fin 0 → Fin S512.rank)
  bcast_S2560_S2560x1_0 : S2560.BroadcastsInDim S2560x1 (![0] : Fin 1 → Fin S2560x1.rank)
  reducesTo_S512_S_d0 : S512.ReducesTo [0] S_
  scatter_S512_S2560x1_S2560_n_0_0_1_wf : ScatterDims.WF S512 S2560x1 S2560 [] [0] [0] 1

variable [Facts]

def scatter_S512_S2560x1_S2560_n_0_0_1 : ScatterDims S512 S2560x1 S2560 where
  updateWindowDims := []
  insertedWindowDims := [0]
  scatterDimsToOperandDims := [0]
  indexVectorDim := 1
  wf := scatter_S512_S2560x1_S2560_n_0_0_1_wf
def fn_part1 {F : FTy → Type} [FloatOps F] (main_v8 : IVec S_ 1) (main_v15 : IVec S_ 1) : IVec S_ 1 :=
  let main_v16 : IVec S_ 1 := andi main_v8 main_v15
  main_v16

def fn {F : FTy → Type} [FloatOps F] (main_arg0 : FVec F S2560x64x5x5 .f32) (main_arg1 : FVec F S8192x64x5x5 .f32) (main_arg2 : IVec S2560 32) : IVec S_ 1 :=
  let main_v0 : FVec F S2560x64x5x5 .f32 := Host.absf main_arg0
  let main_cst : FVec F S_ .f32 := constant S_ .f32 0x7F800000#32
  let main_v1 : FVec F S2560x64x5x5 .f32 := broadcastInDim S2560x64x5x5 ![] bcast_S_S2560x64x5x5 main_cst
  let main_v2 : IVec S2560x64x5x5 1 := cmpf .olt main_v0 main_v1
  let main_c : IVec S_ 1 := constantI S_ 1 1#1
  let main_v3 : IVec S_ 1 := (fun x v => Host.reduce IntOp.andi x v reducesTo_S2560x64x5x5_S_d0_1_2_3 h_S_) main_v2 main_c
  let main_v4 : FVec F S8192x64x5x5 .f32 := Host.absf main_arg1
  let main_cst_0 : FVec F S_ .f32 := constant S_ .f32 0x7F800000#32
  let main_v5 : FVec F S8192x64x5x5 .f32 := broadcastInDim S8192x64x5x5 ![] bcast_S_S8192x64x5x5 main_cst_0
  let main_v6 : IVec S8192x64x5x5 1 := cmpf .olt main_v4 main_v5
  let main_c_1 : IVec S_ 1 := constantI S_ 1 1#1
  let main_v7 : IVec S_ 1 := (fun x v => Host.reduce IntOp.andi x v reducesTo_S8192x64x5x5_S_d0_1_2_3 h_S_) main_v6 main_c_1
  let main_v8 : IVec S_ 1 := andi main_v3 main_v7
  let main_cst_2 : FVec F S_ .f32 := constant S_ .f32 0x3F800000#32
  let main_v9 : FVec F S2560 .f32 := broadcastInDim S2560 ![] bcast_S_S2560 main_cst_2
  let main_cst_3 : FVec F S_ .f32 := constant S_ .f32 0x00000000#32
  let main_v10 : FVec F S512 .f32 := broadcastInDim S512 ![] bcast_S_S512 main_cst_3
  let main_v11 : IVec S2560x1 32 := broadcastInDim S2560x1 ![0] bcast_S2560_S2560x1_0 main_arg2
  let main_v12 : FVec F S512 .f32 := (fun x i u => Host.scatterAdd scatter_S512_S2560x1_S2560_n_0_0_1 x i u) main_v10 main_v11 main_v9
  let main_cst_4 : FVec F S_ .f32 := constant S_ .f32 0x00000000#32
  let main_v13 : FVec F S512 .f32 := broadcastInDim S512 ![] bcast_S_S512 main_cst_4
  let main_v14 : IVec S512 1 := cmpf .ogt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_v8 main_v15
-- ==== Kernel.lean ====
abbrev S2560x64x5x5 : Shape := ⟨4, ![2560, 64, 5, 5]⟩
abbrev S8192x64x5x5 : Shape := ⟨4, ![8192, 64, 5, 5]⟩
abbrev S2560 : Shape := ⟨1, ![2560]⟩
abbrev S2560x1600 : Shape := ⟨2, ![2560, 1600]⟩
abbrev S8192x1600 : Shape := ⟨2, ![8192, 1600]⟩
abbrev S2560x1 : Shape := ⟨2, ![2560, 1]⟩
abbrev S_ : Shape := ⟨0, ![]⟩
abbrev S512 : Shape := ⟨1, ![512]⟩
abbrev S512x1 : Shape := ⟨2, ![512, 1]⟩
abbrev S512x1600 : Shape := ⟨2, ![512, 1600]⟩
abbrev S1x512 : Shape := ⟨2, ![1, 512]⟩
abbrev S512x512 : Shape := ⟨2, ![512, 512]⟩
abbrev S8192x512 : Shape := ⟨2, ![8192, 512]⟩
abbrev S1024x1600 : Shape := ⟨2, ![1024, 1600]⟩
abbrev S1024x512 : Shape := ⟨2, ![1024, 512]⟩
abbrev S1024 : Shape := ⟨1, ![1024]⟩
abbrev S1024x1 : Shape := ⟨2, ![1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S2560x64x5x5, .f32⟩
  | .hbm, ⟨1, _⟩ => ⟨S8192x64x5x5, .f32⟩
  | .hbm, ⟨2, _⟩ => ⟨S2560, .i32⟩
  | .hbm, ⟨3, _⟩ => ⟨S2560x1600, .f32⟩
  | .hbm, ⟨4, _⟩ => ⟨S8192x1600, .f32⟩
  | .hbm, ⟨5, _⟩ => ⟨S2560x1, .i32⟩
  | .hbm, ⟨6, _⟩ => ⟨S_, .f32⟩
  | .hbm, ⟨7, _⟩ => ⟨S2560, .f32⟩
  | .hbm, ⟨8, _⟩ => ⟨S_, .f32⟩
  | .hbm, ⟨9, _⟩ => ⟨S512, .f32⟩
  | .hbm, ⟨10, _⟩ => ⟨S2560x1, .i32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512x1, .f32⟩
  | .hbm, ⟨16, _⟩ => ⟨S512x1600, .bf16⟩
  | .hbm, ⟨17, _⟩ => ⟨S1x512, .f32⟩
  | .hbm, ⟨18, _⟩ => ⟨S8192x512, .f32⟩
  | .local _ .vmem, ⟨0, _⟩ => ⟨S512x1600, .f32⟩
  | .local _ .vmem, ⟨1, _⟩ => ⟨S512x1600, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1600, .bf16⟩
  | .local _ .vmem, ⟨6, _⟩ => ⟨S1x512, .f32⟩
  | .local _ .vmem, ⟨7, _⟩ => ⟨S512x1600, .f32⟩
  | .local _ .vmem, ⟨8, _⟩ => ⟨S1024x1600, .f32⟩
  | .local _ .vmem, ⟨9, _⟩ => ⟨S1024x1600, .f32⟩
  | .local _ .vmem, ⟨10, _⟩ => ⟨S512x1600, .bf16⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | _, _ => ⟨S2560x64x5x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1600 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2560x64x5x5_S2560x1600 : S2560x64x5x5.ShapeCasts S2560x1600
  shapeCasts_S8192x64x5x5_S8192x1600 : S8192x64x5x5.ShapeCasts S8192x1600
  shapeCasts_S2560_S2560x1 : S2560.ShapeCasts S2560x1
  bcast_S_S2560 : S_.BroadcastsInDim S2560 (![] : Fin 0 → Fin S2560.rank)
  bcast_S_S512 : S_.BroadcastsInDim S512 (![] : Fin 0 → Fin S512.rank)
  bcast_S2560_S2560x1_0 : S2560.BroadcastsInDim S2560x1 (![0] : Fin 1 → Fin S2560x1.rank)
  shapeCasts_S512_S512x1 : S512.ShapeCasts S512x1
  inb_S512x1600_S512x1600_0_0 : ∀ a, (![0, 0] : Fin 2 → Nat) a + S512x1600.size a ≤ S512x1600.size a
  h_S512x1600 : 0 < S512x1600.numel
  shapeCasts_S512x1600_S512x1600 : S512x1600.ShapeCasts S512x1600
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d1_w32 : S512x512.Iotas .tc 32 [1]
  broadcasts_S512x1_S512x512 : S512x1.Broadcasts S512x512
  natLt_1_32 : 1 < 32
  bitsLt_bf16_f32 : FTy.bits .bf16 < FTy.bits .f32
  broadcasts_S512x1_S512x1600 : S512x1.Broadcasts S512x1600
  packedbf16_S512x1600_S512x1600_0_0 : (Rect.unit (s := S512x1600) ![0, 0] S512x1600.size inb_S512x1600_S512x1600_0_0).PackedRows (EltTy.packing .bf16)
  reduces_S512x1600_S512 : S512x1600.Reduces [1] S512
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  inb_S1024x1600_S1024x1600_0_0 : ∀ a, (![0, 0] : Fin 2 → Nat) a + S1024x1600.size a ≤ S1024x1600.size a
  h_S1024x1600 : 0 < S1024x1600.numel
  shapeCasts_S1024x1600_S1024x1600 : S1024x1600.ShapeCasts S1024x1600
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  scatter_S512_S2560x1_S2560_n_0_0_1_wf : ScatterDims.WF S512 S2560x1 S2560 [] [0] [0] 1
  dot_S512x512_S512x1600_S512x1600_0_0_1_1_n_n_wf : DotDims.WF S512x512 S512x1600 S512x1600 [0] [0] [1] [1] [] []
  dot_S1024x1600_S512x1600_S1024x512_1_1_0_0_n_n_wf : DotDims.WF S1024x1600 S512x1600 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1600.size a ≤ S2560x1600.size a
  hwx0_0 : ∀ i : grid0.Coords, EltTy.bits .f32 = 32 ∨ (Rect.block (s := S2560x1600) S512x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2560x1.size a
  hwx0_1 : ∀ i : grid0.Coords, EltTy.bits .i32 = 32 ∨ (Rect.block (s := S2560x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1600.size a ≤ S512x1600.size a
  hwx0_3 : ∀ i : grid0.Coords, EltTy.bits .bf16 = 32 ∨ (Rect.block (s := S512x1600) S512x1600.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1600.size a ≤ S8192x1600.size a
  hwx1_0 : ∀ i : grid1.Coords, EltTy.bits .f32 = 32 ∨ (Rect.block (s := S8192x1600) S1024x1600.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1600.size a ≤ S512x1600.size a
  hwx1_1 : ∀ i : grid1.Coords, EltTy.bits .bf16 = 32 ∨ (Rect.block (s := S512x1600) S512x1600.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def scatter_S512_S2560x1_S2560_n_0_0_1 : ScatterDims S512 S2560x1 S2560 where
  updateWindowDims := []
  insertedWindowDims := [0]
  scatterDimsToOperandDims := [0]
  indexVectorDim := 1
  wf := scatter_S512_S2560x1_S2560_n_0_0_1_wf
def dot_S512x512_S512x1600_S512x1600_0_0_1_1_n_n : DotDims S512x512 S512x1600 S512x1600 where
  lhsContracting := [0]
  rhsContracting := [0]
  lhsNonContracting := [1]
  rhsNonContracting := [1]
  lhsBatch := []
  rhsBatch := []
  wf := dot_S512x512_S512x1600_S512x1600_0_0_1_1_n_n_wf
def dot_S1024x1600_S512x1600_S1024x512_1_1_0_0_n_n : DotDims S1024x1600 S512x1600 S1024x512 where
  lhsContracting := [1]
  rhsContracting := [1]
  lhsNonContracting := [0]
  rhsNonContracting := [0]
  lhsBatch := []
  rhsBatch := []
  wf := dot_S1024x1600_S512x1600_S1024x512_1_1_0_0_n_n_wf

abbrev win0_0 : Pipeline.Window sig grid0 :=
  Pipeline.Window.ofSpec (Memref.whole main_v0) S512x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S512x1600.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1024x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S512x1600.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10_1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2560x64x5x5 : Shape := ⟨4, ![2560, 64, 5, 5]⟩
abbrev S8192x64x5x5 : Shape := ⟨4, ![8192, 64, 5, 5]⟩
abbrev S2560 : Shape := ⟨1, ![2560]⟩
abbrev S2560x1600 : Shape := ⟨2, ![2560, 1600]⟩
abbrev S8192x1600 : Shape := ⟨2, ![8192, 1600]⟩
abbrev S_ : Shape := ⟨0, ![]⟩
abbrev S512x1600 : Shape := ⟨2, ![512, 1600]⟩
abbrev S2560x1 : Shape := ⟨2, ![2560, 1]⟩
abbrev S512 : Shape := ⟨1, ![512]⟩
abbrev S512x1 : Shape := ⟨2, ![512, 1]⟩
abbrev S8192 : Shape := ⟨1, ![8192]⟩
abbrev S8192x1 : Shape := ⟨2, ![8192, 1]⟩
abbrev S1x512 : Shape := ⟨2, ![1, 512]⟩
abbrev S8192x512 : Shape := ⟨2, ![8192, 512]⟩
abbrev S1600x512 : Shape := ⟨2, ![1600, 512]⟩

abbrev nBuf : Space → Nat
  | .hbm => 51
  | .vmem => 0
  | .smem => 0
  | _ => 0

abbrev bufTy : (tb : Table) → Fin (tcTables nBuf tb) → BufTy
  | .hbm, ⟨0, _⟩ => ⟨S2560x64x5x5, .f32⟩
  | .hbm, ⟨1, _⟩ => ⟨S8192x64x5x5, .f32⟩
  | .hbm, ⟨2, _⟩ => ⟨S2560, .i32⟩
  | .hbm, ⟨3, _⟩ => ⟨S2560x1600, .f32⟩
  | .hbm, ⟨4, _⟩ => ⟨S8192x1600, .f32⟩
  | .hbm, ⟨5, _⟩ => ⟨S_, .f32⟩
  | .hbm, ⟨6, _⟩ => ⟨S512x1600, .f32⟩
  | .hbm, ⟨7, _⟩ => ⟨S2560x1, .i32⟩
  | .hbm, ⟨8, _⟩ => ⟨S512x1600, .f32⟩
  | .hbm, ⟨9, _⟩ => ⟨S_, .f32⟩
  | .hbm, ⟨10, _⟩ => ⟨S2560, .f32⟩
  | .hbm, ⟨11, _⟩ => ⟨S_, .f32⟩
  | .hbm, ⟨12, _⟩ => ⟨S512, .f32⟩
  | .hbm, ⟨13, _⟩ => ⟨S2560x1, .i32⟩
  | .hbm, ⟨14, _⟩ => ⟨S512, .f32⟩
  | .hbm, ⟨15, _⟩ => ⟨S512x1, .f32⟩
  | .hbm, ⟨16, _⟩ => ⟨S512x1600, .f32⟩
  | .hbm, ⟨17, _⟩ => ⟨S512x1600, .f32⟩
  | .hbm, ⟨18, _⟩ => ⟨S8192x1600, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S512x1600, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S1600x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x512, .f32⟩
  | .hbm, ⟨50, _⟩ => ⟨S8192x512, .f32⟩
  | _, _ => ⟨S2560x64x5x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_1 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  shapeCasts_S2560x64x5x5_S2560x1600 : S2560x64x5x5.ShapeCasts S2560x1600
  shapeCasts_S8192x64x5x5_S8192x1600 : S8192x64x5x5.ShapeCasts S8192x1600
  bcast_S_S512x1600 : S_.BroadcastsInDim S512x1600 (![] : Fin 0 → Fin S512x1600.rank)
  bcast_S2560_S2560x1_0 : S2560.BroadcastsInDim S2560x1 (![0] : Fin 1 → Fin S2560x1.rank)
  bcast_S_S2560 : S_.BroadcastsInDim S2560 (![] : Fin 0 → Fin S2560.rank)
  bcast_S_S512 : S_.BroadcastsInDim S512 (![] : Fin 0 → Fin S512.rank)
  bcast_S512_S512x1_0 : S512.BroadcastsInDim S512x1 (![0] : Fin 1 → Fin S512x1.rank)
  bcast_S512x1_S512x1600_0_1 : S512x1.BroadcastsInDim S512x1600 (![0, 1] : Fin 2 → Fin S512x1600.rank)
  reducesTo_S8192x1600_S8192_d1 : S8192x1600.ReducesTo [1] S8192
  h_S_ : 0 < S_.numel
  bcast_S8192_S8192x1_0 : S8192.BroadcastsInDim S8192x1 (![0] : Fin 1 → Fin S8192x1.rank)
  reducesTo_S512x1600_S512_d1 : S512x1600.ReducesTo [1] S512
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  transposes_S512x1600_S1600x512_1_0 : S512x1600.Transposes [1, 0] S1600x512
  bcast_S_S8192x512 : S_.BroadcastsInDim S8192x512 (![] : Fin 0 → Fin S8192x512.rank)
  reducesTo_S8192x512_S8192_d1 : S8192x512.ReducesTo [1] S8192
  bcast_S_S8192 : S_.BroadcastsInDim S8192 (![] : Fin 0 → Fin S8192.rank)
  scatter_S512x1600_S2560x1_S2560x1600_1_0_0_1_wf : ScatterDims.WF S512x1600 S2560x1 S2560x1600 [1] [0] [0] 1
  scatter_S512_S2560x1_S2560_n_0_0_1_wf : ScatterDims.WF S512 S2560x1 S2560 [] [0] [0] 1
  dot_S8192x1600_S1600x512_S8192x512_1_0_0_1_n_n_wf : DotDims.WF S8192x1600 S1600x512 S8192x512 [1] [0] [0] [1] [] []

variable [Facts₀]

def scatter_S512x1600_S2560x1_S2560x1600_1_0_0_1 : ScatterDims S512x1600 S2560x1 S2560x1600 where
  updateWindowDims := [1]
  insertedWindowDims := [0]
  scatterDimsToOperandDims := [0]
  indexVectorDim := 1
  wf := scatter_S512x1600_S2560x1_S2560x1600_1_0_0_1_wf
def scatter_S512_S2560x1_S2560_n_0_0_1 : ScatterDims S512 S2560x1 S2560 where
  updateWindowDims := []
  insertedWindowDims := [0]
  scatterDimsToOperandDims := [0]
  indexVectorDim := 1
  wf := scatter_S512_S2560x1_S2560_n_0_0_1_wf
def dot_S8192x1600_S1600x512_S8192x512_1_0_0_1_n_n : DotDims S8192x1600 S1600x512 S8192x512 where
  lhsContracting := [1]
  rhsContracting := [0]
  lhsNonContracting := [0]
  rhsNonContracting := [1]
  lhsBatch := []
  rhsBatch := []
  wf := dot_S8192x1600_S1600x512_S8192x512_1_0_0_1_n_n_wf

class Facts : Prop extends Facts₀ where

variable [Facts]
-- ==== Proof.KRegion0Base.lean ====
/-
  The first kernel call of the program (class sums and prototypes), as one region of the pipeline library: what its
  body's three control cases are stated over.

  The call walks the 2560 support rows in five blocks of 512.  Its body keeps a running sum of the class sums in a
  scratch buffer of its own, which lives across the five points: at the FIRST point it clears the scratch, at EVERY
  point it adds the block's contribution (a one-hot matrix of the block's labels times the block's rows), and at the LAST
  point it scales the sums by the reciprocal counts and stores the prototypes and their squared norms into the two
  output windows.  Both output windows have a constant block index: they are idle (nothing stored, nothing written back)
  at the first four points and written back once, after the last.

  Here: the blocks the body finds in the three input windows (support rows and labels move with the point; the
  reciprocal counts are one whole array fetched at the first point), the two branch conditions decided over the five
  points, where the output windows are idle, and the names of the staging and scratch memrefs.  Stated at a parameter
  `V`, the TensorCore's buffer contents when the call is entered.  Generic in the float instance.
-/
import proofs.«401966_j16947940950251_2_alg».proof.Proof.Gen.Kernel.Launch
import proofs.«401966_j16947940950251_2_alg».proof.Proof.Gen.Kernel.Skeleton
import proofs.«401966_j16947940950251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The support window's staging buffer holds the point's block of 512 support rows, for any proof data over `V`'s
    arrays whose body leaves that block in place. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Likewise the labels' window. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The reciprocal counts' window holds the whole array at every point: fetched at the first, and its block index never
    moves. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's two branch conditions -/

/-- "This is the first point" (the branch that clears the running sums), from the grid coordinates. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 5 = 0 :=
  (by decide +kernel : ∀ t : Fin grid0.N, isFirst (grid0.coords t) ↔ t.val % 5 = 0)

/-- "This is the last point" (the branch that stores the prototypes and their squared norms). -/
abbrev isLast (i : grid0.Coords) : Prop := k0_cond2 i = 1#1
/-- It holds at point 4 only. -/
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last point the body stores nothing into either output window, -/
theorem idle0_3 : ∀ t : Fin cfg0.N, ¬isLast (grid0.coords t) → cfg0.idle 3 (grid0.coords t) = true := by decide +kernel
theorem idle0_4 : ∀ t : Fin cfg0.N, ¬isLast (grid0.coords t) → cfg0.idle 4 (grid0.coords t) = true := by decide +kernel
/-- and the pipeline writes neither back there; -/
theorem noFlush0_3 : ∀ t : Fin cfg0.N, ¬isLast (grid0.coords t) → (cfg0.win 3).flush t = false := by decide +kernel
theorem noFlush0_4 : ∀ t : Fin cfg0.N, ¬isLast (grid0.coords t) → (cfg0.win 4).flush t = false := by decide +kernel
/-- at the last point it stores into both. -/
theorem live0_3 : ∀ t : Fin cfg0.N, isLast (grid0.coords t) → cfg0.idle 3 (grid0.coords t) = false := by decide +kernel
theorem live0_4 : ∀ t : Fin cfg0.N, isLast (grid0.coords t) → cfg0.idle 4 (grid0.coords t) = false := by decide +kernel

/-! ## The memrefs the body is called with -/

/-- One staging buffer of each output window, through which its contents are stated. -/
abbrev protoView : View sig .tc .vmem S512x1600 .bf16 := (Memref.whole cc0_stg3_0 : Memref sig .tc .vmem S512x1600 .bf16).view
abbrev normView : View sig .tc .vmem S1x512 .f32 := (Memref.whole cc0_stg4_0 : Memref sig .tc .vmem S1x512 .f32).view
/-- Each window's current staging memref at point `t`, as the pipeline passes it, and its wholeness. -/
abbrev ms0_0 (t : Fin cfg0.N) : Memref sig .tc .vmem S512x1600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1600 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The scratch that carries the running class sums between points: a whole scoped buffer of the kernel's own. -/
abbrev accM : Memref sig .tc .vmem S512x1600 .f32 := Memref.whole cc0_scratch0
abbrev accView : View sig .tc .vmem S512x1600 .f32 := accM.view

/-- The core's other scoped buffers that this call does not stage — the second call's staging buffers —, each whole
    at some contents: they ride through this call untouched. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant the launch hands the call — the scoped buffers no window of it stages and the generator register —
    with the scratch as a memref owned at some contents beside the other scoped buffers. -/
theorem restInv0_eq (c : Dev nD) :
    (Pipeline.ΦA spec0 c : sProp 𝕄)
      = iprop(iprop((∃ d, owns (c : Thread nD τ) accM fullShare d) ∗ otherScoped0 c) ∗ (∃ r, prngReg c r)) := by
  unfold Pipeline.ΦA otherScoped0; rw [scopedRest0_eq]; simp only [accM, owns_whole]; try rfl

end Cert.Kernel.Hand

end
-- ==== Proof.KRegion0First.lean ====
/-
  The first kernel call's body AT THE FIRST POINT (the clearing branch taken, the storing branch not): its whole run on the staging and scratch memrefs, by the symbolic executor
  over the body's skeleton, each branch decided by the case's hypotheses.  The scratch may hold anything when the point starts; the body clears it, adds the block's contribution and leaves it
  written; the two output windows are idle here and are handed back untouched.
  The pieces each buffer ends with are found by the run itself and carried as the witness of the statement; what they
  hold as values is read off them elsewhere.  Generic in the float instance.
-/
import proofs.«401966_j16947940950251_2_alg».proof.Proof.KRegion0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point, with the pieces the scratch ends with. -/
noncomputable def runFirst (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i)
    (x0 : Vec F S512x1600 .f32) (x1 : Vec F S512x1 .i32) (x2 : Vec F S512x1 .f32) :
    { LS : List (View.Piece (Elt F) S512x1600 .f32) //
      ∀ (xi3 : Vec F S512x1600 .bf16) (xi4 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, fun xi3 xi4 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Hand

end
-- ==== Proof.KRegion0Mid.lean ====
/-
  The first kernel call's body AT A MIDDLE POINT (neither branch taken): its whole run on the staging and scratch memrefs, by the symbolic executor
  over the body's skeleton, each branch decided by the case's hypotheses.  The scratch holds the running sums `xs` the point before left; the body adds the block's contribution and leaves it
  written; the two output windows are idle and are handed back untouched.
  The pieces each buffer ends with are found by the run itself and carried as the witness of the statement; what they
  hold as values is read off them elsewhere.  Generic in the float instance.
-/
import proofs.«401966_j16947940950251_2_alg».proof.Proof.KRegion0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point, with the pieces the scratch ends with. -/
noncomputable def runMid (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i)
    (x0 : Vec F S512x1600 .f32) (x1 : Vec F S512x1 .i32) (x2 : Vec F S512x1 .f32) (xs : Vec F S512x1600 .f32) :
    { LS : List (View.Piece (Elt F) S512x1600 .f32) //
      ∀ (xi3 : Vec F S512x1600 .bf16) (xi4 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, fun xi3 xi4 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Hand

end
-- ==== Proof.KRegion0Last.lean ====
/-
  The first kernel call's body AT THE LAST POINT (the clearing branch not taken, the storing branch taken): its whole run on the staging and scratch memrefs, by the symbolic executor
  over the body's skeleton, each branch decided by the case's hypotheses.  The scratch holds the running sums `xs` the point before left; the body adds the last block's contribution, then scales
  the sums by the reciprocal counts and stores the prototypes and their squared norms into the two output windows, whose
  buffers may hold anything when the point starts.
  The pieces each buffer ends with are found by the run itself and carried as the witness of the statement; what they
  hold as values is read off them elsewhere.  Generic in the float instance.
-/
import proofs.«401966_j16947940950251_2_alg».proof.Proof.KRegion0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the last point, with the pieces the two output buffers and the scratch end with. -/
noncomputable def runLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i)
    (x0 : Vec F S512x1600 .f32) (x1 : Vec F S512x1 .i32) (x2 : Vec F S512x1 .f32) (xs : Vec F S512x1600 .f32) :
    Σ' (L3 : List (View.Piece (Elt F) S512x1600 .bf16)) (L4 : List (View.Piece (Elt F) S1x512 .f32)),
    { LS : List (View.Piece (Elt F) S512x1600 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, ?_, ?_, fun E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2
    obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS

end Cert.Kernel.Hand

end
-- ==== Proof.KRegion0.lean ====
/-
  The first kernel call of the program as one region of the pipeline library: what its two output buffers and its
  scratch hold after each of the five grid points, the invariant that carries the running class sums from point to point,
  the proof data, and the body obligation.

  After point `n` the scratch holds the running sums over blocks `0 … n`: at the first point the body's run from a
  cleared scratch, at every later point the body's run over what the point before left.  The two output buffers hold the
  prototypes and their squared norms after the last point; before it they are idle — the body stores nothing into them
  and the pipeline writes nothing back — and what is recorded for them there is a placeholder nothing consults.
  The region's invariant before point `n + 1` is: the scratch owned at the running sums after point `n`, the other scoped
  buffers and the generator register at some state; before the first point it is what the launch hands over (the scratch
  at anything).  Stated at a parameter `V`, the TensorCore's buffer contents when the call is entered.  Generic in the
  float instance.
-/
import proofs.«401966_j16947940950251_2_alg».proof.Proof.KRegion0First
import proofs.«401966_j16947940950251_2_alg».proof.Proof.KRegion0Mid
import proofs.«401966_j16947940950251_2_alg».proof.Proof.KRegion0Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- The placeholders recorded for the two output buffers at the points where they are idle. -/
def idleProto : Vec F S512x1600 .bf16 := protoView.read (Elt F) (protoView.writes (Elt F) protoView.junk [])
def idleNorm : Vec F S1x512 .f32 := normView.read (Elt F) (normView.writes (Elt F) normView.junk [])

/-- The first point's pieces for the scratch cover it. -/
theorem accFirst_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i) (x0 : Vec F S512x1600 .f32) (x1 : Vec F S512x1 .i32) (x2 : Vec F S512x1 .f32) (y : S512x1600.Idx) :
    ∃ pc ∈ (runFirst c i arg1 harg1 arg2 harg2 arg3 harg3 arg4 harg4 arg5 harg5 arg6 harg6 hc0 hc1 x0 x1 x2).1, y ∈ pc.1.set :=
  View.cover_of_tiledL (runFirst c i arg1 harg1 arg2 harg2 arg3 harg3 arg4 harg4 arg5 harg5 arg6 harg6 hc0 hc1 x0 x1 x2).1 S512x1600.size (by sl_kernel_rfl) y

/-- The running sums after the first point. -/
def accFirst (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i) (x0 : Vec F S512x1600 .f32) (x1 : Vec F S512x1 .i32) (x2 : Vec F S512x1 .f32) : Vec F S512x1600 .f32 :=
  accView.read (Elt F) (accView.writes (Elt F) accView.junk (runFirst c i arg1 harg1 arg2 harg2 arg3 harg3 arg4 harg4 arg5 harg5 arg6 harg6 hc0 hc1 x0 x1 x2).1)

/-- A middle point's pieces for the scratch cover it. -/
theorem accMid_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i) (x0 : Vec F S512x1600 .f32) (x1 : Vec F S512x1 .i32) (x2 : Vec F S512x1 .f32) (xs : Vec F S512x1600 .f32) (y : S512x1600.Idx) :
    ∃ pc ∈ (runMid c i arg1 harg1 arg2 harg2 arg3 harg3 arg4 harg4 arg5 harg5 arg6 harg6 hc0 hc1 x0 x1 x2 xs).1, y ∈ pc.1.set :=
  View.cover_of_tiledL (runMid c i arg1 harg1 arg2 harg2 arg3 harg3 arg4 harg4 arg5 harg5 arg6 harg6 hc0 hc1 x0 x1 x2 xs).1 S512x1600.size (by sl_kernel_rfl) y

/-- The running sums after a middle point, over what the point before left. -/
def accMid (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i) (x0 : Vec F S512x1600 .f32) (x1 : Vec F S512x1 .i32) (x2 : Vec F S512x1 .f32) (xs : Vec F S512x1600 .f32) : Vec F S512x1600 .f32 :=
  accView.read (Elt F) (accView.writes (Elt F) accView.junk (runMid c i arg1 harg1 arg2 harg2 arg3 harg3 arg4 harg4 arg5 harg5 arg6 harg6 hc0 hc1 x0 x1 x2 xs).1)

/-- The last point's pieces cover the prototypes' buffer, the norms' buffer and the scratch. -/
theorem protoLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S512x1600.Idx) :
    ∃ pc ∈ (runLast c i arg1 harg1 arg2 harg2 arg3 harg3 arg4 harg4 arg5 harg5 arg6 harg6 hc0 hc1 x0 x1 x2 xs).1, y ∈ pc.1.set :=
  View.cover_of_tiledL (runLast c i arg1 harg1 arg2 harg2 arg3 harg3 arg4 harg4 arg5 harg5 arg6 harg6 hc0 hc1 x0 x1 x2 xs).1 S512x1600.size (by sl_kernel_rfl) y
theorem normLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S1x512.Idx) :
    ∃ pc ∈ (runLast c i arg1 harg1 arg2 harg2 arg3 harg3 arg4 harg4 arg5 harg5 arg6 harg6 hc0 hc1 x0 x1 x2 xs).2.1, y ∈ pc.1.set :=
  View.cover_of_tiledL (runLast c i arg1 harg1 arg2 harg2 arg3 harg3 arg4 harg4 arg5 harg5 arg6 harg6 hc0 hc1 x0 x1 x2 xs).2.1 S1x512.size (by sl_kernel_rfl) y
theorem accLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S512x1600.Idx) :
    ∃ pc ∈ (runLast c i arg1 harg1 arg2 harg2 arg3 harg3 arg4 harg4 arg5 harg5 arg6 harg6 hc0 hc1 x0 x1 x2 xs).2.2.1, y ∈ pc.1.set :=
  View.cover_of_tiledL (runLast c i arg1 harg1 arg2 harg2 arg3 harg3 arg4 harg4 arg5 harg5 arg6 harg6 hc0 hc1 x0 x1 x2 xs).2.2.1 S512x1600.size (by sl_kernel_rfl) y

/-- What the last point leaves in the prototypes' buffer, the norms' buffer and the scratch. -/
def protoLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S512x1600 .bf16 :=
  protoView.read (Elt F) (protoView.writes (Elt F) protoView.junk (runLast c i arg1 harg1 arg2 harg2 arg3 harg3 arg4 harg4 arg5 harg5 arg6 harg6 hc0 hc1 x0 x1 x2 xs).1)
def normLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S1x512 .f32 :=
  normView.read (Elt F) (normView.writes (Elt F) normView.junk (runLast c i arg1 harg1 arg2 harg2 arg3 harg3 arg4 harg4 arg5 harg5 arg6 harg6 hc0 hc1 x0 x1 x2 xs).2.1)
def accLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S512x1600 .f32 :=
  accView.read (Elt F) (accView.writes (Elt F) accView.junk (runLast c i arg1 harg1 arg2 harg2 arg3 harg3 arg4 harg4 arg5 harg5 arg6 harg6 hc0 hc1 x0 x1 x2 xs).2.2.1)

/-! ## Point by point -/

theorem lt5 {n : ℕ} (hn : n < cfg0.N) : n < 5 := lt_of_lt_of_eq hn (show cfg0.N = 5 from N_0)

/-- THE ACCUMULATION.  The prototypes' buffer, the norms' buffer and the scratch after the body at position `n`: the
    first point's run from a cleared scratch; afterwards the run of the case the position selects over what the
    position before left in the scratch. -/
def stateAt (c : Dev nD) : (n : ℕ) → n < cfg0.N → Vec F S512x1600 .bf16 × Vec F S1x512 .f32 × Vec F S512x1600 .f32
  | 0, hn => (idleProto, idleNorm,
      accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) accM (Memref.isWhole_whole _) ((isFirst_iff ⟨0, hn⟩).mpr (Nat.zero_mod _)) (fun h => (fun h => by (try dsimp only at h); omega) ((isLast_iff ⟨0, hn⟩).mp h)) (blk0 V c 0 ⟨0, hn⟩) (blk0 V c 1 ⟨0, hn⟩) (blk0 V c 2 ⟨0, hn⟩))
  | n + 1, hn =>
    if h1 : (n + 1) % 5 = 4 then
      (protoLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2,
       normLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2,
       accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2)
    else
      (idleProto, idleNorm,
       accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) (fun h => h1 ((isLast_iff ⟨n + 1, hn⟩).mp h)) (blk0 V c 0 ⟨n + 1, hn⟩) (blk0 V c 1 ⟨n + 1, hn⟩) (blk0 V c 2 ⟨n + 1, hn⟩) (stateAt c n (Nat.lt_of_succ_lt hn)).2.2)

/-- At the first point. -/
theorem stateAt_first (c : Dev nD) (t : Fin cfg0.N) (h0 : t.val % 5 = 0) (h1 : ¬t.val % 5 = 4) :
    stateAt V c t.val t.isLt = (idleProto, idleNorm,
      accFirst c (grid0.coords t) (ms0_0 t) (hs0_0 t) (ms0_1 t) (hs0_1 t) (ms0_2 t) (hs0_2 t) (ms0_3 t) (hs0_3 t) (ms0_4 t) (hs0_4 t) accM (Memref.isWhole_whole _) ((isFirst_iff t).mpr h0) (fun h => h1 ((isLast_iff t).mp h)) (blk0 V c 0 t) (blk0 V c 1 t) (blk0 V c 2 t)) := by
  obtain ⟨n, hn⟩ := t
  cases n with
  | zero => exact rfl
  | succ n => exact (by exfalso; have := lt5 hn; (try dsimp only at h0); omega)

/-- At a middle point, over what the point before left. -/
theorem stateAt_mid (c : Dev nD) (t : Fin cfg0.N) (h0 : ¬t.val % 5 = 0) (h1 : ¬t.val % 5 = 4) :
    stateAt V c t.val t.isLt = (idleProto, idleNorm,
      accMid c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) (fun h => h1 ((isLast_iff t).mp h)) (blk0 V c 0 t) (blk0 V c 1 t) (blk0 V c 2 t)
        (stateAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- At the last point, over what the point before left. -/
theorem stateAt_last (c : Dev nD) (t : Fin cfg0.N) (h0 : ¬t.val % 5 = 0) (h1 : t.val % 5 = 4) :
    stateAt V c t.val t.isLt =
      (protoLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2,
       normLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2,
       accLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant that carries the running sums -/

/-- The region's invariant before position `n`: before the first point what the launch hands over; afterwards the
    scratch owned at the running sums the point before left, beside the other scoped buffers and the generator register. -/
def carried (c : Dev nD) : (n : ℕ) → n ≤ cfg0.N → sProp 𝕄
  | 0, _ => Pipeline.ΦA spec0 c
  | n + 1, hn => iprop(iprop(owns (c : Thread nD τ) accM fullShare ((stateAt V c n hn).2.2) ∗ otherScoped0 c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare ((stateAt V c n hn).2.2) ∗ otherScoped0 c) ∗ (∃ r, prngReg c r)) := rfl

theorem carried_pos (c : Dev nD) (n : ℕ) (h : n ≤ cfg0.N) (hz : n ≠ 0) :
    carried V c n h = iprop(iprop(owns (c : Thread nD τ) accM fullShare ((stateAt V c (n - 1) (by omega)).2.2) ∗ otherScoped0 c) ∗ (∃ r, prngReg c r)) := by
  cases n with
  | zero => exact absurd rfl hz
  | succ n => rfl

/-! ## The proof data -/

/-- The proof data of the first call on core `c`: its arrays as the call finds them; after the body at point `t` each
    input's buffer still at its block and the two outputs' at `stateAt`'s components; the invariant `carried`; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stateAt V c t.val t.isLt).1
    | ⟨4, _⟩ => (stateAt V c t.val t.isLt).2.1
  Φ t := carried V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = carried V c t.val (Nat.le_of_lt t.isLt) := by
  dsimp only [dat0]; simp only [Fin.coe_castSucc]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (stateAt V c t.val t.isLt).1 := by dsimp only [dat0]
theorem dat0_after4 (c : Dev nD) (t : Fin cfg0.N) : (dat0 V c).after 4 t = (stateAt V c t.val t.isLt).2.1 := by dsimp only [dat0]

theorem dat0_found0 (c : Dev nD) (t : Fin cfg0.N) (d) : (dat0 V c).before 0 t d = blk0 V c 0 t :=
  found0_0_of V (dat0 V c) (dat0_A V c 0) (dat0_after0 V c) t d
theorem dat0_found1 (c : Dev nD) (t : Fin cfg0.N) (d) : (dat0 V c).before 1 t d = blk0 V c 1 t :=
  found0_1_of V (dat0 V c) (dat0_A V c 1) (dat0_after1 V c) t d
theorem dat0_found2 (c : Dev nD) (t : Fin cfg0.N) (d) : (dat0 V c).before 2 t d = blk0 V c 2 t :=
  found0_2_of V (dat0 V c) (dat0_A V c 2) (dat0_after2 V c) t d

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (ms0_0 t) fullShare (blk0 V c 0 t) := by
  unfold Dat.leavesExact; rw [live0_0 t, dat0_after0]
theorem leaves0_1 (c : Dev nD) (t : Fin cfg0.N) :
    (dat0 V c).leavesExact 1 t = owns (c : Thread nD τ) (ms0_1 t) fullShare (blk0 V c 1 t) := by
  unfold Dat.leavesExact; rw [live0_1 t, dat0_after1]
theorem leaves0_2 (c : Dev nD) (t : Fin cfg0.N) :
    (dat0 V c).leavesExact 2 t = owns (c : Thread nD τ) (ms0_2 t) fullShare (blk0 V c 2 t) := by
  unfold Dat.leavesExact; rw [live0_2 t, dat0_after2]

set_option maxHeartbeats 4800000 in
/-- The body at any point.  The inputs' buffers hold their blocks; the point's position says which case it is in; the
    invariant hands the body the scratch at what the point before left (at anything at the first point) and takes it
    back at this point's running sums; an idle output's buffer is handed back as found; the core owes nothing throughout. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1, dat0_found2]
  rw [show (dat0 V c).owesAt () t.succ = (dat0 V c).owesAt () t.castSucc from rfl]
  rw [show (dat0 V c).Φ t.succ = carried V c (t.val + 1) t.isLt from rfl, carried_succ]
  rw [leaves0_0, leaves0_1, leaves0_2]
  have hN : t.val < 5 := lt5 t.isLt
  by_cases h1 : t.val % 5 = 4
  · -- the last point
    have h0 : ¬t.val % 5 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast_iff t).mpr h1)], dat0_after3]
    rw [show (dat0 V c).leavesExact 4 t = owns (c : Thread nD τ) (ms0_4 t) fullShare ((dat0 V c).after 4 t) from by
      unfold Dat.leavesExact; rw [live0_4 t ((isLast_iff t).mpr h1)], dat0_after4]
    rw [stateAt_last V c t h0 h1]
    unfold protoLast normLast accLast; (try dsimp only)
    rw [dat0_inv_castSucc V c t, carried_pos V c _ _ hz]
    iintro ⟨⟨⟨HS, Hother⟩, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ (fun h => h0 ((isFirst_iff t).mp h)) ((isLast_iff t).mpr h1) (blk0 V c 0 t) (blk0 V c 1 t) (blk0 V c 2 t) _).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, ⟨%es, HS⟩⟩
    isplitl [HS Hother Hg]
    · isplitl [HS Hother]
      · isplitl [HS]
        · unfold owns; iexists _; isplitr
          swap; · iexact HS
          ipureintro; exact View.read_writes_of_cover _ _ _ _ _ (accLast_cover c _ _ _ _ _ _ _ _ _ _ _ _ _ _ _ _ _ _ _)
        iexact Hother
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (protoLast_cover c _ _ _ _ _ _ _ _ _ _ _ _ _ _ _ _ _ _ _)
    unfold owns; iexists _; isplitr
    swap; · iexact H4
    ipureintro; exact View.read_writes_of_cover _ _ _ _ _ (normLast_cover c _ _ _ _ _ _ _ _ _ _ _ _ _ _ _ _ _ _ _)
  · have hidle : ¬isLast (grid0.coords t) := fun h => h1 ((isLast_iff t).mp h)
    rw [Dat.leavesExact_idle (dat0 V c) 3 t (idle0_3 t hidle) (noFlush0_3 t hidle)]
    rw [Dat.leavesExact_idle (dat0 V c) 4 t (idle0_4 t hidle) (noFlush0_4 t hidle)]
    by_cases h0 : t.val % 5 = 0
    · -- the first point
      have hz : t.val = 0 := by omega
      rw [stateAt_first V c t h0 h1]
      unfold accFirst; (try dsimp only)
      rw [dat0_inv_castSucc V c t, carried_zero V c _ _ hz, restInv0_eq]
      iintro ⟨⟨⟨HS, Hother⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hidle (blk0 V c 0 t) (blk0 V c 1 t) (blk0 V c 2 t)).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hother Hg]
      · isplitl [HS Hother]
        · isplitl [HS]
          · unfold owns; iexists _; isplitr
            swap; · iexact HS
            ipureintro; exact View.read_writes_of_cover _ _ _ _ _ (accFirst_cover c _ _ _ _ _ _ _ _ _ _ _ _ _ _ _ _ _ _)
          iexact Hother
        iexact Hg
      isplitl [Ho]; · iexact Ho
      isplitl [H0]; · iexact H0
      isplitl [H1]; · iexact H1
      isplitl [H2]; · iexact H2
      isplitl [H3]; · iexists _; iexact H3
      iexists _; iexact H4
    · -- a middle point
      have hz : t.val ≠ 0 := by omega
      rw [stateAt_mid V c t h0 h1]
      unfold accMid; (try dsimp only)
      rw [dat0_inv_castSucc V c t, carried_pos V c _ _ hz]
      iintro ⟨⟨⟨HS, Hother⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((isFirst_iff t).mp h)) hidle (blk0 V c 0 t) (blk0 V c 1 t) (blk0 V c 2 t) _).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hother Hg]
      · isplitl [HS Hother]
        · isplitl [HS]
          · unfold owns; iexists _; isplitr
            swap; · iexact HS
            ipureintro; exact View.read_writes_of_cover _ _ _ _ _ (accMid_cover c _ _ _ _ _ _ _ _ _ _ _ _ _ _ _ _ _ _ _)
          iexact Hother
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation0 (c : Dev nD) : BodyObligation (dat0 (F := F) V c) (defs₀ (F := F)) Variants.none () Set.univ := fun t => by
  rw [bigSep_W0, bigSep_W0]
  exact body0_at V c t

/-- What the launch hands the region is the invariant before the first point. -/
theorem enter0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last point the invariant gives back what the launch handed over: the running sums' name is forgotten. -/
theorem leave0 (c : Dev nD) : (dat0 V c).Φ (Fin.last cfg0.N) ⊢ Pipeline.ΦA spec0 c := by
  have ht : (Fin.last cfg0.N).val ≠ 0 := by rw [Fin.val_last]; have : cfg0.N = 5 := N_0; omega
  rw [show (dat0 V c).Φ (Fin.last cfg0.N) = carried V c (Fin.last cfg0.N).val (Nat.le_of_lt_succ (Fin.last cfg0.N).isLt) from rfl,
    carried_pos V c _ _ ht, restInv0_eq]
  iintro ⟨⟨HS, Hother⟩, Hg⟩
  isplitl [HS Hother]
  · isplitl [HS]
    · iexists _; iexact HS
    iexact Hother
  iexact Hg

end Cert.Kernel.Hand

end
-- ==== Proof.KRegion1.lean ====
/-
  The second kernel call of the program (scores and log-softmax), as one region of the pipeline library: for each of
  its eight grid points, which block of each operand the body finds in its staging buffer, what the body leaves in the
  output's staging buffer, the body's triple, and the proof data and body obligation the region rule takes.

  The call has three inputs — a block of 1024 query rows, moving with the point; the 512 prototypes and their 512
  squared norms, the same whole arrays at every point (fetched once, found again at every later point) — and one
  output, the matching block of 1024 result rows, written back at every point.  The body loads the three inputs whole,
  stores the output whole (it also loads the output's buffer once before storing; the value is not used), so what it
  leaves in the output buffer is ONE function of the three input blocks: the body's arithmetic `k1_pay1`.

  Everything is stated at a parameter `V`: the contents of the TensorCore's buffers when the call is entered.  Generic
  in the float instance.
-/
import proofs.«401966_j16947940950251_2_alg».proof.Proof.Gen.Kernel.Launch
import proofs.«401966_j16947940950251_2_alg».proof.Proof.Gen.Kernel.Skeleton
import proofs.«401966_j16947940950251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's block of query rows, for any proof data over `V`'s arrays
    whose body leaves that block in place. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The prototypes' window holds the whole prototype array at every point: fetched at the first, and its block index
    never moves. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Likewise the squared norms' window. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output's buffer -/

/-- The whole-buffer rectangles the body loads and stores through. -/
abbrev qRect : Rect S1024x1600 := Rect.unit (s := S1024x1600) ![0, 0] S1024x1600.size inb_S1024x1600_S1024x1600_0_0
abbrev pRect : Rect S512x1600 := Rect.unit (s := S512x1600) ![0, 0] S512x1600.size inb_S512x1600_S512x1600_0_0
abbrev nRect : Rect S1x512 := Rect.unit (s := S1x512) ![0, 0] S1x512.size inb_S1x512_S1x512_0_0
abbrev oRect : Rect S1024x512 := Rect.unit (s := S1024x512) ![0, 0] S1024x512.size inb_S1024x512_S1024x512_0_0

/-- The output buffer after the body: its one whole-buffer store of the body's arithmetic on the three input blocks. -/
def left1 (x0 : Vec F S1024x1600 .f32) (x1 : Vec F S512x1600 .bf16) (x2 : Vec F S1x512 .f32) : Vec F S1024x512 .f32 :=
  View.canon [⟨oRect, k1_pay1 (View.ld x0 qRect) (View.ld x1 pRect) (View.ld x2 nRect)⟩]

/-- The one store covers the buffer. -/
theorem left1_cover (p0 : Vec F S1024x512 .f32) (y : S1024x512.Idx) :
    ∃ pc ∈ ([⟨oRect, p0⟩] : List (View.Piece (Elt F) S1024x512 .f32)), y ∈ pc.1.set :=
  View.cover_of_tiled [⟨oRect, p0⟩] S1024x512.size (by rfl) y

/-! ## The body's triple -/

set_option maxHeartbeats 1000000 in
/-- The body on whole staging memrefs — the inputs' at contents `x0`, `x1`, `x2`, the output's at anything — runs to a
    continuation that holds the inputs' as they were and the output's at `left1 x0 x1 x2`. -/
theorem body1 (c : Dev nD) (E : Set ℕ) (i : grid1.Coords)
    (arg1 : Memref sig .tc .vmem S1024x1600 .f32) (harg1 : arg1.IsWhole) (arg2 : Memref sig .tc .vmem S512x1600 .bf16) (harg2 : arg2.IsWhole)
    (arg3 : Memref sig .tc .vmem S1x512 .f32) (harg3 : arg3.IsWhole) (arg4 : Memref sig .tc .vmem S1024x512 .f32) (harg4 : arg4.IsWhole)
    (x0 : Vec F S1024x1600 .f32) (x1 : Vec F S512x1600 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (left1 x0 x1 x2)) -∗ K ⟨⟩))
      ⊢ wp frame (wpE (defs₀ (F := F)) Variants.none c none) E (cc1__dist_softmax_kernel i arg1 harg1 arg2 harg2 arg3 harg3 arg4 harg4) K := by
  simp only [cc1__dist_softmax_kernel_eq_skeleton]; unfold cc1__dist_softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (left1_cover _)

/-! ## The proof data -/

/-- The proof data of the second call on core `c`: its arrays as the call finds them; after the body at point `t` each
    input's buffer still at its block and the output's at `left1` of the three blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = left1 (blk1 V c 0 t) (blk1 V c 1 t) (blk1 V c 2 t) := by dsimp only [dat1]

theorem dat1_found0 (c : Dev nD) (t : Fin cfg1.N) (d) : (dat1 V c).before 0 t d = blk1 V c 0 t :=
  found1_0_of V (dat1 V c) (dat1_A V c 0) (dat1_after0 V c) t d
theorem dat1_found1 (c : Dev nD) (t : Fin cfg1.N) (d) : (dat1 V c).before 1 t d = blk1 V c 1 t :=
  found1_1_of V (dat1 V c) (dat1_A V c 1) (dat1_after1 V c) t d
theorem dat1_found2 (c : Dev nD) (t : Fin cfg1.N) (d) : (dat1 V c).before 2 t d = blk1 V c 2 t :=
  found1_2_of V (dat1 V c) (dat1_A V c 2) (dat1_after2 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `body1` applies; the invariant and what the core
    owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation1 (c : Dev nD) : BodyObligation (dat1 (F := F) V c) (defs₀ (F := F)) Variants.none () Set.univ := fun t => by
  rw [bigSep_W1, bigSep_W1]
  exact body1_at V c t

end Cert.Kernel.Hand

end
-- ==== Proof.KRun.lean ====
/-
  The whole program's run: @main as a stretch of host operations followed by the two kernel calls, each call a region of
  the pipeline library entered from what the item before it left.

  Between two items the TensorCore holds every unscoped buffer whole at a named valuation: the launch memory; then what
  the thirteen host operations leave; then, after the first call, the same with that call's arrays at what its
  write-backs leave (its two outputs: the prototypes and their squared norms); then, after the second call, the same with
  the result array at what that call's write-backs leave.  Beside the buffers ride the generator register at some state
  and the core owing nothing.  Each region takes its arrays out of the unscoped buffers at entry and puts them back at
  exit; the first call's invariant carries its scratch's running sums between points and forgets them at the end.

  The run's last state is read against the last valuation: every unscoped buffer ends there — the three arguments, which
  no item writes, at their launch contents (the frame), and the result at the second call's final array (what the value
  claim reads).  Generic in the float instance.
-/
import proofs.«401966_j16947940950251_2_alg».proof.Proof.KRegion0
import proofs.«401966_j16947940950251_2_alg».proof.Proof.KRegion1
import proofs.«401966_j16947940950251_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch, and after the host operations (the first call's entry). -/
abbrev W0 : Dev nD → Valuation τ sig (Elt F) := fun c => Gen.V0 m c
abbrev W1 : Dev nD → Valuation τ sig (Elt F) := fun c => Gen.V1 m c
/-- The same read at the TensorCore's references: what the first call's proof data take. -/
abbrev E1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references: the first call's exit, the second call's entry. -/
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched: no host operation writes one and no call stages one -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl
/-- The result buffer ends at the second call's final array. -/
theorem W3_main_v11 (c : Dev nD) : W3 m c (Proc.devRef .tc main_v11) = (dat1 (E2 m) c).arrAt 3 cfg1.N :=
  W3_arr m c 3

/-! ## The proof data family and the thread state -/

/-- Every pipeline's proof data, each at its call's entry contents: a literal match on the pipeline. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, the core owing nothing. -/
abbrev riding (c : Dev nD) : sProp 𝕄 := iprop((∃ r, prngReg c r) ∗ ∃ W, owes (c : Thread nD τ) (0 : CellTallies nD τ sig Unit) W)
/-- The host stretch as a segment, from the launch contents. -/
abbrev hostItem : Pipeline.HostSeg (Name := ℕ) (U := UR sig nD τ) (pcfgs (F := F)) defs₀ noVariants noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev endState (c : Dev nD) : sProp 𝕄 := iprop(StableHlo.held (c : Thread nD τ) (Pipeline.ucRefs τ sig) (W3 m c) ∗ ∃ r, prngReg c r)

/-! ## The two calls as regions -/

set_option backward.isDefEq.respectTransparency.types false in
/-- The first call: entered from every unscoped buffer at `W1`, left at `W2`.  Its arrays are split out of the unscoped
    buffers at entry and put back at exit; the generator register goes into the invariant and comes out; the invariant's
    running sums are forgotten at the exit; nothing owed; no semaphore of the kernel's own. -/
def region0 : Pipeline.RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
          ∗ Pipeline.scopedRest spec0 c) ⊢ (Pipeline.ΦA spec0 c : sProp 𝕄) := by
      unfold Pipeline.ΦA
      iintro ⟨Hp, -, Hr⟩
      isplitl [Hr]; · iexact Hr
      iexact Hp
    exact h.trans (enter0 (E1 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (leave0 (E1 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`, which the launch reads at the end. -/
def region1 : Pipeline.RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ noPairs noLevel 1 fun _ _ => rfl
  pre c := iprop(StableHlo.held (c : Thread nD τ) (Pipeline.ucRefs τ sig) (W2 m c) ∗ riding c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev items : List (Pipeline.Seg (pcfgs (F := F)) Gen.adm (pdats m) () defs₀ noVariants noPairs noLevel) :=
  [ .host (hostItem m), .region (region0 m), .region (region1 m) ]
/-- @main IS the run of the items. -/
theorem main_items (c : Dev nD) : main (F := F) c = Pipeline.Seg.run (items m) := (main_chain c).trans (by chain_rfl)

set_option backward.isDefEq.respectTransparency.types false in
/-- THE RUN.  At the compiled mesh, from any memory with zero counters, every weakly fair execution of @main on the
    TensorCores terminates, nothing faulting, and in every final state every unscoped buffer holds the last valuation's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := endState m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unscoped main_arg0 (by decide))).trans (W3_main_arg0 m c),
     (h c _ (mem_unscoped main_arg1 (by decide))).trans (W3_main_arg1 m c),
     (h c _ (mem_unscoped main_arg2 (by decide))).trans (W3_main_arg2 m c)⟩) (run_all m ρ)

/-- The same run with the result named: the result buffer ends at the second call's final array, the arguments as
    launched. -/
theorem run_result : θ_run defs (onTc (τ := τ) (main (F := F))) ⟨m, fun _ => 0, ρ⟩ (fun r => ∀ c : Dev nD,
      r.2.mem ((c.tc : Thread nD τ).loc main_v11) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unscoped main_v11 (by decide))).trans (W3_main_v11 m c),
     (h c _ (mem_unscoped main_arg0 (by decide))).trans (W3_main_arg0 m c),
     (h c _ (mem_unscoped main_arg1 (by decide))).trans (W3_main_arg1 m c),
     (h c _ (mem_unscoped main_arg2 (by decide))).trans (W3_main_arg2 m c)⟩) (run_all m ρ)

end Cert.Kernel.Hand

end
-- ==== Proof.KIRegion0Base.lean ====
/-
  The first kernel call of the program (class sums and prototypes), as one region of the pipeline library: what its
  body's three control cases are stated over.

  The call walks the 2560 support rows in five blocks of 512.  Its body keeps a running sum of the class sums in a
  scratch buffer of its own, which lives across the five points: at the FIRST point it clears the scratch, at EVERY
  point it adds the block's contribution (a one-hot matrix of the block's labels times the block's rows), and at the LAST
  point it scales the sums by the reciprocal counts and stores the prototypes and their squared norms into the two
  output windows.  Both output windows have a constant block index: they are idle (nothing stored, nothing written back)
  at the first four points and written back once, after the last.

  Here: the blocks the body finds in the three input windows (support rows and labels move with the point; the
  reciprocal counts are one whole array fetched at the first point), the two branch conditions decided over the five
  points, where the output windows are idle, and the names of the staging and scratch memrefs.  Stated at a parameter
  `V`, the TensorCore's buffer contents when the call is entered.  Generic in the float instance.
-/
import proofs.«401966_j16947940950251_2_alg».proof.Proof.Gen.KernelIdeal.Launch
import proofs.«401966_j16947940950251_2_alg».proof.Proof.Gen.KernelIdeal.Skeleton
import proofs.«401966_j16947940950251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The support window's staging buffer holds the point's block of 512 support rows, for any proof data over `V`'s
    arrays whose body leaves that block in place. -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Likewise the labels' window. -/
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The reciprocal counts' window holds the whole array at every point: fetched at the first, and its block index never
    moves. -/
theorem found0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The body's two branch conditions -/

/-- "This is the first point" (the branch that clears the running sums), from the grid coordinates. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 5 = 0 :=
  (by decide +kernel : ∀ t : Fin grid0.N, isFirst (grid0.coords t) ↔ t.val % 5 = 0)

/-- "This is the last point" (the branch that stores the prototypes and their squared norms). -/
abbrev isLast (i : grid0.Coords) : Prop := k0_cond2 i = 1#1
/-- It holds at point 4 only. -/
theorem isLast_iff : ∀ t : Fin cfg0.N, isLast (grid0.coords t) ↔ t.val % 5 = 4 :=
  (by decide +kernel : ∀ t : Fin grid0.N, isLast (grid0.coords t) ↔ t.val % 5 = 4)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Before the last point the body stores nothing into either output window, -/
theorem idle0_3 : ∀ t : Fin cfg0.N, ¬isLast (grid0.coords t) → cfg0.idle 3 (grid0.coords t) = true := by decide +kernel
theorem idle0_4 : ∀ t : Fin cfg0.N, ¬isLast (grid0.coords t) → cfg0.idle 4 (grid0.coords t) = true := by decide +kernel
/-- and the pipeline writes neither back there; -/
theorem noFlush0_3 : ∀ t : Fin cfg0.N, ¬isLast (grid0.coords t) → (cfg0.win 3).flush t = false := by decide +kernel
theorem noFlush0_4 : ∀ t : Fin cfg0.N, ¬isLast (grid0.coords t) → (cfg0.win 4).flush t = false := by decide +kernel
/-- at the last point it stores into both. -/
theorem live0_3 : ∀ t : Fin cfg0.N, isLast (grid0.coords t) → cfg0.idle 3 (grid0.coords t) = false := by decide +kernel
theorem live0_4 : ∀ t : Fin cfg0.N, isLast (grid0.coords t) → cfg0.idle 4 (grid0.coords t) = false := by decide +kernel

/-! ## The memrefs the body is called with -/

/-- One staging buffer of each output window, through which its contents are stated. -/
abbrev protoView : View sig .tc .vmem S512x1600 .bf16 := (Memref.whole cc0_stg3_0 : Memref sig .tc .vmem S512x1600 .bf16).view
abbrev normView : View sig .tc .vmem S1x512 .f32 := (Memref.whole cc0_stg4_0 : Memref sig .tc .vmem S1x512 .f32).view
/-- Each window's current staging memref at point `t`, as the pipeline passes it, and its wholeness. -/
abbrev ms0_0 (t : Fin cfg0.N) : Memref sig .tc .vmem S512x1600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1600 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The scratch that carries the running class sums between points: a whole scoped buffer of the kernel's own. -/
abbrev accM : Memref sig .tc .vmem S512x1600 .f32 := Memref.whole cc0_scratch0
abbrev accView : View sig .tc .vmem S512x1600 .f32 := accM.view

/-- The core's other scoped buffers that this call does not stage — the second call's staging buffers —, each whole
    at some contents: they ride through this call untouched. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant the launch hands the call — the scoped buffers no window of it stages and the generator register —
    with the scratch as a memref owned at some contents beside the other scoped buffers. -/
theorem restInv0_eq (c : Dev nD) :
    (Pipeline.ΦA spec0 c : sProp 𝕄)
      = iprop(iprop((∃ d, owns (c : Thread nD τ) accM fullShare d) ∗ otherScoped0 c) ∗ (∃ r, prngReg c r)) := by
  unfold Pipeline.ΦA otherScoped0; rw [scopedRest0_eq]; simp only [accM, owns_whole]; try rfl

end Cert.KernelIdeal.Hand

end
-- ==== Proof.KIRegion0First.lean ====
/-
  The first kernel call's body AT THE FIRST POINT (the clearing branch taken, the storing branch not): its whole run on the staging and scratch memrefs, by the symbolic executor
  over the body's skeleton, each branch decided by the case's hypotheses.  The scratch may hold anything when the point starts; the body clears it, adds the block's contribution and leaves it
  written; the two output windows are idle here and are handed back untouched.
  The pieces each buffer ends with are found by the run itself and carried as the witness of the statement; what they
  hold as values is read off them elsewhere.  Generic in the float instance.
-/
import proofs.«401966_j16947940950251_2_alg».proof.Proof.KIRegion0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point, with the pieces the scratch ends with. -/
noncomputable def runFirst (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i)
    (x0 : Vec F S512x1600 .f32) (x1 : Vec F S512x1 .i32) (x2 : Vec F S512x1 .f32) :
    { LS : List (View.Piece (Elt F) S512x1600 .f32) //
      ∀ (xi3 : Vec F S512x1600 .bf16) (xi4 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, fun xi3 xi4 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Hand

end
-- ==== Proof.KIRegion0Mid.lean ====
/-
  The first kernel call's body AT A MIDDLE POINT (neither branch taken): its whole run on the staging and scratch memrefs, by the symbolic executor
  over the body's skeleton, each branch decided by the case's hypotheses.  The scratch holds the running sums `xs` the point before left; the body adds the block's contribution and leaves it
  written; the two output windows are idle and are handed back untouched.
  The pieces each buffer ends with are found by the run itself and carried as the witness of the statement; what they
  hold as values is read off them elsewhere.  Generic in the float instance.
-/
import proofs.«401966_j16947940950251_2_alg».proof.Proof.KIRegion0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a middle point, with the pieces the scratch ends with. -/
noncomputable def runMid (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i)
    (x0 : Vec F S512x1600 .f32) (x1 : Vec F S512x1 .i32) (x2 : Vec F S512x1 .f32) (xs : Vec F S512x1600 .f32) :
    { LS : List (View.Piece (Elt F) S512x1600 .f32) //
      ∀ (xi3 : Vec F S512x1600 .bf16) (xi4 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, fun xi3 xi4 E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Hand

end
-- ==== Proof.KIRegion0Last.lean ====
/-
  The first kernel call's body AT THE LAST POINT (the clearing branch not taken, the storing branch taken): its whole run on the staging and scratch memrefs, by the symbolic executor
  over the body's skeleton, each branch decided by the case's hypotheses.  The scratch holds the running sums `xs` the point before left; the body adds the last block's contribution, then scales
  the sums by the reciprocal counts and stores the prototypes and their squared norms into the two output windows, whose
  buffers may hold anything when the point starts.
  The pieces each buffer ends with are found by the run itself and carried as the witness of the statement; what they
  hold as values is read off them elsewhere.  Generic in the float instance.
-/
import proofs.«401966_j16947940950251_2_alg».proof.Proof.KIRegion0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the last point, with the pieces the two output buffers and the scratch end with. -/
noncomputable def runLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i)
    (x0 : Vec F S512x1600 .f32) (x1 : Vec F S512x1 .i32) (x2 : Vec F S512x1 .f32) (xs : Vec F S512x1600 .f32) :
    Σ' (L3 : List (View.Piece (Elt F) S512x1600 .bf16)) (L4 : List (View.Piece (Elt F) S1x512 .f32)),
    { LS : List (View.Piece (Elt F) S512x1600 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS)) -∗ K ⟨⟩))
          ⊢ wp frame (wpE (defs₀ (F := F)) Variants.none c none) E (cc0__proto_kernel i arg1 harg1 arg2 harg2 arg3 harg3 arg4 harg4 arg5 harg5 arg6 harg6) K } := by
  refine ⟨?_, ?_, ?_, fun E K => ?run⟩
  case run =>
    simp only [cc0__proto_kernel_eq_skeleton]; unfold cc0__proto_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg1.eq_unread hf0; obtain rfl := harg2.eq_unread hf1; obtain rfl := harg3.eq_unread hf2
    obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact HS

end Cert.KernelIdeal.Hand

end
-- ==== Proof.KIRegion0.lean ====
/-
  The first kernel call of the program as one region of the pipeline library: what its two output buffers and its
  scratch hold after each of the five grid points, the invariant that carries the running class sums from point to point,
  the proof data, and the body obligation.

  After point `n` the scratch holds the running sums over blocks `0 … n`: at the first point the body's run from a
  cleared scratch, at every later point the body's run over what the point before left.  The two output buffers hold the
  prototypes and their squared norms after the last point; before it they are idle — the body stores nothing into them
  and the pipeline writes nothing back — and what is recorded for them there is a placeholder nothing consults.
  The region's invariant before point `n + 1` is: the scratch owned at the running sums after point `n`, the other scoped
  buffers and the generator register at some state; before the first point it is what the launch hands over (the scratch
  at anything).  Stated at a parameter `V`, the TensorCore's buffer contents when the call is entered.  Generic in the
  float instance.
-/
import proofs.«401966_j16947940950251_2_alg».proof.Proof.KIRegion0First
import proofs.«401966_j16947940950251_2_alg».proof.Proof.KIRegion0Mid
import proofs.«401966_j16947940950251_2_alg».proof.Proof.KIRegion0Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- The placeholders recorded for the two output buffers at the points where they are idle. -/
def idleProto : Vec F S512x1600 .bf16 := protoView.read (Elt F) (protoView.writes (Elt F) protoView.junk [])
def idleNorm : Vec F S1x512 .f32 := normView.read (Elt F) (normView.writes (Elt F) normView.junk [])

/-- The first point's pieces for the scratch cover it. -/
theorem accFirst_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i) (x0 : Vec F S512x1600 .f32) (x1 : Vec F S512x1 .i32) (x2 : Vec F S512x1 .f32) (y : S512x1600.Idx) :
    ∃ pc ∈ (runFirst c i arg1 harg1 arg2 harg2 arg3 harg3 arg4 harg4 arg5 harg5 arg6 harg6 hc0 hc1 x0 x1 x2).1, y ∈ pc.1.set :=
  View.cover_of_tiledL (runFirst c i arg1 harg1 arg2 harg2 arg3 harg3 arg4 harg4 arg5 harg5 arg6 harg6 hc0 hc1 x0 x1 x2).1 S512x1600.size (by sl_kernel_rfl) y

/-- The running sums after the first point. -/
def accFirst (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i) (x0 : Vec F S512x1600 .f32) (x1 : Vec F S512x1 .i32) (x2 : Vec F S512x1 .f32) : Vec F S512x1600 .f32 :=
  accView.read (Elt F) (accView.writes (Elt F) accView.junk (runFirst c i arg1 harg1 arg2 harg2 arg3 harg3 arg4 harg4 arg5 harg5 arg6 harg6 hc0 hc1 x0 x1 x2).1)

/-- A middle point's pieces for the scratch cover it. -/
theorem accMid_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i) (x0 : Vec F S512x1600 .f32) (x1 : Vec F S512x1 .i32) (x2 : Vec F S512x1 .f32) (xs : Vec F S512x1600 .f32) (y : S512x1600.Idx) :
    ∃ pc ∈ (runMid c i arg1 harg1 arg2 harg2 arg3 harg3 arg4 harg4 arg5 harg5 arg6 harg6 hc0 hc1 x0 x1 x2 xs).1, y ∈ pc.1.set :=
  View.cover_of_tiledL (runMid c i arg1 harg1 arg2 harg2 arg3 harg3 arg4 harg4 arg5 harg5 arg6 harg6 hc0 hc1 x0 x1 x2 xs).1 S512x1600.size (by sl_kernel_rfl) y

/-- The running sums after a middle point, over what the point before left. -/
def accMid (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i) (x0 : Vec F S512x1600 .f32) (x1 : Vec F S512x1 .i32) (x2 : Vec F S512x1 .f32) (xs : Vec F S512x1600 .f32) : Vec F S512x1600 .f32 :=
  accView.read (Elt F) (accView.writes (Elt F) accView.junk (runMid c i arg1 harg1 arg2 harg2 arg3 harg3 arg4 harg4 arg5 harg5 arg6 harg6 hc0 hc1 x0 x1 x2 xs).1)

/-- The last point's pieces cover the prototypes' buffer, the norms' buffer and the scratch. -/
theorem protoLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S512x1600.Idx) :
    ∃ pc ∈ (runLast c i arg1 harg1 arg2 harg2 arg3 harg3 arg4 harg4 arg5 harg5 arg6 harg6 hc0 hc1 x0 x1 x2 xs).1, y ∈ pc.1.set :=
  View.cover_of_tiledL (runLast c i arg1 harg1 arg2 harg2 arg3 harg3 arg4 harg4 arg5 harg5 arg6 harg6 hc0 hc1 x0 x1 x2 xs).1 S512x1600.size (by sl_kernel_rfl) y
theorem normLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S1x512.Idx) :
    ∃ pc ∈ (runLast c i arg1 harg1 arg2 harg2 arg3 harg3 arg4 harg4 arg5 harg5 arg6 harg6 hc0 hc1 x0 x1 x2 xs).2.1, y ∈ pc.1.set :=
  View.cover_of_tiledL (runLast c i arg1 harg1 arg2 harg2 arg3 harg3 arg4 harg4 arg5 harg5 arg6 harg6 hc0 hc1 x0 x1 x2 xs).2.1 S1x512.size (by sl_kernel_rfl) y
theorem accLast_cover (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) (y : S512x1600.Idx) :
    ∃ pc ∈ (runLast c i arg1 harg1 arg2 harg2 arg3 harg3 arg4 harg4 arg5 harg5 arg6 harg6 hc0 hc1 x0 x1 x2 xs).2.2.1, y ∈ pc.1.set :=
  View.cover_of_tiledL (runLast c i arg1 harg1 arg2 harg2 arg3 harg3 arg4 harg4 arg5 harg5 arg6 harg6 hc0 hc1 x0 x1 x2 xs).2.2.1 S512x1600.size (by sl_kernel_rfl) y

/-- What the last point leaves in the prototypes' buffer, the norms' buffer and the scratch. -/
def protoLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S512x1600 .bf16 :=
  protoView.read (Elt F) (protoView.writes (Elt F) protoView.junk (runLast c i arg1 harg1 arg2 harg2 arg3 harg3 arg4 harg4 arg5 harg5 arg6 harg6 hc0 hc1 x0 x1 x2 xs).1)
def normLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S1x512 .f32 :=
  normView.read (Elt F) (normView.writes (Elt F) normView.junk (runLast c i arg1 harg1 arg2 harg2 arg3 harg3 arg4 harg4 arg5 harg5 arg6 harg6 hc0 hc1 x0 x1 x2 xs).2.1)
def accLast (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) : Vec F S512x1600 .f32 :=
  accView.read (Elt F) (accView.writes (Elt F) accView.junk (runLast c i arg1 harg1 arg2 harg2 arg3 harg3 arg4 harg4 arg5 harg5 arg6 harg6 hc0 hc1 x0 x1 x2 xs).2.2.1)

/-! ## Point by point -/

theorem lt5 {n : ℕ} (hn : n < cfg0.N) : n < 5 := lt_of_lt_of_eq hn (show cfg0.N = 5 from N_0)

/-- THE ACCUMULATION.  The prototypes' buffer, the norms' buffer and the scratch after the body at position `n`: the
    first point's run from a cleared scratch; afterwards the run of the case the position selects over what the
    position before left in the scratch. -/
def stateAt (c : Dev nD) : (n : ℕ) → n < cfg0.N → Vec F S512x1600 .bf16 × Vec F S1x512 .f32 × Vec F S512x1600 .f32
  | 0, hn => (idleProto, idleNorm,
      accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) accM (Memref.isWhole_whole _) ((isFirst_iff ⟨0, hn⟩).mpr (Nat.zero_mod _)) (fun h => (fun h => by (try dsimp only at h); omega) ((isLast_iff ⟨0, hn⟩).mp h)) (blk0 V c 0 ⟨0, hn⟩) (blk0 V c 1 ⟨0, hn⟩) (blk0 V c 2 ⟨0, hn⟩))
  | n + 1, hn =>
    if h1 : (n + 1) % 5 = 4 then
      (protoLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2,
       normLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2,
       accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) ((isLast_iff ⟨n + 1, hn⟩).mpr h1) (blk0 V c 0 ⟨n + 1, hn⟩) (blk0 V c 1 ⟨n + 1, hn⟩) (blk0 V c 2 ⟨n + 1, hn⟩) (stateAt c n (Nat.lt_of_succ_lt hn)).2.2)
    else
      (idleProto, idleNorm,
       accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) accM (Memref.isWhole_whole _) (fun h => (fun h => by have := lt5 hn; (try dsimp only at h); omega) ((isFirst_iff ⟨n + 1, hn⟩).mp h)) (fun h => h1 ((isLast_iff ⟨n + 1, hn⟩).mp h)) (blk0 V c 0 ⟨n + 1, hn⟩) (blk0 V c 1 ⟨n + 1, hn⟩) (blk0 V c 2 ⟨n + 1, hn⟩) (stateAt c n (Nat.lt_of_succ_lt hn)).2.2)

/-- At the first point. -/
theorem stateAt_first (c : Dev nD) (t : Fin cfg0.N) (h0 : t.val % 5 = 0) (h1 : ¬t.val % 5 = 4) :
    stateAt V c t.val t.isLt = (idleProto, idleNorm,
      accFirst c (grid0.coords t) (ms0_0 t) (hs0_0 t) (ms0_1 t) (hs0_1 t) (ms0_2 t) (hs0_2 t) (ms0_3 t) (hs0_3 t) (ms0_4 t) (hs0_4 t) accM (Memref.isWhole_whole _) ((isFirst_iff t).mpr h0) (fun h => h1 ((isLast_iff t).mp h)) (blk0 V c 0 t) (blk0 V c 1 t) (blk0 V c 2 t)) := by
  obtain ⟨n, hn⟩ := t
  cases n with
  | zero => exact rfl
  | succ n => exact (by exfalso; have := lt5 hn; (try dsimp only at h0); omega)

/-- At a middle point, over what the point before left. -/
theorem stateAt_mid (c : Dev nD) (t : Fin cfg0.N) (h0 : ¬t.val % 5 = 0) (h1 : ¬t.val % 5 = 4) :
    stateAt V c t.val t.isLt = (idleProto, idleNorm,
      accMid c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) (fun h => h1 ((isLast_iff t).mp h)) (blk0 V c 0 t) (blk0 V c 1 t) (blk0 V c 2 t)
        (stateAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- At the last point, over what the point before left. -/
theorem stateAt_last (c : Dev nD) (t : Fin cfg0.N) (h0 : ¬t.val % 5 = 0) (h1 : t.val % 5 = 4) :
    stateAt V c t.val t.isLt =
      (protoLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2,
       normLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2,
       accLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t)
          (stateAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The invariant that carries the running sums -/

/-- The region's invariant before position `n`: before the first point what the launch hands over; afterwards the
    scratch owned at the running sums the point before left, beside the other scoped buffers and the generator register. -/
def carried (c : Dev nD) : (n : ℕ) → n ≤ cfg0.N → sProp 𝕄
  | 0, _ => Pipeline.ΦA spec0 c
  | n + 1, hn => iprop(iprop(owns (c : Thread nD τ) accM fullShare ((stateAt V c n hn).2.2) ∗ otherScoped0 c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare ((stateAt V c n hn).2.2) ∗ otherScoped0 c) ∗ (∃ r, prngReg c r)) := rfl

theorem carried_pos (c : Dev nD) (n : ℕ) (h : n ≤ cfg0.N) (hz : n ≠ 0) :
    carried V c n h = iprop(iprop(owns (c : Thread nD τ) accM fullShare ((stateAt V c (n - 1) (by omega)).2.2) ∗ otherScoped0 c) ∗ (∃ r, prngReg c r)) := by
  cases n with
  | zero => exact absurd rfl hz
  | succ n => rfl

/-! ## The proof data -/

/-- The proof data of the first call on core `c`: its arrays as the call finds them; after the body at point `t` each
    input's buffer still at its block and the two outputs' at `stateAt`'s components; the invariant `carried`; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => (stateAt V c t.val t.isLt).1
    | ⟨4, _⟩ => (stateAt V c t.val t.isLt).2.1
  Φ t := carried V c t.val (Nat.le_of_lt_succ t.isLt)
  q _ := fullShare
  owed _ := 0

theorem dat0_A (c : Dev nD) (w : Fin cfg0.W) : (dat0 V c).A w = V c (Pipeline.arrRef spec0 w) := by
  dsimp only [dat0]

theorem dat0_inv_castSucc (c : Dev nD) (t : Fin cfg0.N) :
    (dat0 V c).Φ t.castSucc = carried V c t.val (Nat.le_of_lt t.isLt) := by
  dsimp only [dat0]; simp only [Fin.coe_castSucc]

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = (stateAt V c t.val t.isLt).1 := by dsimp only [dat0]
theorem dat0_after4 (c : Dev nD) (t : Fin cfg0.N) : (dat0 V c).after 4 t = (stateAt V c t.val t.isLt).2.1 := by dsimp only [dat0]

theorem dat0_found0 (c : Dev nD) (t : Fin cfg0.N) (d) : (dat0 V c).before 0 t d = blk0 V c 0 t :=
  found0_0_of V (dat0 V c) (dat0_A V c 0) (dat0_after0 V c) t d
theorem dat0_found1 (c : Dev nD) (t : Fin cfg0.N) (d) : (dat0 V c).before 1 t d = blk0 V c 1 t :=
  found0_1_of V (dat0 V c) (dat0_A V c 1) (dat0_after1 V c) t d
theorem dat0_found2 (c : Dev nD) (t : Fin cfg0.N) (d) : (dat0 V c).before 2 t d = blk0 V c 2 t :=
  found0_2_of V (dat0 V c) (dat0_A V c 2) (dat0_after2 V c) t d

/-! ## The body obligation -/

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (ms0_0 t) fullShare (blk0 V c 0 t) := by
  unfold Dat.leavesExact; rw [live0_0 t, dat0_after0]
theorem leaves0_1 (c : Dev nD) (t : Fin cfg0.N) :
    (dat0 V c).leavesExact 1 t = owns (c : Thread nD τ) (ms0_1 t) fullShare (blk0 V c 1 t) := by
  unfold Dat.leavesExact; rw [live0_1 t, dat0_after1]
theorem leaves0_2 (c : Dev nD) (t : Fin cfg0.N) :
    (dat0 V c).leavesExact 2 t = owns (c : Thread nD τ) (ms0_2 t) fullShare (blk0 V c 2 t) := by
  unfold Dat.leavesExact; rw [live0_2 t, dat0_after2]

set_option maxHeartbeats 4800000 in
/-- The body at any point.  The inputs' buffers hold their blocks; the point's position says which case it is in; the
    invariant hands the body the scratch at what the point before left (at anything at the first point) and takes it
    back at this point's running sums; an idle output's buffer is handed back as found; the core owes nothing throughout. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1, dat0_found2]
  rw [show (dat0 V c).owesAt () t.succ = (dat0 V c).owesAt () t.castSucc from rfl]
  rw [show (dat0 V c).Φ t.succ = carried V c (t.val + 1) t.isLt from rfl, carried_succ]
  rw [leaves0_0, leaves0_1, leaves0_2]
  have hN : t.val < 5 := lt5 t.isLt
  by_cases h1 : t.val % 5 = 4
  · -- the last point
    have h0 : ¬t.val % 5 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast_iff t).mpr h1)], dat0_after3]
    rw [show (dat0 V c).leavesExact 4 t = owns (c : Thread nD τ) (ms0_4 t) fullShare ((dat0 V c).after 4 t) from by
      unfold Dat.leavesExact; rw [live0_4 t ((isLast_iff t).mpr h1)], dat0_after4]
    rw [stateAt_last V c t h0 h1]
    unfold protoLast normLast accLast; (try dsimp only)
    rw [dat0_inv_castSucc V c t, carried_pos V c _ _ hz]
    iintro ⟨⟨⟨HS, Hother⟩, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ (fun h => h0 ((isFirst_iff t).mp h)) ((isLast_iff t).mpr h1) (blk0 V c 0 t) (blk0 V c 1 t) (blk0 V c 2 t) _).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, ⟨%es, HS⟩⟩
    isplitl [HS Hother Hg]
    · isplitl [HS Hother]
      · isplitl [HS]
        · unfold owns; iexists _; isplitr
          swap; · iexact HS
          ipureintro; exact View.read_writes_of_cover _ _ _ _ _ (accLast_cover c _ _ _ _ _ _ _ _ _ _ _ _ _ _ _ _ _ _ _)
        iexact Hother
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (protoLast_cover c _ _ _ _ _ _ _ _ _ _ _ _ _ _ _ _ _ _ _)
    unfold owns; iexists _; isplitr
    swap; · iexact H4
    ipureintro; exact View.read_writes_of_cover _ _ _ _ _ (normLast_cover c _ _ _ _ _ _ _ _ _ _ _ _ _ _ _ _ _ _ _)
  · have hidle : ¬isLast (grid0.coords t) := fun h => h1 ((isLast_iff t).mp h)
    rw [Dat.leavesExact_idle (dat0 V c) 3 t (idle0_3 t hidle) (noFlush0_3 t hidle)]
    rw [Dat.leavesExact_idle (dat0 V c) 4 t (idle0_4 t hidle) (noFlush0_4 t hidle)]
    by_cases h0 : t.val % 5 = 0
    · -- the first point
      have hz : t.val = 0 := by omega
      rw [stateAt_first V c t h0 h1]
      unfold accFirst; (try dsimp only)
      rw [dat0_inv_castSucc V c t, carried_zero V c _ _ hz, restInv0_eq]
      iintro ⟨⟨⟨HS, Hother⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ ((isFirst_iff t).mpr h0) hidle (blk0 V c 0 t) (blk0 V c 1 t) (blk0 V c 2 t)).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hother Hg]
      · isplitl [HS Hother]
        · isplitl [HS]
          · unfold owns; iexists _; isplitr
            swap; · iexact HS
            ipureintro; exact View.read_writes_of_cover _ _ _ _ _ (accFirst_cover c _ _ _ _ _ _ _ _ _ _ _ _ _ _ _ _ _ _)
          iexact Hother
        iexact Hg
      isplitl [Ho]; · iexact Ho
      isplitl [H0]; · iexact H0
      isplitl [H1]; · iexact H1
      isplitl [H2]; · iexact H2
      isplitl [H3]; · iexists _; iexact H3
      iexists _; iexact H4
    · -- a middle point
      have hz : t.val ≠ 0 := by omega
      rw [stateAt_mid V c t h0 h1]
      unfold accMid; (try dsimp only)
      rw [dat0_inv_castSucc V c t, carried_pos V c _ _ hz]
      iintro ⟨⟨⟨HS, Hother⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((isFirst_iff t).mp h)) hidle (blk0 V c 0 t) (blk0 V c 1 t) (blk0 V c 2 t) _).2 _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hother Hg]
      · isplitl [HS Hother]
        · isplitl [HS]
          · unfold owns; iexists _; isplitr
            swap; · iexact HS
            ipureintro; exact View.read_writes_of_cover _ _ _ _ _ (accMid_cover c _ _ _ _ _ _ _ _ _ _ _ _ _ _ _ _ _ _ _)
          iexact Hother
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem obligation0 (c : Dev nD) : BodyObligation (dat0 (F := F) V c) (defs₀ (F := F)) Variants.none () Set.univ := fun t => by
  rw [bigSep_W0, bigSep_W0]
  exact body0_at V c t

/-- What the launch hands the region is the invariant before the first point. -/
theorem enter0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After the last point the invariant gives back what the launch handed over: the running sums' name is forgotten. -/
theorem leave0 (c : Dev nD) : (dat0 V c).Φ (Fin.last cfg0.N) ⊢ Pipeline.ΦA spec0 c := by
  have ht : (Fin.last cfg0.N).val ≠ 0 := by rw [Fin.val_last]; have : cfg0.N = 5 := N_0; omega
  rw [show (dat0 V c).Φ (Fin.last cfg0.N) = carried V c (Fin.last cfg0.N).val (Nat.le_of_lt_succ (Fin.last cfg0.N).isLt) from rfl,
    carried_pos V c _ _ ht, restInv0_eq]
  iintro ⟨⟨HS, Hother⟩, Hg⟩
  isplitl [HS Hother]
  · isplitl [HS]
    · iexists _; iexact HS
    iexact Hother
  iexact Hg

end Cert.KernelIdeal.Hand

end
-- ==== Proof.KIRegion1.lean ====
/-
  The second kernel call of the program (scores and log-softmax), as one region of the pipeline library: for each of
  its eight grid points, which block of each operand the body finds in its staging buffer, what the body leaves in the
  output's staging buffer, the body's triple, and the proof data and body obligation the region rule takes.

  The call has three inputs — a block of 1024 query rows, moving with the point; the 512 prototypes and their 512
  squared norms, the same whole arrays at every point (fetched once, found again at every later point) — and one
  output, the matching block of 1024 result rows, written back at every point.  The body loads the three inputs whole,
  stores the output whole (it also loads the output's buffer once before storing; the value is not used), so what it
  leaves in the output buffer is ONE function of the three input blocks: the body's arithmetic `k1_pay1`.

  Everything is stated at a parameter `V`: the contents of the TensorCore's buffers when the call is entered.  Generic
  in the float instance.
-/
import proofs.«401966_j16947940950251_2_alg».proof.Proof.Gen.KernelIdeal.Launch
import proofs.«401966_j16947940950251_2_alg».proof.Proof.Gen.KernelIdeal.Skeleton
import proofs.«401966_j16947940950251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the point's block of query rows, for any proof data over `V`'s arrays
    whose body leaves that block in place. -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The prototypes' window holds the whole prototype array at every point: fetched at the first, and its block index
    never moves. -/
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Likewise the squared norms' window. -/
theorem found1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body leaves in the output's buffer -/

/-- The whole-buffer rectangles the body loads and stores through. -/
abbrev qRect : Rect S1024x1600 := Rect.unit (s := S1024x1600) ![0, 0] S1024x1600.size inb_S1024x1600_S1024x1600_0_0
abbrev pRect : Rect S512x1600 := Rect.unit (s := S512x1600) ![0, 0] S512x1600.size inb_S512x1600_S512x1600_0_0
abbrev nRect : Rect S1x512 := Rect.unit (s := S1x512) ![0, 0] S1x512.size inb_S1x512_S1x512_0_0
abbrev oRect : Rect S1024x512 := Rect.unit (s := S1024x512) ![0, 0] S1024x512.size inb_S1024x512_S1024x512_0_0

/-- The output buffer after the body: its one whole-buffer store of the body's arithmetic on the three input blocks. -/
def left1 (x0 : Vec F S1024x1600 .f32) (x1 : Vec F S512x1600 .bf16) (x2 : Vec F S1x512 .f32) : Vec F S1024x512 .f32 :=
  View.canon [⟨oRect, k1_pay1 (View.ld x0 qRect) (View.ld x1 pRect) (View.ld x2 nRect)⟩]

/-- The one store covers the buffer. -/
theorem left1_cover (p0 : Vec F S1024x512 .f32) (y : S1024x512.Idx) :
    ∃ pc ∈ ([⟨oRect, p0⟩] : List (View.Piece (Elt F) S1024x512 .f32)), y ∈ pc.1.set :=
  View.cover_of_tiled [⟨oRect, p0⟩] S1024x512.size (by rfl) y

/-! ## The body's triple -/

set_option maxHeartbeats 1000000 in
/-- The body on whole staging memrefs — the inputs' at contents `x0`, `x1`, `x2`, the output's at anything — runs to a
    continuation that holds the inputs' as they were and the output's at `left1 x0 x1 x2`. -/
theorem body1 (c : Dev nD) (E : Set ℕ) (i : grid1.Coords)
    (arg1 : Memref sig .tc .vmem S1024x1600 .f32) (harg1 : arg1.IsWhole) (arg2 : Memref sig .tc .vmem S512x1600 .bf16) (harg2 : arg2.IsWhole)
    (arg3 : Memref sig .tc .vmem S1x512 .f32) (harg3 : arg3.IsWhole) (arg4 : Memref sig .tc .vmem S1024x512 .f32) (harg4 : arg4.IsWhole)
    (x0 : Vec F S1024x1600 .f32) (x1 : Vec F S512x1600 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (left1 x0 x1 x2)) -∗ K ⟨⟩))
      ⊢ wp frame (wpE (defs₀ (F := F)) Variants.none c none) E (cc1__dist_softmax_kernel i arg1 harg1 arg2 harg2 arg3 harg3 arg4 harg4) K := by
  simp only [cc1__dist_softmax_kernel_eq_skeleton]; unfold cc1__dist_softmax_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (left1_cover _)

/-! ## The proof data -/

/-- The proof data of the second call on core `c`: its arrays as the call finds them; after the body at point `t` each
    input's buffer still at its block and the output's at `left1` of the three blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => left1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = left1 (blk1 V c 0 t) (blk1 V c 1 t) (blk1 V c 2 t) := by dsimp only [dat1]

theorem dat1_found0 (c : Dev nD) (t : Fin cfg1.N) (d) : (dat1 V c).before 0 t d = blk1 V c 0 t :=
  found1_0_of V (dat1 V c) (dat1_A V c 0) (dat1_after0 V c) t d
theorem dat1_found1 (c : Dev nD) (t : Fin cfg1.N) (d) : (dat1 V c).before 1 t d = blk1 V c 1 t :=
  found1_1_of V (dat1 V c) (dat1_A V c 1) (dat1_after1 V c) t d
theorem dat1_found2 (c : Dev nD) (t : Fin cfg1.N) (d) : (dat1 V c).before 2 t d = blk1 V c 2 t :=
  found1_2_of V (dat1 V c) (dat1_A V c 2) (dat1_after2 V c) t d

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `body1` applies; the invariant and what the core
    owes pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1, dat1_found2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem obligation1 (c : Dev nD) : BodyObligation (dat1 (F := F) V c) (defs₀ (F := F)) Variants.none () Set.univ := fun t => by
  rw [bigSep_W1, bigSep_W1]
  exact body1_at V c t

end Cert.KernelIdeal.Hand

end
-- ==== Proof.KIRun.lean ====
/-
  The whole program's run: @main as a stretch of host operations followed by the two kernel calls, each call a region of
  the pipeline library entered from what the item before it left.

  Between two items the TensorCore holds every unscoped buffer whole at a named valuation: the launch memory; then what
  the thirteen host operations leave; then, after the first call, the same with that call's arrays at what its
  write-backs leave (its two outputs: the prototypes and their squared norms); then, after the second call, the same with
  the result array at what that call's write-backs leave.  Beside the buffers ride the generator register at some state
  and the core owing nothing.  Each region takes its arrays out of the unscoped buffers at entry and puts them back at
  exit; the first call's invariant carries its scratch's running sums between points and forgets them at the end.

  The run's last state is read against the last valuation: every unscoped buffer ends there — the three arguments, which
  no item writes, at their launch contents (the frame), and the result at the second call's final array (what the value
  claim reads).  Generic in the float instance.
-/
import proofs.«401966_j16947940950251_2_alg».proof.Proof.KIRegion0
import proofs.«401966_j16947940950251_2_alg».proof.Proof.KIRegion1
import proofs.«401966_j16947940950251_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch, and after the host operations (the first call's entry). -/
abbrev W0 : Dev nD → Valuation τ sig (Elt F) := fun c => Gen.V0 m c
abbrev W1 : Dev nD → Valuation τ sig (Elt F) := fun c => Gen.V1 m c
/-- The same read at the TensorCore's references: what the first call's proof data take. -/
abbrev E1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same at the TensorCore's references: the first call's exit, the second call's entry. -/
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-! ### The arguments end as launched: no host operation writes one and no call stages one -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (Gen.V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl
/-- The result buffer ends at the second call's final array. -/
theorem W3_main_v11 (c : Dev nD) : W3 m c (Proc.devRef .tc main_v11) = (dat1 (E2 m) c).arrAt 3 cfg1.N :=
  W3_arr m c 3

/-! ## The proof data family and the thread state -/

/-- Every pipeline's proof data, each at its call's entry contents: a literal match on the pipeline. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every item: the generator register at some state, the core owing nothing. -/
abbrev riding (c : Dev nD) : sProp 𝕄 := iprop((∃ r, prngReg c r) ∗ ∃ W, owes (c : Thread nD τ) (0 : CellTallies nD τ sig Unit) W)
/-- The host stretch as a segment, from the launch contents. -/
abbrev hostItem : Pipeline.HostSeg (Name := ℕ) (U := UR sig nD τ) (pcfgs (F := F)) defs₀ noVariants noPairs noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) riding
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev endState (c : Dev nD) : sProp 𝕄 := iprop(StableHlo.held (c : Thread nD τ) (Pipeline.ucRefs τ sig) (W3 m c) ∗ ∃ r, prngReg c r)

/-! ## The two calls as regions -/

set_option backward.isDefEq.respectTransparency.types false in
/-- The first call: entered from every unscoped buffer at `W1`, left at `W2`.  Its arrays are split out of the unscoped
    buffers at entry and put back at exit; the generator register goes into the invariant and comes out; the invariant's
    running sums are forgotten at the exit; nothing owed; no semaphore of the kernel's own. -/
def region0 : Pipeline.RegionSeg (pcfgs (F := F)) Gen.adm (pdats m) () defs₀ noVariants noPairs noLevel 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
          ∗ Pipeline.scopedRest spec0 c) ⊢ (Pipeline.ΦA spec0 c : sProp 𝕄) := by
      unfold Pipeline.ΦA
      iintro ⟨Hp, -, Hr⟩
      isplitl [Hr]; · iexact Hr
      iexact Hp
    exact h.trans (enter0 (E1 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (leave0 (E1 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`, which the launch reads at the end. -/
def region1 : Pipeline.RegionSeg (pcfgs (F := F)) Gen.adm (pdats m) () defs₀ noVariants noPairs noLevel 1 where
  win := launch1.win.to₀
  block_pos := launch1.block_pos
  stage_whole := launch1.stage_whole
  K := PEmpty
  osem k := k.elim
  ho := Pipeline.OwnSemFacts.none _
  hbody c := (obligation1 (E2 m) c).loose
  hwaits := Pipeline.hwaits_of_owed_zero _ _ _ _ noPairs noLevel 1 fun _ _ => rfl
  pre c := iprop(StableHlo.held (c : Thread nD τ) (Pipeline.ucRefs τ sig) (W2 m c) ∗ riding c)
  post c := iprop(endState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev items : List (Pipeline.Seg (pcfgs (F := F)) Gen.adm (pdats m) () defs₀ noVariants noPairs noLevel) :=
  [ .host (hostItem m), .region (region0 m), .region (region1 m) ]
/-- @main IS the run of the items. -/
theorem main_items (c : Dev nD) : main (F := F) c = Pipeline.Seg.run (items m) := (main_chain c).trans (by chain_rfl)

set_option backward.isDefEq.respectTransparency.types false in
/-- THE RUN.  At the compiled mesh, from any memory with zero counters, every weakly fair execution of @main on the
    TensorCores terminates, nothing faulting, and in every final state every unscoped buffer holds the last valuation's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ noVariants noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c)) (Tₙ := endState m)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unscoped main_arg0 (by decide))).trans (W3_main_arg0 m c),
     (h c _ (mem_unscoped main_arg1 (by decide))).trans (W3_main_arg1 m c),
     (h c _ (mem_unscoped main_arg2 (by decide))).trans (W3_main_arg2 m c)⟩) (run_all m ρ)

/-- The same run with the result named: the result buffer ends at the second call's final array, the arguments as
    launched. -/
theorem run_result : θ_run defs (onTc (τ := τ) (main (F := F))) ⟨m, fun _ => 0, ρ⟩ (fun r => ∀ c : Dev nD,
      r.2.mem ((c.tc : Thread nD τ).loc main_v11) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_unscoped main_v11 (by decide))).trans (W3_main_v11 m c),
     (h c _ (mem_unscoped main_arg0 (by decide))).trans (W3_main_arg0 m c),
     (h c _ (mem_unscoped main_arg1 (by decide))).trans (W3_main_arg1 m c),
     (h c _ (mem_unscoped main_arg2 (by decide))).trans (W3_main_arg2 m c)⟩) (run_all m ρ)

end Cert.KernelIdeal.Hand

end
-- ==== Proof.Spec.lean ====
/-
  What both programs compute, stated once over the extended reals, and the law that joins their two arrangements.

  A support set of 2560 rows of 1600 features, each row carrying an integer label; 512 classes; 8192 query rows.
  Row `n` belongs to class `k` when its label, read as a signed integer, is `k` (a label outside `0 … 511` belongs to
  no class).  A class's prototype is the mean of its rows: the sum of the rows divided by their count.  A query's
  score against a class is minus the squared distance to the prototype, and the result is the log-softmax of a
  query's 512 scores.

  The two programs differ in two places.  One multiplies the class sum by the reciprocal of the count where the other
  divides by the count: equal whenever the count is not zero.  One drops the query's own squared norm from the score
  (`2 q·p − |p|²` against `−(|q|² + |p|² − 2 q·p)`): a shift of a whole row by a finite constant, which the log-softmax
  does not see.  Both steps need every quantity involved to be a real number, which is what finite inputs and
  non-empty classes give.
-/
import Idealize.ShloMosaic.PureOps.Ideal
import Idealize.ShloMosaic.Lib.ValueIdx

noncomputable section

namespace Cert.Spec

open Idealize.ShloMosaic

/-! ### Finite sums and the row maximum, read over the reals -/

/-- A finite sum of real numbers, read in the extended reals, is the real sum. -/
theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A sum that keeps a real term where a condition holds and zero elsewhere is the real sum of the same shape. -/
theorem coe_sum_ite {ι : Type*} (t : Finset ι) (p : ι → Prop) [DecidablePred p] (f : ι → ℝ) :
    (∑ i ∈ t, (if p i then ((f i : ℝ) : EReal) else 0)) = ((∑ i ∈ t, (if p i then f i else 0) : ℝ) : EReal) := by
  rw [← coe_sum]
  refine Finset.sum_congr rfl fun i _ => ?_
  split_ifs <;> simp

/-- Subtracting a real constant from every term moves through the fold of the maximum from minus infinity. -/
theorem fold_max_sub {ι : Type*} (t : Finset ι) (x : ι → EReal) (c : ℝ) :
    t.fold max ⊥ (fun k => x k - (c : EReal)) = t.fold max ⊥ x - (c : EReal) := by
  classical
  induction t using Finset.induction_on with
  | empty => simp [EReal.bot_sub]
  | insert a t ha ih =>
    rw [Finset.fold_insert ha, Finset.fold_insert ha, ih]
    have hm : Monotone fun z : EReal => z - (c : EReal) := fun u v h => EReal.sub_le_sub h le_rfl
    exact hm.map_max.symm

/-- For reals a, c and any extended real m: (a − c) − (m − c) = a − m. -/
theorem sub_sub_sub_real (a c : ℝ) (m : EReal) :
    ((a - c : ℝ) : EReal) - (m - (c : EReal)) = (a : EReal) - m := by
  induction m using EReal.rec with
  | bot => rw [EReal.bot_sub, EReal.coe_sub_bot, EReal.coe_sub_bot]
  | top => rw [EReal.top_sub_coe, EReal.sub_top, EReal.sub_top]
  | coe m => rw [← EReal.coe_sub, ← EReal.coe_sub, ← EReal.coe_sub]; congr 1; ring

/-- Row `n` of the support set belongs to class `k`: its label, read signed, is `k`. -/
def hit (lbl : Fin 2560 → BitVec 32) (n : Fin 2560) (k : Fin 512) : Prop := (lbl n).toInt = (k.val : Int)

instance (lbl : Fin 2560 → BitVec 32) (n : Fin 2560) (k : Fin 512) : Decidable (hit lbl n k) :=
  inferInstanceAs (Decidable (_ = _))

/-- For a class index (below 512) the signed reading equals `k` exactly when the label IS the word `k`. -/
theorem hit_iff_eq (lbl : Fin 2560 → BitVec 32) (n : Fin 2560) (k : Fin 512) :
    hit lbl n k ↔ lbl n = BitVec.ofNat 32 k.val := by
  have hk := k.isLt
  have hw := (lbl n).isLt
  unfold hit
  constructor
  · intro h
    apply BitVec.eq_of_toNat_eq
    rw [BitVec.toNat_ofNat]
    rw [BitVec.toInt_eq_toNat_cond] at h
    split at h <;> omega
  · intro h
    rw [h, BitVec.toInt_eq_toNat_cond, BitVec.toNat_ofNat]
    split <;> omega

/-- How many support rows belong to class `k`. -/
def cnt (lbl : Fin 2560 → BitVec 32) (k : Fin 512) : EReal :=
  ∑ n : Fin 2560, if hit lbl n k then (1 : EReal) else 0

/-- The sum, feature by feature, of the support rows of class `k`. -/
def sums (s : Fin 2560 → Fin 1600 → EReal) (lbl : Fin 2560 → BitVec 32) (k : Fin 512) (j : Fin 1600) : EReal :=
  ∑ n : Fin 2560, if hit lbl n k then s n j else 0

/-- A class sum scaled by a per-class factor `r k` (the kernel's arrangement: `r` is the reciprocal of the count). -/
def scaled (S : Fin 512 → Fin 1600 → EReal) (r : Fin 512 → EReal) (k : Fin 512) (j : Fin 1600) : EReal := S k j * r k

/-- The prototypes as the kernel forms them: class sum times the reciprocal of the count. -/
def protoK (s : Fin 2560 → Fin 1600 → EReal) (lbl : Fin 2560 → BitVec 32) : Fin 512 → Fin 1600 → EReal :=
  scaled (sums s lbl) (fun k => Ideal.div 1 (cnt lbl k))

/-- The prototypes as the reference forms them: class sum divided by the count. -/
def protoR (s : Fin 2560 → Fin 1600 → EReal) (lbl : Fin 2560 → BitVec 32) (k : Fin 512) (j : Fin 1600) : EReal :=
  Ideal.div (sums s lbl k j) (cnt lbl k)

/-- The squared norm of prototype `k`. -/
def sq (P : Fin 512 → Fin 1600 → EReal) (k : Fin 512) : EReal := ∑ j : Fin 1600, P k j * P k j

/-- The inner product of query `i` with prototype `k`. -/
def dot (q : Fin 8192 → Fin 1600 → EReal) (P : Fin 512 → Fin 1600 → EReal) (i : Fin 8192) (k : Fin 512) : EReal :=
  ∑ j : Fin 1600, q i j * P k j

/-- The float literal `2.0`, kept as its word. -/
def two : EReal := Ideal.ofBits .f32 0x40000000#32

/-- The kernel's score from given prototypes and given squared norms `n2`: `2 q·p − n2`. -/
def score2 (q : Fin 8192 → Fin 1600 → EReal) (P : Fin 512 → Fin 1600 → EReal) (n2 : Fin 512 → EReal)
    (i : Fin 8192) (k : Fin 512) : EReal := two * dot q P i k - n2 k

/-- The kernel's score: the query's own squared norm is left out. -/
def scoreK (q : Fin 8192 → Fin 1600 → EReal) (P : Fin 512 → Fin 1600 → EReal) : Fin 8192 → Fin 512 → EReal :=
  score2 q P (sq P)

/-- The reference's score: minus the squared distance, `−((|q|² + |p|²) − 2 q·p)`. -/
def scoreR (q : Fin 8192 → Fin 1600 → EReal) (P : Fin 512 → Fin 1600 → EReal) (i : Fin 8192) (k : Fin 512) : EReal :=
  -(((∑ j : Fin 1600, q i j * q i j) + sq P k) - two * dot q P i k)

/-- The largest of a row's 512 scores (the fold of `max` from `−∞`). -/
def rowMax (x : Fin 8192 → Fin 512 → EReal) (i : Fin 8192) : EReal :=
  (Finset.univ : Finset (Fin 512)).fold max ⊥ (x i)

/-- The log-softmax of each row: the score less the row's maximum, less the log of the sum of the exponentials of
    those differences. -/
def lsm (x : Fin 8192 → Fin 512 → EReal) (i : Fin 8192) (k : Fin 512) : EReal :=
  (x i k - rowMax x i) - Ideal.log (∑ k' : Fin 512, Ideal.exp (x i k' - rowMax x i))

/-- The kernel's result. -/
def outK (s : Fin 2560 → Fin 1600 → EReal) (q : Fin 8192 → Fin 1600 → EReal) (lbl : Fin 2560 → BitVec 32) :
    Fin 8192 → Fin 512 → EReal := lsm (scoreK q (protoK s lbl))

/-- The reference's result. -/
def outR (s : Fin 2560 → Fin 1600 → EReal) (q : Fin 8192 → Fin 1600 → EReal) (lbl : Fin 2560 → BitVec 32) :
    Fin 8192 → Fin 512 → EReal := lsm (scoreR q (protoR s lbl))

/-! ### Every quantity of the two arrangements, read over the reals -/

/-- The literal two is a real number. -/
theorem two_real : ∃ t : ℝ, two = (t : EReal) := by
  unfold two Ideal.ofBits Ideal.ieee
  simp only []
  rw [if_neg (by decide), if_neg (by decide)]
  exact ⟨_, rfl⟩

/-- A class count is the real number of its rows. -/
theorem cnt_real (lbl : Fin 2560 → BitVec 32) (k : Fin 512) :
    cnt lbl k = ((∑ n : Fin 2560, (if hit lbl n k then (1 : ℝ) else 0) : ℝ) : EReal) := by
  unfold cnt
  rw [← coe_sum_ite]
  simp only [EReal.coe_one]

/-- A class sum of real rows is the real sum. -/
theorem sums_real (s' : Fin 2560 → Fin 1600 → ℝ) (lbl : Fin 2560 → BitVec 32) (k : Fin 512) (j : Fin 1600) :
    sums (fun n j => (s' n j : EReal)) lbl k j
      = ((∑ n : Fin 2560, (if hit lbl n k then s' n j else 0) : ℝ) : EReal) := by
  unfold sums
  rw [← coe_sum_ite]

/-- With a non-zero real count both arrangements of the prototype are the real class sum times the reciprocal. -/
theorem protoK_real (s' : Fin 2560 → Fin 1600 → ℝ) (lbl : Fin 2560 → BitVec 32)
    (hc : ∀ k, (∑ n : Fin 2560, (if hit lbl n k then (1 : ℝ) else 0)) ≠ 0) :
    protoK (fun n j => (s' n j : EReal)) lbl = fun k j =>
      (((∑ n : Fin 2560, (if hit lbl n k then s' n j else 0)) *
        (1 / ∑ n : Fin 2560, (if hit lbl n k then (1 : ℝ) else 0)) : ℝ) : EReal) := by
  funext k j
  unfold protoK scaled
  simp only []
  rw [sums_real, cnt_real, Ideal.div_coe (hc k), one_mul, ← EReal.coe_mul]

theorem protoR_real (s' : Fin 2560 → Fin 1600 → ℝ) (lbl : Fin 2560 → BitVec 32)
    (hc : ∀ k, (∑ n : Fin 2560, (if hit lbl n k then (1 : ℝ) else 0)) ≠ 0) :
    protoR (fun n j => (s' n j : EReal)) lbl = fun k j =>
      (((∑ n : Fin 2560, (if hit lbl n k then s' n j else 0)) *
        (1 / ∑ n : Fin 2560, (if hit lbl n k then (1 : ℝ) else 0)) : ℝ) : EReal) := by
  funext k j
  unfold protoR
  rw [sums_real, cnt_real, Ideal.div_coe (hc k), ← EReal.coe_mul]

/-- The squared norm of a real prototype is real. -/
theorem sq_real (P' : Fin 512 → Fin 1600 → ℝ) (k : Fin 512) :
    sq (fun k j => (P' k j : EReal)) k = ((∑ j : Fin 1600, P' k j * P' k j : ℝ) : EReal) := by
  unfold sq
  simp only [← EReal.coe_mul]
  exact coe_sum _ _

/-- The inner product of a real query with a real prototype is real. -/
theorem dot_real (q' : Fin 8192 → Fin 1600 → ℝ) (P' : Fin 512 → Fin 1600 → ℝ) (i : Fin 8192) (k : Fin 512) :
    dot (fun i j => (q' i j : EReal)) (fun k j => (P' k j : EReal)) i k
      = ((∑ j : Fin 1600, q' i j * P' k j : ℝ) : EReal) := by
  unfold dot
  simp only [← EReal.coe_mul]
  exact coe_sum _ _

/-- The kernel's score over the reals. -/
theorem scoreK_real (q' : Fin 8192 → Fin 1600 → ℝ) (P' : Fin 512 → Fin 1600 → ℝ) (t : ℝ) (ht : two = (t : EReal))
    (i : Fin 8192) (k : Fin 512) :
    scoreK (fun i j => (q' i j : EReal)) (fun k j => (P' k j : EReal)) i k
      = ((t * (∑ j : Fin 1600, q' i j * P' k j) - ∑ j : Fin 1600, P' k j * P' k j : ℝ) : EReal) := by
  unfold scoreK score2
  rw [sq_real, dot_real, ht, ← EReal.coe_mul, ← EReal.coe_sub]

/-- The reference's score over the reals: the kernel's, less the query's squared norm. -/
theorem scoreR_real (q' : Fin 8192 → Fin 1600 → ℝ) (P' : Fin 512 → Fin 1600 → ℝ) (t : ℝ) (ht : two = (t : EReal))
    (i : Fin 8192) (k : Fin 512) :
    scoreR (fun i j => (q' i j : EReal)) (fun k j => (P' k j : EReal)) i k
      = (((t * (∑ j : Fin 1600, q' i j * P' k j) - ∑ j : Fin 1600, P' k j * P' k j)
          - ∑ j : Fin 1600, q' i j * q' i j : ℝ) : EReal) := by
  unfold scoreR
  have hQ : (∑ j : Fin 1600, ((q' i j : ℝ) : EReal) * ((q' i j : ℝ) : EReal))
      = ((∑ j : Fin 1600, q' i j * q' i j : ℝ) : EReal) := by
    simp only [← EReal.coe_mul]
    exact coe_sum _ _
  rw [sq_real, dot_real, ht, hQ, ← EReal.coe_add, ← EReal.coe_mul, ← EReal.coe_sub, ← EReal.coe_neg]
  congr 1
  ring

/-- The log-softmax does not see a real constant subtracted from a whole row of real scores. -/
theorem lsm_shift (x y : Fin 8192 → Fin 512 → EReal) (a : Fin 8192 → Fin 512 → ℝ) (c : Fin 8192 → ℝ)
    (hx : ∀ i k, x i k = (a i k : EReal)) (hy : ∀ i k, y i k = ((a i k - c i : ℝ) : EReal)) : lsm y = lsm x := by
  have hmax : ∀ i, rowMax y i = rowMax x i - (c i : EReal) := by
    intro i
    unfold rowMax
    rw [← fold_max_sub]
    congr 1
    funext k
    rw [hy, hx, EReal.coe_sub]
  have hd : ∀ i k, y i k - rowMax y i = x i k - rowMax x i := by
    intro i k
    rw [hmax, hy, hx, sub_sub_sub_real]
  funext i k
  unfold lsm
  simp only [hd]

/-- THE LAW.  With every support and query entry a real number and no class empty, the two arrangements give the
    same result: the prototypes agree (a product with the reciprocal of a non-zero count is the quotient), every
    quantity is then real, the two scores differ by the query's squared norm — a real constant along each row — and the
    log-softmax of a row is unchanged by subtracting a real constant from all of it. -/
theorem outK_eq_outR (s : Fin 2560 → Fin 1600 → EReal) (q : Fin 8192 → Fin 1600 → EReal) (lbl : Fin 2560 → BitVec 32)
    (hs : ∀ n j, ∃ r : ℝ, s n j = (r : EReal)) (hq : ∀ i j, ∃ r : ℝ, q i j = (r : EReal))
    (hc : ∀ k, cnt lbl k ≠ 0) : outK s q lbl = outR s q lbl := by
  choose s' hs' using hs
  choose q' hq' using hq
  obtain rfl : s = fun n j => (s' n j : EReal) := funext fun n => funext fun j => hs' n j
  obtain rfl : q = fun i j => (q' i j : EReal) := funext fun i => funext fun j => hq' i j
  obtain ⟨t, ht⟩ := two_real
  have hc' : ∀ k, (∑ n : Fin 2560, (if hit lbl n k then (1 : ℝ) else 0)) ≠ 0 := by
    intro k h
    exact hc k (by rw [cnt_real, h, EReal.coe_zero])
  unfold outK outR
  rw [protoK_real s' lbl hc', protoR_real s' lbl hc']
  exact (lsm_shift _ _ _ _ (fun i k => scoreK_real q' _ t ht i k) (fun i k => scoreR_real q' _ t ht i k)).symm

end Cert.Spec

end
-- ==== Proof.ScatterRead.lean ====
/-
  The host's accumulating scatter, read at an index, for the two scatters both programs use to count and to sum the
  support rows of each class.

  The scatter's index operand holds one label per support row; an update row lands on the class whose number is its
  label read as a signed integer, and is dropped when that number is not a class (below 0 or at least 512).  So at
  class `k` the scatter of ones into zeros is the number of rows of class `k`, and the scatter of the support rows
  into zeros is, feature by feature, the sum of the rows of class `k`: `Spec.cnt` and `Spec.sums`.

  The reading goes in three steps.  For any dimension numbers, an update lands on operand index `i` exactly when on
  every operand axis the window's start plus the window coordinate is `i`'s coordinate.  For each of the two literal
  dimension numbers the start on the class axis is the row's label read signed and the window coordinate there is 0;
  the summing scatter has a second axis, the feature's, whose start is 0 and whose window coordinate is the update's
  feature.  Last, the sum over the updates that land on an index becomes a sum over all rows of an `if`.
-/
import proofs.«401966_j16947940950251_2_alg».proof.Proof.Spec
import Idealize.ShloMosaic.PureOps.Ideal
import Idealize.ShloMosaic.Lib.ValueIdx
import Idealize.ShloMosaic.Lib.ValueIdxRank1

noncomputable section

namespace Cert.ScatterRead

open Idealize.ShloMosaic Idealize.ShloMosaic.ValueIdx

/-- An update lands on operand index `i` exactly when, on every operand axis, the window's start plus the window
    coordinate is `i`'s coordinate (a sum outside the axis's range is no coordinate, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    simp only [Option.some.injEq]
    constructor
    · intro e a
      rw [← e]
      have := h a
      simp only []
      omega
    · intro e
      funext a
      apply Fin.ext
      have := e a
      have := h a
      simp only []
      omega
  · rename_i h
    constructor
    · intro e; cases e
    · intro e
      exfalso
      apply h
      intro a
      have := e a
      have := (i a).isLt
      omega

section count
variable (h : ScatterDims.WF ⟨1, ![512]⟩ ⟨2, ![2560, 1]⟩ ⟨1, ![2560]⟩ [] [0] [0] 1)

/-- The counting scatter's dimension numbers: no window axis, the operand's one axis inserted and named by the one
    component of the start index, the index vector along the index operand's second axis. -/
abbrev dC : ScatterDims ⟨1, ![512]⟩ ⟨2, ![2560, 1]⟩ ⟨1, ![2560]⟩ := ⟨[], [0], [0], 1, h⟩

/-- Update row `n` reads its start index at `(n, 0)` of the index operand. -/
theorem dC_siIdx (n : Fin 2560) (c : Fin (dC h).scatterDimsToOperandDims.length) :
    (dC h).siIdx (ix1 n) c = ix2 n 0 := by
  funext b
  match b with
  | ⟨0, _⟩ => rfl
  | ⟨1, _⟩ =>
    apply Fin.ext
    have := c.isLt
    simp only [dC, List.length_singleton] at this
    simp [ScatterDims.siIdx]

/-- The start on the operand's one axis is row `n`'s label read signed. -/
theorem dC_start (idx : IVec ⟨2, ![2560, 1]⟩ 32) (n : Fin 2560) (a : Fin 1) :
    (dC h).start (ix1 n) idx a = (idx (ix2 n 0)).toInt := by
  unfold ScatterDims.start
  have ha : a ∈ (dC h).scatterDimsToOperandDims := by
    show a ∈ [(0 : Fin 1)]
    simp [Fin.eq_zero a]
  rw [dif_pos ha, dC_siIdx]

/-- The operand's one axis is an inserted axis: the window coordinate there is 0. -/
theorem dC_window (n : Fin 2560) (a : Fin 1) : (dC h).window (ix1 n) a = 0 := by
  unfold ScatterDims.window
  have ha : ¬ a ∈ (dC h).sKept := by
    show ¬ a ∈ (([] : List (Fin 1)))
    simp
  rw [dif_neg ha]

end count

/-- Ones scattered into zeros by the labels: at class `k`, the count of the rows whose label is `k`. -/
theorem count_apply (h : ScatterDims.WF ⟨1, ![512]⟩ ⟨2, ![2560, 1]⟩ ⟨1, ![2560]⟩ [] [0] [0] 1)
    (idx : IVec ⟨2, ![2560, 1]⟩ 32) (k : Fin 512) :
    Ideal.hostScatterAdd (⟨[], [0], [0], 1, h⟩ : ScatterDims ⟨1, ![512]⟩ ⟨2, ![2560, 1]⟩ ⟨1, ![2560]⟩)
        (fun _ => (0 : EReal)) idx (fun _ => (1 : EReal)) (ix1 k)
      = Cert.Spec.cnt (fun n => idx (ix2 n 0)) k := by
  unfold Ideal.hostScatterAdd Cert.Spec.cnt
  rw [zero_add, Finset.sum_filter, ← Equiv.sum_comp (idxEquiv1 (n := 2560)).symm]
  refine Finset.sum_congr rfl fun n _ => if_congr ?_ rfl rfl
  show (dC h).resultIdx? (ix1 n) idx = some (ix1 k) ↔ _
  rw [resultIdx?_eq_some_iff, Fin.forall_fin_one, dC_start, dC_window]
  unfold Cert.Spec.hit
  simp only [Nat.cast_zero, add_zero]

section sums
variable (h : ScatterDims.WF ⟨2, ![512, 1600]⟩ ⟨2, ![2560, 1]⟩ ⟨2, ![2560, 1600]⟩ [1] [0] [0] 1)

/-- The summing scatter's dimension numbers: the updates' feature axis is the window axis, going to the operand's
    feature axis; the operand's class axis is inserted and named by the one component of the start index. -/
abbrev dS : ScatterDims ⟨2, ![512, 1600]⟩ ⟨2, ![2560, 1]⟩ ⟨2, ![2560, 1600]⟩ := ⟨[1], [0], [0], 1, h⟩

/-- Update element `(n, j')` reads its start index at `(n, 0)` of the index operand. -/
theorem dS_siIdx (n : Fin 2560) (j' : Fin 1600) (c : Fin (dS h).scatterDimsToOperandDims.length) :
    (dS h).siIdx (ix2 n j') c = ix2 n 0 := by
  funext b
  match b with
  | ⟨0, _⟩ => rfl
  | ⟨1, _⟩ =>
    apply Fin.ext
    have := c.isLt
    simp only [dS, List.length_singleton] at this
    simp [ScatterDims.siIdx]

/-- On the class axis the start is row `n`'s label read signed. -/
theorem dS_start0 (idx : IVec ⟨2, ![2560, 1]⟩ 32) (n : Fin 2560) (j' : Fin 1600) :
    (dS h).start (ix2 n j') idx 0 = (idx (ix2 n 0)).toInt := by
  unfold ScatterDims.start
  have ha : (0 : Fin 2) ∈ (dS h).scatterDimsToOperandDims := by
    show (0 : Fin 2) ∈ [(0 : Fin 2)]
    simp
  rw [dif_pos ha, dS_siIdx]

/-- On the feature axis, which the start index does not name, the start is 0. -/
theorem dS_start1 (idx : IVec ⟨2, ![2560, 1]⟩ 32) (n : Fin 2560) (j' : Fin 1600) :
    (dS h).start (ix2 n j') idx 1 = 0 := by
  unfold ScatterDims.start
  have ha : ¬ (1 : Fin 2) ∈ (dS h).scatterDimsToOperandDims := by
    show ¬ (1 : Fin 2) ∈ [(0 : Fin 2)]
    decide
  rw [dif_neg ha]

/-- The class axis is inserted: the window coordinate there is 0. -/
theorem dS_window0 (n : Fin 2560) (j' : Fin 1600) : (dS h).window (ix2 n j') 0 = 0 := by
  unfold ScatterDims.window
  have ha : ¬ (0 : Fin 2) ∈ (dS h).sKept := by
    show ¬ (0 : Fin 2) ∈ [(1 : Fin 2)]
    decide
  rw [dif_neg ha]

/-- On the feature axis the window coordinate is the update's feature. -/
theorem dS_window1 (n : Fin 2560) (j' : Fin 1600) : (dS h).window (ix2 n j') 1 = j'.val := by
  unfold ScatterDims.window
  have ha : (1 : Fin 2) ∈ (dS h).sKept := by
    show (1 : Fin 2) ∈ [(1 : Fin 2)]
    decide
  rw [dif_pos ha]
  rfl

end sums

/-- The support rows scattered into zeros by the labels: at class `k`, feature `j`, the sum of that feature over the
    rows whose label is `k`. -/
theorem sums_apply (h : ScatterDims.WF ⟨2, ![512, 1600]⟩ ⟨2, ![2560, 1]⟩ ⟨2, ![2560, 1600]⟩ [1] [0] [0] 1)
    (idx : IVec ⟨2, ![2560, 1]⟩ 32) (s : (⟨2, ![2560, 1600]⟩ : Shape).Idx → EReal) (k : Fin 512) (j : Fin 1600) :
    Ideal.hostScatterAdd (⟨[1], [0], [0], 1, h⟩ : ScatterDims ⟨2, ![512, 1600]⟩ ⟨2, ![2560, 1]⟩ ⟨2, ![2560, 1600]⟩)
        (fun _ => (0 : EReal)) idx s (ix2 k j)
      = Cert.Spec.sums (fun n j => s (ix2 n j)) (fun n => idx (ix2 n 0)) k j := by
  unfold Ideal.hostScatterAdd Cert.Spec.sums
  rw [zero_add, Finset.sum_filter, sum_idx2]
  refine Finset.sum_congr rfl fun n _ => ?_
  -- update element `(n, j')` lands on `(k, j)` exactly when row `n` is of class `k` and `j' = j`
  have key : ∀ j' : Fin 1600, (dS h).resultIdx? (ix2 n j') idx = some (ix2 k j)
      ↔ (Cert.Spec.hit (fun n => idx (ix2 n 0)) n k ∧ j' = j) := by
    intro j'
    rw [resultIdx?_eq_some_iff, Fin.forall_fin_two, dS_start0, dS_start1, dS_window0, dS_window1]
    unfold Cert.Spec.hit
    simp only [Nat.cast_zero, add_zero, zero_add, Nat.cast_inj]
    exact and_congr Iff.rfl Fin.val_inj
  -- so of row `n`'s 1600 elements only the one at feature `j` can contribute, and does when the row is of class `k`
  calc ∑ j' : Fin 1600, (if (dS h).resultIdx? (ix2 n j') idx = some (ix2 k j) then s (ix2 n j') else 0)
      = ∑ j' : Fin 1600, (if (Cert.Spec.hit (fun n => idx (ix2 n 0)) n k ∧ j' = j) then s (ix2 n j') else 0) :=
        Finset.sum_congr rfl fun j' _ => if_congr (key j') rfl rfl
    _ = if Cert.Spec.hit (fun n => idx (ix2 n 0)) n k then s (ix2 n j) else 0 := by
        by_cases hk : Cert.Spec.hit (fun n => idx (ix2 n 0)) n k
        · simp only [hk, true_and, if_true]
          rw [Finset.sum_ite_eq']
          simp
        · simp only [hk, false_and, if_false]
          exact Finset.sum_const_zero

end Cert.ScatterRead

end
-- ==== Proof.KIHost.lean ====
/-
  What the thirteen host operations before the first kernel call leave in the arrays the two calls read, at the ideal
  values: the support and query arrays laid out as rows of 1600 features (reshapes of the arguments), the labels as a
  column (a reshape), and the reciprocal counts — one divided by the count of each class's support rows, the count being
  the scatter of ones by the labels.
-/
import proofs.«401966_j16947940950251_2_alg».proof.Proof.KIRun
import proofs.«401966_j16947940950251_2_alg».proof.Proof.Spec
import proofs.«401966_j16947940950251_2_alg».proof.Proof.ScatterRead
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- A vector cast to a column reads, at `(i, 0)`, the vector at `i`. -/
theorem shapeCast_col {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i 0) = x (ix1 i) :=
  shapeCast_apply x h _ _ (by
    rw [Shape.rowMajor_val_two, Shape.rowMajor_val_one]
    show i.val = i.val * 1 + 0
    omega)

/-- The first reshape's result: the first argument under the shape of 2560 rows of 1600. -/
theorem E1_v0 (c : Dev nD) :
    E1 (F := Ideal) m c main_v0
      = fun i => shapeCast S2560x1600 (m ((c.tc : Thread nD τ).loc main_arg0)) Gen.shapeCasts_S2560x64x5x5_S2560x1600 i := by
  show StableHlo.after hostOps0 _ (Proc.devRef .tc main_v0) = _
  after_results
  rfl

/-- The second reshape's result: the second argument under the shape of 8192 rows of 1600. -/
theorem E1_v1 (c : Dev nD) :
    E1 (F := Ideal) m c main_v1
      = fun i => shapeCast S8192x1600 (m ((c.tc : Thread nD τ).loc main_arg1)) Gen.shapeCasts_S8192x64x5x5_S8192x1600 i := by
  show StableHlo.after hostOps0 _ (Proc.devRef .tc main_v1) = _
  after_results
  rfl

/-- The third reshape's result: the labels under the shape of a column. -/
theorem E1_v2 (c : Dev nD) :
    E1 (F := Ideal) m c main_v2
      = fun i => shapeCast S2560x1 (m ((c.tc : Thread nD τ).loc main_arg2)) Gen.shapeCasts_S2560_S2560x1 i := by
  show StableHlo.after hostOps0 _ (Proc.devRef .tc main_v2) = _
  after_results
  rfl

/-- The float words `0.0` and `1.0` are the numbers 0 and 1. -/
theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee, -EReal.coe_mul]; norm_num

/-- The labels laid out as a column read, at `(n, 0)`, the label of row `n`. -/
theorem bcast_label (hb : S2560.BroadcastsInDim S2560x1 (![0] : Fin 1 → Fin S2560x1.rank)) (a2 : IVec S2560 32)
    (n : Fin 2560) : broadcastInDim S2560x1 ![0] hb a2 (ix2 n 0) = a2 (ix1 n) := by
  simp only [broadcastInDim]
  congr 1
  funext a
  match a with
  | ⟨0, _⟩ =>
    apply Fin.ext
    split
    · next h1 => change (2560 : Nat) = 1 at h1; omega
    · rfl

/-- The support rows the first call reads: the first argument laid out as 2560 rows of 1600. -/
theorem host_support (c : Dev nD) (n : Fin 2560) (j : Fin 1600) :
    E1 (F := Ideal) m c main_v0 (ix2 n j)
      = shapeCast S2560x1600 (m ((c.tc : Thread nD τ).loc main_arg0)) Gen.shapeCasts_S2560x64x5x5_S2560x1600 (ix2 n j) := by
  rw [E1_v0]

/-- The query rows the second call reads: the second argument laid out as 8192 rows of 1600. -/
theorem host_query (c : Dev nD) (i : Fin 8192) (j : Fin 1600) :
    E1 (F := Ideal) m c main_v1 (ix2 i j)
      = shapeCast S8192x1600 (m ((c.tc : Thread nD τ).loc main_arg1)) Gen.shapeCasts_S8192x64x5x5_S8192x1600 (ix2 i j) := by
  rw [E1_v1]

/-- The labels' column: row `n` holds the label of support row `n`. -/
theorem host_label (c : Dev nD) (n : Fin 2560) :
    E1 (F := Ideal) m c main_v2 (ix2 n 0) = m ((c.tc : Thread nD τ).loc main_arg2) (ix1 n) := by
  rw [E1_v2]
  exact shapeCast_col _ _ n

/-- The reciprocal counts: at class `k`, one divided by the number of support rows of class `k`. -/
theorem host_recip (c : Dev nD) (k : Fin 512) :
    E1 (F := Ideal) m c main_v9 (ix2 k 0)
      = Ideal.div 1 (Cert.Spec.cnt (fun n => m ((c.tc : Thread nD τ).loc main_arg2) (ix1 n)) k) := by
  -- the last operation is a reshape of the quotients to a column: at `(k, 0)` it reads quotient `k`
  show StableHlo.after hostOps0 _ (Proc.devRef .tc main_v9) (ix2 k 0) = _
  after_results
  show shapeCast S512x1 _ _ (ix2 k 0) = _
  rw [shapeCast_col]
  -- quotient `k` is the constant one divided by entry `k` of the ones scattered into zeros by the labels' column
  show Ideal.div (Ideal.ofBits .f32 0x3F800000#32)
    (Ideal.hostScatterAdd (⟨[], [0], [0], 1, scatter_S512_S2560x1_S2560_n_0_0_1_wf⟩ :
            ScatterDims ⟨1, ![512]⟩ ⟨2, ![2560, 1]⟩ ⟨1, ![2560]⟩)
          (fun _ => Ideal.ofBits .f32 0x00000000#32)
          (broadcastInDim S2560x1 ![0] bcast_S2560_S2560x1_0 (m ((c.tc : Thread nD τ).loc main_arg2)))
          (fun _ => Ideal.ofBits .f32 0x3F800000#32) (ix1 k)) = _
  -- the column's entry at `(n, 0)` is row `n`'s label, so that scatter's entry `k` is the count of class `k`
  have hf : (fun n : Fin 2560 => broadcastInDim S2560x1 ![0] bcast_S2560_S2560x1_0 (m ((c.tc : Thread nD τ).loc main_arg2)) (ix2 n 0))
        = fun n => m ((c.tc : Thread nD τ).loc main_arg2) (ix1 n) := funext fun n => bcast_label _ _ n
  rw [ofBits_one, ofBits_zero, Cert.ScatterRead.count_apply, hf]

end Cert.KernelIdeal.Hand

end
-- ==== Proof.KIValue0Pieces.lean ====
/-
  What each control case of the first call's body leaves in the scratch and in the two output buffers, as values.

  Every store of the body writes a whole buffer and every load reads a whole buffer, so each buffer ends at the payload of
  its last store, with the loads read as the buffers' contents.  At the first point the scratch is cleared and then the
  block's contribution is added onto the cleared scratch; at every later point the contribution is added onto what the
  scratch held; at the last point the prototypes' buffer receives the updated scratch scaled by the reciprocal column and
  the norms' buffer each scaled row's sum of squares.  Generic in the float instance.
-/
import proofs.«401966_j16947940950251_2_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Both offsets of a whole-buffer rectangle are zero. -/
theorem hz2 : (![0, 0] : Fin 2 → Nat) = fun _ => 0 := funext fun a => by fin_cases a <;> rfl

/-- At the first point the scratch ends at the block's contribution added onto the cleared scratch. -/
theorem accFirst_eq (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : isFirst i) (hc1 : ¬isLast i) (x0 : Vec F S512x1600 .f32) (x1 : Vec F S512x1 .i32) (x2 : Vec F S512x1 .f32) :
    accFirst c i arg1 harg1 arg2 harg2 arg3 harg3 arg4 harg4 arg5 harg5 arg6 harg6 hc0 hc1 x0 x1 x2 = k0_pay2 x0 x1 (k0_pay1 (F := F)) := by
  unfold accFirst
  rw [View.read_writes_eq_canon _ _ _ (accFirst_cover c i arg1 harg1 arg2 harg2 arg3 harg3 arg4 harg4 arg5 harg5 arg6 harg6 hc0 hc1 x0 x1 x2)]
  unfold runFirst
  dsimp only
  sl_unfold_words
  rw [View.canon_cons_unit_zero (S := S512x1600) hz2, View.readCov_unit_zero (S := S512x1600) _ hz2]
  simp only [View.readAt_eq_ld, harg1.read_unread, harg2.read_unread, harg3.read_unread, harg6.read_unread, View.ld_unit_zero (S := S512x1600) hz2, View.ld_unit_zero (S := S512x1) hz2, View.readCov_unit_zero (S := S512x1600) _ hz2]

/-- At a middle point the scratch ends at the block's contribution added onto what it held. -/
theorem accMid_eq (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : ¬isLast i) (x0 : Vec F S512x1600 .f32) (x1 : Vec F S512x1 .i32) (x2 : Vec F S512x1 .f32) (xs : Vec F S512x1600 .f32) :
    accMid c i arg1 harg1 arg2 harg2 arg3 harg3 arg4 harg4 arg5 harg5 arg6 harg6 hc0 hc1 x0 x1 x2 xs = k0_pay2 x0 x1 xs := by
  unfold accMid
  rw [View.read_writes_eq_canon _ _ _ (accMid_cover c i arg1 harg1 arg2 harg2 arg3 harg3 arg4 harg4 arg5 harg5 arg6 harg6 hc0 hc1 x0 x1 x2 xs)]
  unfold runMid
  dsimp only
  sl_unfold_words
  rw [View.canon_unit_zero hz2]
  simp only [View.readAt_eq_ld, harg1.read_unread, harg2.read_unread, harg3.read_unread, harg6.read_unread, View.ld_unit_zero (S := S512x1600) hz2, View.ld_unit_zero (S := S512x1) hz2]

/-- Likewise at the last point. -/
theorem accLast_eq (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) :
    accLast c i arg1 harg1 arg2 harg2 arg3 harg3 arg4 harg4 arg5 harg5 arg6 harg6 hc0 hc1 x0 x1 x2 xs = k0_pay2 x0 x1 xs := by
  unfold accLast
  rw [View.read_writes_eq_canon _ _ _ (accLast_cover c i arg1 harg1 arg2 harg2 arg3 harg3 arg4 harg4 arg5 harg5 arg6 harg6 hc0 hc1 x0 x1 x2 xs)]
  unfold runLast
  dsimp only
  sl_unfold_words
  rw [View.canon_unit_zero hz2]
  simp only [View.readAt_eq_ld, harg1.read_unread, harg2.read_unread, harg3.read_unread, harg6.read_unread, View.ld_unit_zero (S := S512x1600) hz2, View.ld_unit_zero (S := S512x1) hz2]

/-- The last point stores, into the prototypes' buffer, the scratch's final contents scaled by the reciprocal column. -/
theorem protoLast_eq (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) :
    protoLast c i arg1 harg1 arg2 harg2 arg3 harg3 arg4 harg4 arg5 harg5 arg6 harg6 hc0 hc1 x0 x1 x2 xs = k0_pay4 (k0_pay2 x0 x1 xs) x2 := by
  unfold protoLast
  rw [View.read_writes_eq_canon _ _ _ (protoLast_cover c i arg1 harg1 arg2 harg2 arg3 harg3 arg4 harg4 arg5 harg5 arg6 harg6 hc0 hc1 x0 x1 x2 xs)]
  unfold runLast
  dsimp only
  sl_unfold_words
  rw [View.canon_unit_zero hz2]
  simp only [View.readAt_eq_ld, harg1.read_unread, harg2.read_unread, harg3.read_unread, harg6.read_unread, View.ld_unit_zero (S := S512x1600) hz2, View.ld_unit_zero (S := S512x1) hz2, View.readCov_unit_zero (S := S512x1600) _ hz2]

/-- and, into the squared norms' buffer, each scaled row's sum of squares. -/
theorem normLast_eq (c : Dev nD) (i : grid0.Coords) (arg1 : Memref sig .tc .vmem S512x1600 .f32) (harg1 : arg1.IsWhole) (arg2 : Memref sig .tc .vmem S512x1 .i32) (harg2 : arg2.IsWhole) (arg3 : Memref sig .tc .vmem S512x1 .f32) (harg3 : arg3.IsWhole) (arg4 : Memref sig .tc .vmem S512x1600 .bf16) (harg4 : arg4.IsWhole) (arg5 : Memref sig .tc .vmem S1x512 .f32) (harg5 : arg5.IsWhole) (arg6 : Memref sig .tc .vmem S512x1600 .f32) (harg6 : arg6.IsWhole) (hc0 : ¬isFirst i) (hc1 : isLast i) (x0 : Vec F S512x1600 .f32) (x1 : Vec F S512x1 .i32) (x2 : Vec F S512x1 .f32) (xs : Vec F S512x1600 .f32) :
    normLast c i arg1 harg1 arg2 harg2 arg3 harg3 arg4 harg4 arg5 harg5 arg6 harg6 hc0 hc1 x0 x1 x2 xs = k0_pay5 (k0_pay2 x0 x1 xs) x2 := by
  unfold normLast
  rw [View.read_writes_eq_canon _ _ _ (normLast_cover c i arg1 harg1 arg2 harg2 arg3 harg3 arg4 harg4 arg5 harg5 arg6 harg6 hc0 hc1 x0 x1 x2 xs)]
  unfold runLast
  dsimp only
  sl_unfold_words
  rw [View.canon_unit_zero hz2]
  simp only [View.readAt_eq_ld, harg1.read_unread, harg2.read_unread, harg3.read_unread, harg6.read_unread, View.ld_unit_zero (S := S512x1600) hz2, View.ld_unit_zero (S := S512x1) hz2, View.readCov_unit_zero (S := S512x1600) _ hz2]

end Cert.KernelIdeal.Hand
end
-- ==== Proof.KIValue0Pay.lean ====
/-
  The body's arithmetic read at an index, at the ideal values.

  The block's contribution to the running sums is a product of two matrices contracted along the 512 rows of the block:
  the one-hot matrix of the block's labels against the class numbers (row r, class k: one when row r's label is the word
  k, else zero) and the block's rows.  So at class k and feature j it adds, onto what the scratch held, the sum over the
  block's rows whose label is the word k of that row's feature j.  The scaling multiplies class k's row by the k-th entry
  of the reciprocal column, and the squared norm of class k is the sum over the 1600 features of the square of the scaled
  entry.  Changes of float format are the identity on the extended reals.
-/
import proofs.«401966_j16947940950251_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic
open Idealize.ShloMosaic.ValueIdx

/-! ### The product's operand indices: both operands are contracted along their rows -/

theorem dotL_0 (i : S512x1600.Idx) (q : dot_S512x512_S512x1600_S512x1600_0_0_1_1_n_n.contr.Idx) :
    (dot_S512x512_S512x1600_S512x1600_0_0_1_1_n_n.lhsIdx i q 0).val = (q ⟨0, by decide⟩).val :=
  dot_S512x512_S512x1600_S512x1600_0_0_1_1_n_n.lhsIdx_val_of_single rfl i q
theorem dotL_1 (i : S512x1600.Idx) (q : dot_S512x512_S512x1600_S512x1600_0_0_1_1_n_n.contr.Idx) :
    (dot_S512x512_S512x1600_S512x1600_0_0_1_1_n_n.lhsIdx i q 1).val = (i 0).val := by
  unfold DotDims.lhsIdx
  rw [dif_neg (show ¬(1 : Fin S512x512.rank) ∈ dot_S512x512_S512x1600_S512x1600_0_0_1_1_n_n.lhsBatch by decide), dif_pos (show (1 : Fin S512x512.rank) ∈ dot_S512x512_S512x1600_S512x1600_0_0_1_1_n_n.lhsNonContracting by decide)]
  rfl
theorem dotR_0 (i : S512x1600.Idx) (q : dot_S512x512_S512x1600_S512x1600_0_0_1_1_n_n.contr.Idx) :
    (dot_S512x512_S512x1600_S512x1600_0_0_1_1_n_n.rhsIdx i q 0).val = (q ⟨0, by decide⟩).val :=
  dot_S512x512_S512x1600_S512x1600_0_0_1_1_n_n.rhsIdx_val_of_single rfl i q
theorem dotR_1 (i : S512x1600.Idx) (q : dot_S512x512_S512x1600_S512x1600_0_0_1_1_n_n.contr.Idx) :
    (dot_S512x512_S512x1600_S512x1600_0_0_1_1_n_n.rhsIdx i q 1).val = (i 1).val := by
  unfold DotDims.rhsIdx
  rw [dif_neg (show ¬(1 : Fin S512x1600.rank) ∈ dot_S512x512_S512x1600_S512x1600_0_0_1_1_n_n.rhsBatch by decide), dif_pos (show (1 : Fin S512x1600.rank) ∈ dot_S512x512_S512x1600_S512x1600_0_0_1_1_n_n.rhsNonContracting by decide)]
  rfl

/-! ### The one-hot matrix -/

/-- The comparison bit of two words, widened and read as a signed integer, is one when the words are equal and zero otherwise. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · rw [if_pos h, show (a == b) = true from beq_iff_eq.mpr h]
    rw [show ((BitVec.ofBool true).setWidth 32).toInt = 1 from by decide]
    simp
  · rw [if_neg h, show (a == b) = false from beq_eq_false_iff_ne.mpr h]
    rw [show ((BitVec.ofBool false).setWidth 32).toInt = 0 from by decide]
    simp

/-- The one-hot matrix at row r, class k. -/
theorem onehot_apply (x1 : Vec Ideal S512x1 .i32) (r k : Fin 512) :
    (truncf .bf16 (sitofp (F := Ideal) .f32 (extui 32 (cmpi .eq (broadcastTo S512x512 (shapeCast S512x1 x1 shapeCasts_S512x1_S512x1) broadcasts_S512x1_S512x512) (iota .tc S512x512 32 [1] iota_S512x512_d1_w32)) natLt_1_32)) bitsLt_bf16_f32 : FVec Ideal S512x512 .bf16) (ix2 r k)
      = if x1 (ix2 r 0) = BitVec.ofNat 32 k.val then 1 else 0 := by
  have hb : broadcastTo S512x512 (shapeCast S512x1 x1 shapeCasts_S512x1_S512x1) broadcasts_S512x1_S512x512 (ix2 r k) = x1 (ix2 r 0) :=
    (broadcastTo_apply _ broadcasts_S512x1_S512x512 (ix2 r k) (ix2 r (0 : Fin 1)) (fun a => match a with
      | ⟨0, _⟩ => rfl
      | ⟨1, _⟩ => rfl)).trans (congrFun (shapeCast_self x1 shapeCasts_S512x1_S512x1) _)
  have hi : iota .tc S512x512 32 [1] iota_S512x512_d1_w32 (ix2 r k) = BitVec.ofNat 32 k.val :=
    iota_single_apply .tc S512x512 32 1 iota_S512x512_d1_w32 (ix2 r k)
  show (FloatOps.sitofp (F := Ideal) .f32 ((IntOp.cmpi .eq (broadcastTo S512x512 (shapeCast S512x1 x1 shapeCasts_S512x1_S512x1) broadcasts_S512x1_S512x512 (ix2 r k)) (iota .tc S512x512 32 [1] iota_S512x512_d1_w32 (ix2 r k))).setWidth 32) : EReal) = _
  rw [hb, hi]
  exact onehot_word _ _

/-! ### The cleared scratch -/

theorem pay1_apply (k : Fin 512) (j : Fin 1600) : k0_pay1 (F := Ideal) (ix2 k j) = 0 := by
  unfold k0_pay1
  refine (congrFun (shapeCast_self _ shapeCasts_S512x1600_S512x1600) (ix2 k j)).trans ?_
  exact Ideal.ofBits_zero_f32

/-! ### The block's contribution added onto the scratch -/

theorem pay2_apply (x0 : Vec Ideal S512x1600 .f32) (x1 : Vec Ideal S512x1 .i32) (xs : Vec Ideal S512x1600 .f32) (k : Fin 512) (j : Fin 1600) :
    k0_pay2 (F := Ideal) x0 x1 xs (ix2 k j)
      = xs (ix2 k j) + ∑ r : Fin 512, (if x1 (ix2 r 0) = BitVec.ofNat 32 k.val then (1 : EReal) else 0) * x0 (ix2 r j) := by
  unfold k0_pay2
  refine (congrFun (shapeCast_self _ shapeCasts_S512x1600_S512x1600) (ix2 k j)).trans ?_
  refine congrArg (fun z : EReal => xs (ix2 k j) + z) ?_
  refine (Ideal.matmul_constant_zero_apply dot_S512x512_S512x1600_S512x1600_0_0_1_1_n_n none _ _ (ix2 k j)).trans ?_
  refine (Equiv.sum_comp (contrEquiv1 dot_S512x512_S512x1600_S512x1600_0_0_1_1_n_n 512 rfl rfl).symm _).symm.trans ?_
  refine Finset.sum_congr rfl fun r _ => ?_
  have hk := contrEquiv1_symm_val dot_S512x512_S512x1600_S512x1600_0_0_1_1_n_n 512 rfl rfl r
  have el : dot_S512x512_S512x1600_S512x1600_0_0_1_1_n_n.lhsIdx (ix2 k j) ((contrEquiv1 dot_S512x512_S512x1600_S512x1600_0_0_1_1_n_n 512 rfl rfl).symm r) = ix2 r k := funext fun a => Fin.ext (by
    match a with
    | ⟨0, _⟩ => exact (dotL_0 _ _).trans hk
    | ⟨1, _⟩ => exact dotL_1 _ _)
  have er : dot_S512x512_S512x1600_S512x1600_0_0_1_1_n_n.rhsIdx (ix2 k j) ((contrEquiv1 dot_S512x512_S512x1600_S512x1600_0_0_1_1_n_n 512 rfl rfl).symm r) = ix2 r j := funext fun a => Fin.ext (by
    match a with
    | ⟨0, _⟩ => exact (dotR_0 _ _).trans hk
    | ⟨1, _⟩ => exact dotR_1 _ _)
  rw [el, er]
  refine congrArg₂ (fun a b : EReal => a * b) (onehot_apply x1 r k) ?_
  exact congrFun (shapeCast_self x0 shapeCasts_S512x1600_S512x1600) (ix2 r j)

/-! ### The scaling by the reciprocal column, and the squared norms -/

/-- The reciprocal column broadcast along the features reads, at class k and feature j, its k-th entry. -/
theorem recipCol_apply (x2 : Vec Ideal S512x1 .f32) (k : Fin 512) (j : Fin 1600) :
    broadcastTo S512x1600 (shapeCast S512x1 x2 shapeCasts_S512x1_S512x1) broadcasts_S512x1_S512x1600 (ix2 k j) = x2 (ix2 k 0) :=
  (broadcastTo_apply _ broadcasts_S512x1_S512x1600 (ix2 k j) (ix2 k (0 : Fin 1)) (fun a => match a with
    | ⟨0, _⟩ => rfl
    | ⟨1, _⟩ => rfl)).trans (congrFun (shapeCast_self x2 shapeCasts_S512x1_S512x1) _)

theorem pay3_apply (xs : Vec Ideal S512x1600 .f32) (x2 : Vec Ideal S512x1 .f32) (k : Fin 512) (j : Fin 1600) :
    k0_pay3 (F := Ideal) xs x2 (ix2 k j) = xs (ix2 k j) * x2 (ix2 k 0) := by
  unfold k0_pay3
  exact congrArg (fun z : EReal => xs (ix2 k j) * z) (recipCol_apply x2 k j)

theorem pay4_apply (xs : Vec Ideal S512x1600 .f32) (x2 : Vec Ideal S512x1 .f32) (k : Fin 512) (j : Fin 1600) :
    k0_pay4 (F := Ideal) xs x2 (ix2 k j) = xs (ix2 k j) * x2 (ix2 k 0) := by
  unfold k0_pay4
  exact pay3_apply xs x2 k j

/-- A row sum over the features: class k's entry is the sum over the 1600 features of row k. -/
theorem rowSum_apply (v : FVec Ideal S512x1600 .f32) (hacc : (0x00000000#32 : BitVec 32) = 0x00000000#32) (k : Fin 512) :
    multiReduction (F := Ideal) .add [1] S512 v 0x00000000#32 reduces_S512x1600_S512 (.inl rfl) hacc (ix1 k) = ∑ j : Fin 1600, v (ix2 k j) := by
  refine (Ideal.multiReduction_add_single v 0x00000000#32 reduces_S512x1600_S512 (.inl rfl) hacc (ix1 k)).trans ?_
  refine Finset.sum_congr rfl fun j _ => congrArg v ?_
  funext a
  apply Fin.ext
  match a with
  | ⟨0, _⟩ => rfl
  | ⟨1, _⟩ => rfl

theorem pay5_apply (xs : Vec Ideal S512x1600 .f32) (x2 : Vec Ideal S512x1 .f32) (k : Fin 512) :
    k0_pay5 (F := Ideal) xs x2 (ix2 0 k) = ∑ j : Fin 1600, (xs (ix2 k j) * x2 (ix2 k 0)) * (xs (ix2 k j) * x2 (ix2 k 0)) := by
  unfold k0_pay5
  refine (transpose_ix2_apply _ transposes_S512x1_p1_0_S1x512 (0 : Fin 1) k).trans ?_
  refine (shapeCast_apply _ shapeCasts_S512_S512x1 (ix2 k (0 : Fin 1)) (ix1 k) (by
    rw [Shape.rowMajor_val_one, Shape.rowMajor_val_two]
    show k.val = k.val * 1 + 0
    omega)).trans ?_
  refine (rowSum_apply _ rfl k).trans ?_
  refine Finset.sum_congr rfl fun j _ => ?_
  exact congrArg₂ (fun a b : EReal => a * b) (pay3_apply xs x2 k j) (pay3_apply xs x2 k j)

end Cert.KernelIdeal.Hand
end
-- ==== Proof.KIValue0Blocks.lean ====
/-
  The blocks the first call's body finds, read at an index of their arrays.

  At point t the support window holds rows 512 t … 512 t + 511 of the support array and the labels' window the same rows of
  the label column: a block's coordinate is its block index times the block's extent plus the coordinate inside the block,
  and the block index of both windows at point t is (t, 0).  The reciprocal counts' window is the whole column at every
  point.  Generic in the float instance.
-/
import proofs.«401966_j16947940950251_2_alg».proof.Proof.KIRegion0Base
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The three input arrays as the call finds them, and the three blocks the body finds at point t, at their literal types. -/
abbrev supArr (c : Dev nD) : Vec F S2560x1600 .f32 := V c main_v0
abbrev lblArr (c : Dev nD) : Vec F S2560x1 .i32 := V c main_v2
abbrev rcpArr (c : Dev nD) : Vec F S512x1 .f32 := V c main_v9
abbrev rowsBlk (c : Dev nD) (t : Fin cfg0.N) : Vec F S512x1600 .f32 := blk0 V c 0 t
abbrev lblBlk (c : Dev nD) (t : Fin cfg0.N) : Vec F S512x1 .i32 := blk0 V c 1 t
abbrev rcpBlk (c : Dev nD) (t : Fin cfg0.N) : Vec F S512x1 .f32 := blk0 V c 2 t

/-- The block indices of the three input windows at point t. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

theorem pt_lt5 (t : Fin cfg0.N) : t.val < 5 := lt_of_lt_of_eq t.isLt (show cfg0.N = 5 from N_0)

/-- Row r of the support block at point t is support row 512 t + r. -/
theorem rowsBlk_apply (c : Dev nD) (t : Fin cfg0.N) (r : Fin 512) (j : Fin 1600) :
    rowsBlk V c t (ix2 r j) = supArr V c (ix2 (⟨512 * t.val + r.val, by have := pt_lt5 t; omega⟩ : Fin 2560) j) := by
  show ((cfg0.win 0).blk t).view.read (Elt F) (V c (Pipeline.arrRef spec0 0)) (ix2 r j) = _
  rw [View.read_apply]
  show V c main_v0 (((cfg0.win 0).blk t).view.emb (ix2 r j)) = V c main_v0 _
  congr 1
  funext a
  apply Fin.ext
  have h := idx0_facts t
  match a with
  | ⟨0, _⟩ => show win0_0.index t 0 * 512 + 1 * r.val = 512 * t.val + r.val; rw [h.1]; omega
  | ⟨1, _⟩ => show win0_0.index t 1 * 1600 + 1 * j.val = j.val; rw [h.2.1]; omega

/-- Likewise the label of row r of the block. -/
theorem lblBlk_apply (c : Dev nD) (t : Fin cfg0.N) (r : Fin 512) :
    lblBlk V c t (ix2 r 0) = lblArr V c (ix2 (⟨512 * t.val + r.val, by have := pt_lt5 t; omega⟩ : Fin 2560) 0) := by
  show ((cfg0.win 1).blk t).view.read (Elt F) (V c (Pipeline.arrRef spec0 1)) (ix2 r 0) = _
  rw [View.read_apply]
  show V c main_v2 (((cfg0.win 1).blk t).view.emb (ix2 r 0)) = V c main_v2 _
  congr 1
  funext a
  apply Fin.ext
  have h := idx0_facts t
  match a with
  | ⟨0, _⟩ => show win0_1.index t 0 * 512 + 1 * r.val = 512 * t.val + r.val; rw [h.2.2.1]; omega
  | ⟨1, _⟩ => show win0_1.index t 1 * 1 + 1 * 0 = 0; rw [h.2.2.2.1]

/-- The reciprocal counts' block is the whole column. -/
theorem rcpBlk_apply (c : Dev nD) (t : Fin cfg0.N) (k : Fin 512) :
    rcpBlk V c t (ix2 k 0) = rcpArr V c (ix2 k 0) := by
  show ((cfg0.win 2).blk t).view.read (Elt F) (V c (Pipeline.arrRef spec0 2)) (ix2 k 0) = _
  rw [View.read_apply]
  show V c main_v9 (((cfg0.win 2).blk t).view.emb (ix2 k 0)) = V c main_v9 _
  congr 1
  funext a
  apply Fin.ext
  have h := idx0_facts t
  match a with
  | ⟨0, _⟩ => show win0_2.index t 0 * 512 + 1 * k.val = k.val; rw [h.2.2.2.2.1]; omega
  | ⟨1, _⟩ => show win0_2.index t 1 * 1 + 1 * 0 = 0; rw [h.2.2.2.2.2]

end Cert.KernelIdeal.Hand
end
-- ==== Proof.KIValue0Sums.lean ====
/-
  The class sums built block by block.

  The 2560 support rows are five blocks of 512: row 512 b + r is row r of block b.  Block b's part of class k's sum at
  feature j is the sum, over the block's rows, of the row's feature j where the row's label is the word k (written as a
  product with a one-or-zero factor, the way a one-hot matrix product forms it).  The running sum after block t is the sum
  of the parts of blocks 0 … t, and after the last block it is the class sum over all rows: a sum over 2560 rows is the
  sum over the five blocks of the sums over each block's rows, and a row belongs to class k exactly when its label is the
  word k.
-/
import proofs.«401966_j16947940950251_2_alg».proof.Proof.Spec
import Mathlib.Algebra.BigOperators.Fin
import Mathlib.Logic.Equiv.Fin.Basic

noncomputable section

namespace Cert.Spec

open Idealize.ShloMosaic

/-- A sum over the 2560 rows is the sum over the five blocks of the sums over each block's 512 rows. -/
theorem sum_rows_eq_blocks (g : Fin 2560 → EReal) :
    ∑ n : Fin 2560, g n = ∑ b : Fin 5, ∑ r : Fin 512, g ⟨512 * b.val + r.val, by omega⟩ := by
  refine (Equiv.sum_comp (finProdFinEquiv (m := 5) (n := 512)) (fun n : Fin (5 * 512) => g n)).symm.trans ?_
  rw [Fintype.sum_prod_type]
  refine Finset.sum_congr rfl fun b _ => Finset.sum_congr rfl fun r _ => congrArg g (Fin.ext ?_)
  show r.val + 512 * b.val = 512 * b.val + r.val
  omega

/-- Block b's part of class k's sum at feature j (zero past the five blocks). -/
def blockPart (s : Fin 2560 → Fin 1600 → EReal) (lbl : Fin 2560 → BitVec 32) (k : Fin 512) (j : Fin 1600) (b : ℕ) : EReal :=
  if h : b < 5 then
    ∑ r : Fin 512, (if lbl ⟨512 * b + r.val, by omega⟩ = BitVec.ofNat 32 k.val then (1 : EReal) else 0) * s ⟨512 * b + r.val, by omega⟩ j
  else 0

/-- The running sum after block t: the parts of blocks 0 … t. -/
def running (s : Fin 2560 → Fin 1600 → EReal) (lbl : Fin 2560 → BitVec 32) (k : Fin 512) (j : Fin 1600) (t : ℕ) : EReal :=
  ∑ b ∈ Finset.range (t + 1), blockPart s lbl k j b

theorem running_zero (s : Fin 2560 → Fin 1600 → EReal) (lbl : Fin 2560 → BitVec 32) (k : Fin 512) (j : Fin 1600) :
    running s lbl k j 0 = blockPart s lbl k j 0 := Finset.sum_range_one _

theorem running_succ (s : Fin 2560 → Fin 1600 → EReal) (lbl : Fin 2560 → BitVec 32) (k : Fin 512) (j : Fin 1600) (t : ℕ) :
    running s lbl k j (t + 1) = running s lbl k j t + blockPart s lbl k j (t + 1) := Finset.sum_range_succ _ _

/-- A block's part, for a block below five, as the sum it is. -/
theorem blockPart_of_lt (s : Fin 2560 → Fin 1600 → EReal) (lbl : Fin 2560 → BitVec 32) (k : Fin 512) (j : Fin 1600) (b : ℕ) (h : b < 5) :
    blockPart s lbl k j b
      = ∑ r : Fin 512, (if lbl ⟨512 * b + r.val, by omega⟩ = BitVec.ofNat 32 k.val then (1 : EReal) else 0) * s ⟨512 * b + r.val, by omega⟩ j :=
  dif_pos h

/-- After the last block the running sum is the class sum over all 2560 rows. -/
theorem running_last (s : Fin 2560 → Fin 1600 → EReal) (lbl : Fin 2560 → BitVec 32) (k : Fin 512) (j : Fin 1600) :
    running s lbl k j 4 = sums s lbl k j := by
  unfold running sums
  rw [Finset.sum_range, sum_rows_eq_blocks]
  refine Finset.sum_congr rfl fun b _ => ?_
  rw [blockPart_of_lt s lbl k j b.val b.isLt]
  refine Finset.sum_congr rfl fun r _ => ?_
  by_cases h : lbl ⟨512 * b.val + r.val, by omega⟩ = BitVec.ofNat 32 k.val
  · rw [if_pos h, if_pos ((hit_iff_eq lbl _ k).mpr h), one_mul]
  · rw [if_neg h, if_neg (fun hh => h ((hit_iff_eq lbl _ k).mp hh)), zero_mul]

end Cert.Spec

end
-- ==== Proof.KIValue0Acc.lean ====
/-
  The running class sums over the five points, and what the last point stores.

  After point t the scratch holds, at class k and feature j, the parts of blocks 0 … t of class k's sum: the first point
  adds its block's part onto the cleared scratch, every later point onto what the point before left.  By induction on the
  point.  At the last point the prototypes' buffer holds the scratch's final contents times the class's reciprocal count,
  and the norms' buffer the sum over the features of that product squared.
-/
import proofs.«401966_j16947940950251_2_alg».proof.Proof.KIValue0Pieces
import proofs.«401966_j16947940950251_2_alg».proof.Proof.KIValue0Pay
import proofs.«401966_j16947940950251_2_alg».proof.Proof.KIValue0Blocks
import proofs.«401966_j16947940950251_2_alg».proof.Proof.KIValue0Sums

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable (V : (c : Dev nD) → (b : Ref sig .tc) → Buf (Elt Ideal) ((c : Thread nD τ).loc b))

/-- The support rows, the labels and the reciprocal counts as the call finds them, by coordinates. -/
abbrev supRows (c : Dev nD) : Fin 2560 → Fin 1600 → EReal := fun n j => V c main_v0 (ix2 n j)
abbrev labels (c : Dev nD) : Fin 2560 → BitVec 32 := fun n => V c main_v2 (ix2 n 0)
abbrev recips (c : Dev nD) : Fin 512 → EReal := fun k => V c main_v9 (ix2 k 0)

/-- The one-hot product over the block at point t is block t's part of the class sum. -/
theorem blockSum_eq (c : Dev nD) (t : Fin cfg0.N) (k : Fin 512) (j : Fin 1600) :
    (∑ r : Fin 512, (if lblBlk V c t (ix2 r 0) = BitVec.ofNat 32 k.val then (1 : EReal) else 0) * rowsBlk V c t (ix2 r j))
      = Cert.Spec.blockPart (supRows V c) (labels V c) k j t.val := by
  rw [Cert.Spec.blockPart_of_lt _ _ k j t.val (pt_lt5 t)]
  refine Finset.sum_congr rfl fun r _ => ?_
  rw [lblBlk_apply V c t r, rowsBlk_apply V c t r j]

/-- The first point leaves its block's part. -/
theorem acc_first (c : Dev nD) (t : Fin cfg0.N) (h0 : t.val % 5 = 0) (h1 : ¬t.val % 5 = 4) (k : Fin 512) (j : Fin 1600) :
    (stateAt V c t.val t.isLt).2.2 (ix2 k j) = Cert.Spec.blockPart (supRows V c) (labels V c) k j t.val := by
  rw [stateAt_first V c t h0 h1]
  dsimp only
  refine (congrFun (accFirst_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) ((isFirst_iff t).mpr h0) (fun h => h1 ((isLast_iff t).mp h)) (blk0 V c 0 t) (blk0 V c 1 t) (blk0 V c 2 t)) (ix2 k j)).trans ?_
  refine (pay2_apply (rowsBlk V c t) (lblBlk V c t) (k0_pay1 (F := Ideal)) k j).trans ?_
  rw [pay1_apply k j, zero_add]
  exact blockSum_eq V c t k j

/-- A middle point adds its block's part onto what the point before left. -/
theorem acc_mid (c : Dev nD) (t : Fin cfg0.N) (h0 : ¬t.val % 5 = 0) (h1 : ¬t.val % 5 = 4) (k : Fin 512) (j : Fin 1600) :
    (stateAt V c t.val t.isLt).2.2 (ix2 k j)
      = (stateAt V c (t.val - 1) (Nat.lt_of_le_of_lt (Nat.sub_le _ _) t.isLt)).2.2 (ix2 k j) + Cert.Spec.blockPart (supRows V c) (labels V c) k j t.val := by
  rw [stateAt_mid V c t h0 h1]
  dsimp only
  refine (congrFun (accMid_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) (fun h => h1 ((isLast_iff t).mp h)) (blk0 V c 0 t) (blk0 V c 1 t) (blk0 V c 2 t) (stateAt V c (t.val - 1) (Nat.lt_of_le_of_lt (Nat.sub_le _ _) t.isLt)).2.2) (ix2 k j)).trans ?_
  refine (pay2_apply (rowsBlk V c t) (lblBlk V c t) (stateAt V c (t.val - 1) (Nat.lt_of_le_of_lt (Nat.sub_le _ _) t.isLt)).2.2 k j).trans ?_
  exact congrArg (fun z : EReal => (stateAt V c (t.val - 1) (Nat.lt_of_le_of_lt (Nat.sub_le _ _) t.isLt)).2.2 (ix2 k j) + z) (blockSum_eq V c t k j)

/-- So does the last point. -/
theorem acc_last (c : Dev nD) (t : Fin cfg0.N) (h0 : ¬t.val % 5 = 0) (h1 : t.val % 5 = 4) (k : Fin 512) (j : Fin 1600) :
    (stateAt V c t.val t.isLt).2.2 (ix2 k j)
      = (stateAt V c (t.val - 1) (Nat.lt_of_le_of_lt (Nat.sub_le _ _) t.isLt)).2.2 (ix2 k j) + Cert.Spec.blockPart (supRows V c) (labels V c) k j t.val := by
  rw [stateAt_last V c t h0 h1]
  dsimp only
  refine (congrFun (accLast_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2) (ix2 k j)).trans ?_
  refine (pay2_apply (rowsBlk V c t) (lblBlk V c t) (stateAt V c (t.val - 1) (Nat.lt_of_le_of_lt (Nat.sub_le _ _) t.isLt)).2.2 k j).trans ?_
  exact congrArg (fun z : EReal => (stateAt V c (t.val - 1) (Nat.lt_of_le_of_lt (Nat.sub_le _ _) t.isLt)).2.2 (ix2 k j) + z) (blockSum_eq V c t k j)

/-- THE INVARIANT.  After point n the scratch holds the running class sums over blocks 0 … n. -/
theorem acc_eq (c : Dev nD) : ∀ (n : ℕ) (hn : n < cfg0.N) (k : Fin 512) (j : Fin 1600),
    (stateAt V c n hn).2.2 (ix2 k j) = Cert.Spec.running (supRows V c) (labels V c) k j n
  | 0, hn, k, j => (acc_first V c ⟨0, hn⟩ (Nat.zero_mod _) (show ¬(0 : ℕ) % 5 = 4 by decide) k j).trans (Cert.Spec.running_zero _ _ k j).symm
  | n + 1, hn, k, j => by
    have hN := lt5 hn
    have ih := acc_eq c n (Nat.lt_of_succ_lt hn) k j
    rw [Cert.Spec.running_succ, ← ih]
    by_cases h1 : (n + 1) % 5 = 4
    · exact acc_last V c ⟨n + 1, hn⟩ (by dsimp only; omega) h1 k j
    · exact acc_mid V c ⟨n + 1, hn⟩ (by dsimp only; omega) h1 k j

/-- After the last point the scratch holds the class sums over all 2560 rows. -/
theorem acc_final (c : Dev nD) (hn : 4 < cfg0.N) (k : Fin 512) (j : Fin 1600) :
    (stateAt V c 4 hn).2.2 (ix2 k j) = Cert.Spec.sums (supRows V c) (labels V c) k j :=
  (acc_eq V c 4 hn k j).trans (Cert.Spec.running_last _ _ k j)

/-- What the last point stores into the prototypes' buffer: the scratch's final contents times the reciprocal count. -/
theorem proto_last (c : Dev nD) (t : Fin cfg0.N) (h0 : ¬t.val % 5 = 0) (h1 : t.val % 5 = 4) (k : Fin 512) (j : Fin 1600) :
    (stateAt V c t.val t.isLt).1 (ix2 k j) = (stateAt V c t.val t.isLt).2.2 (ix2 k j) * recips V c k := by
  rw [stateAt_last V c t h0 h1]
  dsimp only
  refine (congrFun (protoLast_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2) (ix2 k j)).trans ?_
  refine (pay4_apply (k0_pay2 (F := Ideal) (rowsBlk V c t) (lblBlk V c t) (stateAt V c (t.val - 1) (Nat.lt_of_le_of_lt (Nat.sub_le _ _) t.isLt)).2.2) (rcpBlk V c t) k j).trans ?_
  refine congrArg₂ (fun a b : EReal => a * b) ?_ (rcpBlk_apply V c t k)
  exact (congrFun (accLast_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2) (ix2 k j)).symm

/-- and into the norms' buffer: the sum over the features of that product squared. -/
theorem norm_last (c : Dev nD) (t : Fin cfg0.N) (h0 : ¬t.val % 5 = 0) (h1 : t.val % 5 = 4) (k : Fin 512) :
    (stateAt V c t.val t.isLt).2.1 (ix2 0 k)
      = ∑ j : Fin 1600, ((stateAt V c t.val t.isLt).2.2 (ix2 k j) * recips V c k) * ((stateAt V c t.val t.isLt).2.2 (ix2 k j) * recips V c k) := by
  rw [stateAt_last V c t h0 h1]
  dsimp only
  refine (congrFun (normLast_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2) (ix2 0 k)).trans ?_
  refine (pay5_apply (k0_pay2 (F := Ideal) (rowsBlk V c t) (lblBlk V c t) (stateAt V c (t.val - 1) (Nat.lt_of_le_of_lt (Nat.sub_le _ _) t.isLt)).2.2) (rcpBlk V c t) k).trans ?_
  refine Finset.sum_congr rfl fun j _ => ?_
  have e : k0_pay2 (F := Ideal) (rowsBlk V c t) (lblBlk V c t) (stateAt V c (t.val - 1) (Nat.lt_of_le_of_lt (Nat.sub_le _ _) t.isLt)).2.2 (ix2 k j) * rcpBlk V c t (ix2 k 0)
      = accLast c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2 (ix2 k j) * recips V c k :=
    congrArg₂ (fun a b : EReal => a * b)
      (congrFun (accLast_eq (F := Ideal) c (grid0.coords t) (ms0_0 t) (hs0_0 t) (ms0_1 t) (hs0_1 t) (ms0_2 t) (hs0_2 t) (ms0_3 t) (hs0_3 t) (ms0_4 t) (hs0_4 t) accM (Memref.isWhole_whole _) (fun h => h0 ((isFirst_iff t).mp h)) ((isLast_iff t).mpr h1) (blk0 V c 0 t) (blk0 V c 1 t) (blk0 V c 2 t) (stateAt V c (t.val - 1) (Nat.lt_of_le_of_lt (Nat.sub_le _ _) t.isLt)).2.2) (ix2 k j)).symm
      (rcpBlk_apply V c t k)
  exact congrArg₂ (fun a b : EReal => a * b) e e

end Cert.KernelIdeal.Hand
end
-- ==== Proof.KIValue0.lean ====
/-
  What the first kernel call leaves in its two output arrays, index by index, at the ideal values.

  The scratch after point `t` holds, at class `k` and feature `j`, the sum of feature `j` over the support rows among the
  first `512 (t + 1)` whose label is the word `k`: each point adds its block's contribution, a one-hot matrix of the
  block's labels against the class numbers times the block's rows, onto what the point before left, and the first point
  starts from zero.  After the last point that is the class sum over all 2560 rows, `Spec.sums`.  The last point then
  stores, into the prototypes' window, the class sums scaled row by row by the reciprocal-count array as the call finds it,
  and, into the squared norms' window, each scaled row's sum of squares.  Both windows are one whole block written back
  once, after the last point, so the final arrays are exactly what that point stored.
-/
import proofs.«401966_j16947940950251_2_alg».proof.Proof.KIRegion0
import proofs.«401966_j16947940950251_2_alg».proof.Proof.KIValue0Acc
import proofs.«401966_j16947940950251_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ### Both output windows: one whole block, written back once, after the last point -/

/-- The prototypes' one write-back, at the last point, writes the whole buffer as that point left it. -/
theorem flushedProto_eq (V : (c : Dev nD) → (b : Ref sig .tc) → Buf (Elt Ideal) ((c : Thread nD τ).loc b)) (c : Dev nD) (t : Fin cfg0.N)
    (hf : (cfg0.win 3).flush t = true) :
    (dat0 (F := Ideal) V c).flushed 3 t = ((cfg0.win 3).blk t).view.read (Elt Ideal) (stateAt V c t0_4.val t0_4.isLt).1 := by
  have h4 : t.val = 4 := by have := (flush0_3 t).mp hf; have := pt_lt5 t; omega
  obtain rfl : t = t0_4 := Fin.ext h4
  show (cfg0.win 3).cut (grid0.coords t0_4) ((dat0 (F := Ideal) V c).after 3 t0_4) = _
  rw [dat0_after3]
  have hz' : (fun a => win0_3.index t0_4 a * main_v10_0.ty.shape.size a) = fun _ => 0 := funext fun a => by fin_cases a <;> decide
  exact (Memref.read_access_unit_zero (Elt Ideal) main_v10_0 hz' (fun a => by rw [congrFun hz' a]; simp) (stateAt V c t0_4.val t0_4.isLt).1).symm

/-- Likewise the squared norms' window. -/
theorem flushedNorm_eq (V : (c : Dev nD) → (b : Ref sig .tc) → Buf (Elt Ideal) ((c : Thread nD τ).loc b)) (c : Dev nD) (t : Fin cfg0.N)
    (hf : (cfg0.win 4).flush t = true) :
    (dat0 (F := Ideal) V c).flushed 4 t = ((cfg0.win 4).blk t).view.read (Elt Ideal) (stateAt V c t0_4.val t0_4.isLt).2.1 := by
  have h4 : t.val = 4 := by have := (flush0_4 t).mp hf; have := pt_lt5 t; omega
  obtain rfl : t = t0_4 := Fin.ext h4
  show (cfg0.win 4).cut (grid0.coords t0_4) ((dat0 (F := Ideal) V c).after 4 t0_4) = _
  rw [dat0_after4]
  have hz' : (fun a => win0_4.index t0_4 a * main_v10_1.ty.shape.size a) = fun _ => 0 := funext fun a => by fin_cases a <;> decide
  exact (Memref.read_access_unit_zero (Elt Ideal) main_v10_1 hz' (fun a => by rw [congrFun hz' a]; simp) (stateAt V c t0_4.val t0_4.isLt).2.1).symm

/-- So the prototype array ends holding what the last point stored: its block covers the whole array. -/
theorem finalProto (V : (c : Dev nD) → (b : Ref sig .tc) → Buf (Elt Ideal) ((c : Thread nD τ).loc b)) (c : Dev nD) :
    (dat0 (F := Ideal) V c).arrAt 3 cfg0.N = (stateAt V c t0_4.val t0_4.isLt).1 :=
  (dat0 (F := Ideal) V c).arrAt_eq_of_cover 3 (stateAt V c t0_4.val t0_4.isLt).1 (flushedProto_eq V c) fun i =>
    ⟨t0_4, (flush0_3 t0_4).mpr (by decide), by
      show i ∈ ((View.whole main_v10_0).slice (win0_3.rect t0_4)).set
      rw [View.set_slice_whole, Rect.mem_set_unit]
      intro a
      have h0 : (i 0 : Nat) < 512 := (i 0).isLt
      have h1 : (i 1 : Nat) < 1600 := (i 1).isLt
      match a with
      | ⟨0, _⟩ => show win0_3.index t0_4 0 * win0_3.size 0 ≤ (i 0 : Nat) ∧ (i 0 : Nat) < win0_3.index t0_4 0 * win0_3.size 0 + win0_3.xsize (grid0.coords t0_4) 0
                  rw [show win0_3.index t0_4 0 * win0_3.size 0 = 0 from by decide +kernel, show win0_3.xsize (grid0.coords t0_4) 0 = 512 from by decide +kernel]; omega
      | ⟨1, _⟩ => show win0_3.index t0_4 1 * win0_3.size 1 ≤ (i 1 : Nat) ∧ (i 1 : Nat) < win0_3.index t0_4 1 * win0_3.size 1 + win0_3.xsize (grid0.coords t0_4) 1
                  rw [show win0_3.index t0_4 1 * win0_3.size 1 = 0 from by decide +kernel, show win0_3.xsize (grid0.coords t0_4) 1 = 1600 from by decide +kernel]; omega⟩

/-- and the squared-norm array likewise. -/
theorem finalNorm (V : (c : Dev nD) → (b : Ref sig .tc) → Buf (Elt Ideal) ((c : Thread nD τ).loc b)) (c : Dev nD) :
    (dat0 (F := Ideal) V c).arrAt 4 cfg0.N = (stateAt V c t0_4.val t0_4.isLt).2.1 :=
  (dat0 (F := Ideal) V c).arrAt_eq_of_cover 4 (stateAt V c t0_4.val t0_4.isLt).2.1 (flushedNorm_eq V c) fun i =>
    ⟨t0_4, (flush0_4 t0_4).mpr (by decide), by
      show i ∈ ((View.whole main_v10_1).slice (win0_4.rect t0_4)).set
      rw [View.set_slice_whole, Rect.mem_set_unit]
      intro a
      have h0 : (i 0 : Nat) < 1 := (i 0).isLt
      have h1 : (i 1 : Nat) < 512 := (i 1).isLt
      match a with
      | ⟨0, _⟩ => show win0_4.index t0_4 0 * win0_4.size 0 ≤ (i 0 : Nat) ∧ (i 0 : Nat) < win0_4.index t0_4 0 * win0_4.size 0 + win0_4.xsize (grid0.coords t0_4) 0
                  rw [show win0_4.index t0_4 0 * win0_4.size 0 = 0 from by decide +kernel, show win0_4.xsize (grid0.coords t0_4) 0 = 1 from by decide +kernel]; omega
      | ⟨1, _⟩ => show win0_4.index t0_4 1 * win0_4.size 1 ≤ (i 1 : Nat) ∧ (i 1 : Nat) < win0_4.index t0_4 1 * win0_4.size 1 + win0_4.xsize (grid0.coords t0_4) 1
                  rw [show win0_4.index t0_4 1 * win0_4.size 1 = 0 from by decide +kernel, show win0_4.xsize (grid0.coords t0_4) 1 = 512 from by decide +kernel]; omega⟩

/-- The first call's final prototype array at class `k`, feature `j`: the class sum of the support rows as the call finds
    them, scaled by the reciprocal-count array as the call finds it. -/
theorem final0_proto (V : (c : Dev nD) → (b : Ref sig .tc) → Buf (Elt Ideal) ((c : Thread nD τ).loc b)) (c : Dev nD) (k : Fin 512) (j : Fin 1600) :
    (dat0 (F := Ideal) V c).arrAt 3 cfg0.N (ix2 k j)
      = Cert.Spec.scaled (Cert.Spec.sums (fun n j => V c main_v0 (ix2 n j)) (fun n => V c main_v2 (ix2 n 0))) (fun k => V c main_v9 (ix2 k 0)) k j := by
  refine (congrFun (finalProto V c) (ix2 k j)).trans ?_
  refine (proto_last V c t0_4 (by decide) (by decide) k j).trans ?_
  unfold Cert.Spec.scaled
  exact congrArg (fun z : EReal => z * V c main_v9 (ix2 k 0)) (acc_final V c t0_4.isLt k j)

/-- Its final squared-norm array at class `k`: the sum of squares of that scaled row. -/
theorem final0_norm (V : (c : Dev nD) → (b : Ref sig .tc) → Buf (Elt Ideal) ((c : Thread nD τ).loc b)) (c : Dev nD) (k : Fin 512) :
    (dat0 (F := Ideal) V c).arrAt 4 cfg0.N (ix2 0 k)
      = Cert.Spec.sq (Cert.Spec.scaled (Cert.Spec.sums (fun n j => V c main_v0 (ix2 n j)) (fun n => V c main_v2 (ix2 n 0))) (fun k => V c main_v9 (ix2 k 0))) k := by
  refine (congrFun (finalNorm V c) (ix2 0 k)).trans ?_
  refine (norm_last V c t0_4 (by decide) (by decide) k).trans ?_
  unfold Cert.Spec.sq Cert.Spec.scaled
  refine Finset.sum_congr rfl fun j _ => ?_
  have e := congrArg (fun z : EReal => z * V c main_v9 (ix2 k 0)) (acc_final V c t0_4.isLt k j)
  exact congrArg₂ (fun a b : EReal => a * b) e e

end Cert.KernelIdeal.Hand

end
-- ==== Proof.KIValue1Pay.lean ====
/-
  The second kernel call's arithmetic, read at one index of the block it stores.

  The body multiplies the block of query rows with the prototypes (contracting the 1600 features), doubles the
  products, subtracts each class's squared norm, and takes the log-softmax along each row: the row's maximum (folded
  from minus infinity), the scores less that maximum, the log of the sum of their exponentials, subtracted.  Read at
  row r and class k the stored value is therefore

      (x r k - M r) - log (∑ k', exp (x r k' - M r)),     x r k = 2 (∑ j, q r j * p k j) - n k,    M r = max over k of x r k,

  with q, p, n the three loaded blocks.  The proof is in two halves: the score block at an index (a matrix product
  into a zero accumulator, a scalar broadcast, a row broadcast), and the log-softmax of ANY block at an index (two lane
  reductions, each cast to a column and broadcast back along the row).
-/
import proofs.«401966_j16947940950251_2_alg».proof.Proof.Gen.KernelIdeal.Skeleton
import proofs.«401966_j16947940950251_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic
open Idealize.ShloMosaic.ValueIdx

/-! ## Two column forms of the layout operations -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a reduction along the lanes of a 1024 × 512 block: row r, lane k. -/
theorem lift_row (r : Fin 1024) (k : Fin 512) :
    reduces_S1024x512_S1024.lift (ix1 r) k = ix2 r k := by
  funext c
  apply Fin.ext
  match c with
  | ⟨0, _⟩ => rfl
  | ⟨1, _⟩ => rfl

/-! ## The matrix product at an index -/

theorem lhs_dot1_0 (i : S1024x512.Idx) (q : dot_S1024x1600_S512x1600_S1024x512_1_1_0_0_n_n.contr.Idx) :
    (dot_S1024x1600_S512x1600_S1024x512_1_1_0_0_n_n.lhsIdx i q 0).val = (i 0).val := by
  unfold DotDims.lhsIdx
  rw [dif_neg (show ¬(0 : Fin S1024x1600.rank) ∈ dot_S1024x1600_S512x1600_S1024x512_1_1_0_0_n_n.lhsBatch by decide), dif_pos (show (0 : Fin S1024x1600.rank) ∈ dot_S1024x1600_S512x1600_S1024x512_1_1_0_0_n_n.lhsNonContracting by decide)]
  rfl
theorem lhs_dot1_1 (i : S1024x512.Idx) (q : dot_S1024x1600_S512x1600_S1024x512_1_1_0_0_n_n.contr.Idx) :
    (dot_S1024x1600_S512x1600_S1024x512_1_1_0_0_n_n.lhsIdx i q 1).val = (q ⟨0, by decide⟩).val :=
  dot_S1024x1600_S512x1600_S1024x512_1_1_0_0_n_n.lhsIdx_val_of_single rfl i q
theorem rhs_dot1_0 (i : S1024x512.Idx) (q : dot_S1024x1600_S512x1600_S1024x512_1_1_0_0_n_n.contr.Idx) :
    (dot_S1024x1600_S512x1600_S1024x512_1_1_0_0_n_n.rhsIdx i q 0).val = (i 1).val := by
  unfold DotDims.rhsIdx
  rw [dif_neg (show ¬(0 : Fin S512x1600.rank) ∈ dot_S1024x1600_S512x1600_S1024x512_1_1_0_0_n_n.rhsBatch by decide), dif_pos (show (0 : Fin S512x1600.rank) ∈ dot_S1024x1600_S512x1600_S1024x512_1_1_0_0_n_n.rhsNonContracting by decide)]
  rfl
theorem rhs_dot1_1 (i : S1024x512.Idx) (q : dot_S1024x1600_S512x1600_S1024x512_1_1_0_0_n_n.contr.Idx) :
    (dot_S1024x1600_S512x1600_S1024x512_1_1_0_0_n_n.rhsIdx i q 1).val = (q ⟨0, by decide⟩).val :=
  dot_S1024x1600_S512x1600_S1024x512_1_1_0_0_n_n.rhsIdx_val_of_single rfl i q

/-- The product of a 1024 × 1600 block with the transpose of a 512 × 1600 block, into a zero accumulator, read at
    row r and column k: the sum over the 1600 features of the products. -/
theorem matmul1_apply (y0 : FVec Ideal S1024x1600 .bf16) (y1 : FVec Ideal S512x1600 .bf16) (r : Fin 1024) (k : Fin 512) :
    matmul dot_S1024x1600_S512x1600_S1024x512_1_1_0_0_n_n none y0 y1 (constant (F := Ideal) S1024x512 .f32 0x00000000#32) (ix2 r k)
      = ∑ j : Fin 1600, y0 (ix2 r j) * y1 (ix2 k j) := by
  simp only [matmul]
  rw [Ideal.matmul_constant_zero_apply, ← Equiv.sum_comp (contrEquiv1 dot_S1024x1600_S512x1600_S1024x512_1_1_0_0_n_n 1600 rfl rfl).symm]
  refine Finset.sum_congr rfl fun j _ => ?_
  have hk := contrEquiv1_symm_val dot_S1024x1600_S512x1600_S1024x512_1_1_0_0_n_n 1600 rfl rfl j
  have el : dot_S1024x1600_S512x1600_S1024x512_1_1_0_0_n_n.lhsIdx (ix2 r k) ((contrEquiv1 dot_S1024x1600_S512x1600_S1024x512_1_1_0_0_n_n 1600 rfl rfl).symm j) = ix2 r j := funext fun a => Fin.ext (by
    match a with
    | ⟨0, _⟩ => exact lhs_dot1_0 _ _
    | ⟨1, _⟩ => exact (lhs_dot1_1 _ _).trans hk)
  have er : dot_S1024x1600_S512x1600_S1024x512_1_1_0_0_n_n.rhsIdx (ix2 r k) ((contrEquiv1 dot_S1024x1600_S512x1600_S1024x512_1_1_0_0_n_n 1600 rfl rfl).symm j) = ix2 k j := funext fun a => Fin.ext (by
    match a with
    | ⟨0, _⟩ => exact rhs_dot1_0 _ _
    | ⟨1, _⟩ => exact (rhs_dot1_1 _ _).trans hk)
  rw [el, er]

/-! ## The body's arithmetic in two halves -/

section Halves
variable {F : FTy → Type} [FloatOps F]

/-- The block of scores the body forms before its log-softmax: the printed operations up to the first subtraction. -/
def scoreBlk (v0 : Vec F S1024x1600 .f32) (v2 : Vec F S512x1600 .bf16) (v4 : Vec F S1x512 .f32) : FVec F S1024x512 .f32 :=
  have v1 : FVec F S1024x1600 .f32 := shapeCast S1024x1600 v0 shapeCasts_S1024x1600_S1024x1600
  have v3 : FVec F S512x1600 .bf16 := shapeCast S512x1600 v2 shapeCasts_S512x1600_S512x1600
  have v5 : FVec F S1x512 .f32 := shapeCast S1x512 v4 shapeCasts_S1x512_S1x512
  have v6 : FVec F S1024x1600 .bf16 := truncf .bf16 v1 bitsLt_bf16_f32
  have cst : FVec F S1024x512 .f32 := constant S1024x512 .f32 0x00000000#32
  have v7 : FVec F S1024x512 .f32 := matmul dot_S1024x1600_S512x1600_S1024x512_1_1_0_0_n_n none v6 v3 cst
  have cst_5 : F .f32 := Scalar.ofBits .f32 0x40000000#32
  have v8 : FVec F S1024x512 .f32 := broadcast S1024x512 cst_5
  have v9 : FVec F S1024x512 .f32 := mulf v8 v7
  have v10 : FVec F S1024x512 .f32 := broadcastTo S1024x512 v5 broadcasts_S1x512_S1024x512
  subf v9 v10

/-- A block less its row maxima: the printed operations from the lane maximum to the second subtraction. -/
def shiftBlk (v11 : FVec F S1024x512 .f32) : FVec F S1024x512 .f32 :=
  have v12 : FVec F S1024 .f32 := multiReduction .maximumf [1] S1024 v11 0xFF800000#32 reduces_S1024x512_S1024 (.inl rfl) rfl
  have v13 : FVec F S1024x1 .f32 := shapeCast S1024x1 v12 shapeCasts_S1024_S1024x1
  have v14 : FVec F S1024x512 .f32 := broadcastTo S1024x512 v13 broadcasts_S1024x1_S1024x512
  subf v11 v14

/-- A shifted block less the log of its rows' sums of exponentials: the printed operations from the exponential on. -/
def lseBlk (v15 : FVec F S1024x512 .f32) : FVec F S1024x512 .f32 :=
  have v16 : FVec F S1024x512 .f32 := exp v15
  have v17 : FVec F S1024 .f32 := multiReduction .add [1] S1024 v16 0x00000000#32 reduces_S1024x512_S1024 (.inl rfl) rfl
  have v18 : FVec F S1024x1 .f32 := shapeCast S1024x1 v17 shapeCasts_S1024_S1024x1
  have v19 : FVec F S1024x1 .f32 := log v18
  have v20 : FVec F S1024x512 .f32 := broadcastTo S1024x512 v19 broadcasts_S1024x1_S1024x512
  subf v15 v20

/-- The body's arithmetic is the three in turn. -/
theorem k1_pay1_eq (v0 : Vec F S1024x1600 .f32) (v2 : Vec F S512x1600 .bf16) (v4 : Vec F S1x512 .f32) :
    k1_pay1 v0 v2 v4 = lseBlk (shiftBlk (scoreBlk v0 v2 v4)) := rfl

end Halves

/-- The score block at row r, class k: twice the inner product of query row r with prototype k, less the squared norm
    of prototype k. -/
theorem scoreBlk_apply (v0 : Vec Ideal S1024x1600 .f32) (v2 : Vec Ideal S512x1600 .bf16) (v4 : Vec Ideal S1x512 .f32)
    (r : Fin 1024) (k : Fin 512) :
    scoreBlk v0 v2 v4 (ix2 r k)
      = Cert.Spec.two * (∑ j : Fin 1600, v0 (ix2 r j) * v2 (ix2 k j)) - v4 (ix2 (0 : Fin 1) k) := by
  unfold scoreBlk
  rw [subf_apply, mulf_apply, broadcast_apply, matmul1_apply, broadcastTo_1b_ab_apply]
  simp only [shapeCast_self, truncf_apply]
  rfl

/-- The lane maximum of a block at row r: the fold of the maximum from minus infinity over the row. -/
theorem rowMaxBlk_apply (v : FVec Ideal S1024x512 .f32) (r : Fin 1024) :
    multiReduction (F := Ideal) .maximumf [1] S1024 v 0xFF800000#32 reduces_S1024x512_S1024 (.inl rfl) rfl (ix1 r)
      = (Finset.univ : Finset (Fin 512)).fold max ⊥ (fun k => v (ix2 r k)) := by
  refine (Ideal.multiReduction_maximumf_single v 0xFF800000#32 reduces_S1024x512_S1024 (.inl rfl) rfl (ix1 r)).trans ?_
  have hb : (FloatOps.ofBits (F := Ideal) .f32 0xFF800000#32) = (⊥ : EReal) := by
    simp [Ideal.ofBits, Ideal.ieee]
  have hf : (v ∘ reduces_S1024x512_S1024.lift (ix1 r)) = fun k : Fin 512 => v (ix2 r k) :=
    funext fun k => congrArg v (lift_row r k)
  rw [hb, hf]
  rfl

/-- The lane sum of a block at row r. -/
theorem rowSumBlk_apply (v : FVec Ideal S1024x512 .f32) (r : Fin 1024) :
    multiReduction (F := Ideal) .add [1] S1024 v 0x00000000#32 reduces_S1024x512_S1024 (.inl rfl) rfl (ix1 r)
      = ∑ k : Fin 512, v (ix2 r k) := by
  refine (Ideal.multiReduction_add_single v 0x00000000#32 reduces_S1024x512_S1024 (.inl rfl) rfl (ix1 r)).trans ?_
  exact Finset.sum_congr rfl fun k _ => congrArg v (lift_row r k)

/-- A block less its row maxima, at row r, class k. -/
theorem shiftBlk_apply (v : FVec Ideal S1024x512 .f32) (r : Fin 1024) (k : Fin 512) :
    shiftBlk v (ix2 r k) = v (ix2 r k) - (Finset.univ : Finset (Fin 512)).fold max ⊥ (fun k' => v (ix2 r k')) := by
  unfold shiftBlk
  rw [subf_apply, broadcastTo_a1_ab_apply, shapeCast_a_a1_apply, rowMaxBlk_apply]

/-- A block less the log of its rows' sums of exponentials, at row r, class k. -/
theorem lseBlk_apply (v : FVec Ideal S1024x512 .f32) (r : Fin 1024) (k : Fin 512) :
    lseBlk v (ix2 r k) = v (ix2 r k) - Ideal.log (∑ k' : Fin 512, Ideal.exp (v (ix2 r k'))) := by
  unfold lseBlk
  rw [subf_apply, broadcastTo_a1_ab_apply]
  show _ - Ideal.log (shapeCast S1024x1 _ shapeCasts_S1024_S1024x1 (ix2 r (0 : Fin 1))) = _
  rw [shapeCast_a_a1_apply, rowSumBlk_apply]
  rfl

/-- THE BODY'S ARITHMETIC AT AN INDEX: the log-softmax, along row r, of the scores 2 q·p − n. -/
theorem k1_pay1_apply (x0 : Vec Ideal S1024x1600 .f32) (x1 : Vec Ideal S512x1600 .bf16) (x2 : Vec Ideal S1x512 .f32)
    (r : Fin 1024) (k : Fin 512) :
    k1_pay1 x0 x1 x2 (ix2 r k)
      = ((Cert.Spec.two * (∑ j : Fin 1600, x0 (ix2 r j) * x1 (ix2 k j)) - x2 (ix2 (0 : Fin 1) k))
          - (Finset.univ : Finset (Fin 512)).fold max ⊥
              (fun k' => Cert.Spec.two * (∑ j : Fin 1600, x0 (ix2 r j) * x1 (ix2 k' j)) - x2 (ix2 (0 : Fin 1) k')))
        - Ideal.log (∑ k'' : Fin 512, Ideal.exp
            ((Cert.Spec.two * (∑ j : Fin 1600, x0 (ix2 r j) * x1 (ix2 k'' j)) - x2 (ix2 (0 : Fin 1) k''))
              - (Finset.univ : Finset (Fin 512)).fold max ⊥
                  (fun k' => Cert.Spec.two * (∑ j : Fin 1600, x0 (ix2 r j) * x1 (ix2 k' j)) - x2 (ix2 (0 : Fin 1) k')))) := by
  rw [k1_pay1_eq, lseBlk_apply]
  simp only [shiftBlk_apply, scoreBlk_apply]

end Cert.KernelIdeal.Hand

end
-- ==== Proof.KIValue1.lean ====
/-
  What the second kernel call leaves in the result array, index by index, at the ideal values.

  The call's output window is written back at every one of its eight points; the block of point `t` is rows
  `1024 t … 1024 t + 1023`, so the eight blocks tile the 8192 result rows and the final array is, at row `i` and class `k`,
  what the point `i / 1024` stored at row `i % 1024`: the body's arithmetic on that point's block of query rows and on the
  whole prototype and squared-norm arrays.  Read at an index that arithmetic is the log-softmax, along the row, of
  `2 q·p − n2`: `Spec.lsm (Spec.score2 q P n2)`, with `q`, `P`, `n2` the query, prototype and squared-norm arrays as the
  call finds them.
-/
import proofs.«401966_j16947940950251_2_alg».proof.Proof.KIRegion1
import proofs.«401966_j16947940950251_2_alg».proof.Proof.Spec
import proofs.«401966_j16947940950251_2_alg».proof.Proof.KIValue1Pay
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem zeros2 : (![0, 0] : Fin 2 → Nat) = fun _ => 0 := funext fun a => by fin_cases a <;> rfl

/-- The whole result array as ONE function of the three arrays the call finds: at row i, class k, the log-softmax along
    row i of the scores 2 q·p − n2. -/
def G1 (c : Dev nD) : S8192x512.Idx → Elt Ideal .f32 := fun idx =>
  Cert.Spec.lsm (Cert.Spec.score2 (fun i j => V c main_v1 (ix2 i j)) (fun k j => V c main_v10_0 (ix2 k j))
    (fun k => V c main_v10_1 (ix2 0 k))) (idx 0) (idx 1)

/-- The printed index maps, decided over the grid: at point t the query and result windows are on block row t, the
    prototypes' and squared norms' windows on their one block. -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The query window's block at point t, row r, is row 1024 t + r of the query array. -/
theorem blk1_0_apply (c : Dev nD) (t : Fin cfg1.N) (r : Fin 1024) (j : Fin 1600) (R : Fin 8192)
    (hR : R.val = 1024 * t.val + r.val) :
    blk1 (F := Ideal) V c 0 t (ix2 r j) = V c main_v1 (ix2 R j) := by
  obtain ⟨-, -, e0, e1, -, -, -, -⟩ := idx_facts1 t
  unfold blk1
  rw [View.read_apply]
  show V c main_v1 _ = V c main_v1 _
  congr 1
  funext a
  apply Fin.ext
  match a with
  | ⟨0, _⟩ => show win1_0.index t (0 : Fin 2) * 1024 + 1 * r.val = R.val; rw [e0, hR]; omega
  | ⟨1, _⟩ => show win1_0.index t (1 : Fin 2) * 1600 + 1 * j.val = j.val; rw [e1]; omega

/-- The prototypes' window's block is the prototype array, at every point. -/
theorem blk1_1_apply (c : Dev nD) (t : Fin cfg1.N) (k : Fin 512) (j : Fin 1600) :
    blk1 (F := Ideal) V c 1 t (ix2 k j) = V c main_v10_0 (ix2 k j) := by
  obtain ⟨-, -, -, -, e0, e1, -, -⟩ := idx_facts1 t
  unfold blk1
  rw [View.read_apply]
  show V c main_v10_0 _ = V c main_v10_0 _
  congr 1
  funext a
  apply Fin.ext
  match a with
  | ⟨0, _⟩ => show win1_1.index t (0 : Fin 2) * 512 + 1 * k.val = k.val; rw [e0]; omega
  | ⟨1, _⟩ => show win1_1.index t (1 : Fin 2) * 1600 + 1 * j.val = j.val; rw [e1]; omega

/-- Likewise the squared norms' window's. -/
theorem blk1_2_apply (c : Dev nD) (t : Fin cfg1.N) (u : Fin 1) (k : Fin 512) :
    blk1 (F := Ideal) V c 2 t (ix2 u k) = V c main_v10_1 (ix2 u k) := by
  obtain ⟨-, -, -, -, -, -, e0, e1⟩ := idx_facts1 t
  unfold blk1
  rw [View.read_apply]
  show V c main_v10_1 _ = V c main_v10_1 _
  congr 1
  funext a
  apply Fin.ext
  match a with
  | ⟨0, _⟩ => show win1_2.index t (0 : Fin 2) * 1 + 1 * u.val = u.val; rw [e0]; omega
  | ⟨1, _⟩ => show win1_2.index t (1 : Fin 2) * 512 + 1 * k.val = k.val; rw [e1]; omega

/-- The result window's block at point t, row r, sits at row 1024 t + r of the result array. -/
theorem emb1_3 (t : Fin cfg1.N) (r : Fin 1024) (k : Fin 512) (R : Fin 8192) (hR : R.val = 1024 * t.val + r.val) :
    ((cfg1.win 3).blk t).view.emb (ix2 r k) = ix2 R k := by
  obtain ⟨e0, e1, -, -, -, -, -, -⟩ := idx_facts1 t
  funext a
  apply Fin.ext
  match a with
  | ⟨0, _⟩ => show win1_3.index t (0 : Fin 2) * 1024 + 1 * r.val = R.val; rw [e0, hR]; omega
  | ⟨1, _⟩ => show win1_3.index t (1 : Fin 2) * 512 + 1 * k.val = k.val; rw [e1]; omega

/-- WHAT POINT t WRITES BACK is block t of G1. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [dat1_after3]
  unfold left1
  rw [View.canon_unit_zero zeros2]
  simp only [View.ld_unit_zero (S := S1024x1600) zeros2, View.ld_unit_zero (S := S512x1600) zeros2,
    View.ld_unit_zero (S := S1x512) zeros2]
  refine funext fun (y : S1024x512.Idx) => ?_
  obtain ⟨r, k, rfl⟩ : ∃ (r : Fin 1024) (k : Fin 512), y = ix2 r k := ⟨y 0, y 1, eq_ix2 y⟩
  have ht : t.val < 8 := lt_of_lt_of_eq t.isLt N_1
  have hRlt : 1024 * t.val + r.val < 8192 := by have := r.isLt; omega
  show k1_pay1 (blk1 V c 0 t) (blk1 V c 1 t) (blk1 V c 2 t) (ix2 r k) = G1 V c (((cfg1.win 3).blk t).view.emb (ix2 r k))
  rw [k1_pay1_apply, emb1_3 t r k ⟨1024 * t.val + r.val, hRlt⟩ rfl]
  simp only [blk1_0_apply V c t r _ ⟨1024 * t.val + r.val, hRlt⟩ rfl, blk1_1_apply, blk1_2_apply]
  rfl

/-- The eight blocks tile the array: row i is in the block of point i / 1024. -/
theorem cover1 (c : Dev nD) (i : ((cfg1.win 3).arr.view.loc (c.tc : Thread nD τ)).2.ty.Idx) : ∃ t : Fin cfg1.N, (cfg1.win 3).flush t = true ∧ i ∈ ((cfg1.win 3).blk t).view.set := by
  have h0 : (i 0 : Nat) < 8192 := (i 0).isLt
  have h1 : (i 1 : Nat) < 512 := (i 1).isLt
  have hN : cfg1.N = 8 := N_1
  have hlt : (i 0 : Nat) / 1024 < cfg1.N := by rw [hN]; omega
  refine ⟨⟨(i 0 : Nat) / 1024, hlt⟩, flush1_3 _, ?_⟩
  obtain ⟨e0, e1, -, -, -, -, -, -⟩ := idx_facts1 ⟨(i 0 : Nat) / 1024, hlt⟩
  show i ∈ ((View.whole main_v11).slice (win1_3.rect ⟨(i 0 : Nat) / 1024, hlt⟩)).set
  rw [View.set_slice_whole, Rect.mem_set_unit]
  intro a
  match a with
  | ⟨0, _⟩ =>
    show win1_3.index ⟨(i 0 : Nat) / 1024, hlt⟩ (0 : Fin 2) * 1024 ≤ (i 0 : Nat) ∧ (i 0 : Nat) < win1_3.index ⟨(i 0 : Nat) / 1024, hlt⟩ (0 : Fin 2) * 1024 + 1024
    rw [e0]; show (i 0 : Nat) / 1024 * 1024 ≤ (i 0 : Nat) ∧ (i 0 : Nat) < (i 0 : Nat) / 1024 * 1024 + 1024; omega
  | ⟨1, _⟩ =>
    show win1_3.index ⟨(i 0 : Nat) / 1024, hlt⟩ (1 : Fin 2) * 512 ≤ (i 1 : Nat) ∧ (i 1 : Nat) < win1_3.index ⟨(i 0 : Nat) / 1024, hlt⟩ (1 : Fin 2) * 512 + 512
    rw [e1]; omega

/-- The second call's final result array at row `i`, class `k`. -/
theorem final1 (V : (c : Dev nD) → (b : Ref sig .tc) → Buf (Elt Ideal) ((c : Thread nD τ).loc b)) (c : Dev nD) (i : Fin 8192) (k : Fin 512) :
    (dat1 (F := Ideal) V c).arrAt 3 cfg1.N (ix2 i k)
      = Cert.Spec.lsm (Cert.Spec.score2 (fun i j => V c main_v1 (ix2 i j)) (fun k j => V c main_v10_0 (ix2 k j)) (fun k => V c main_v10_1 (ix2 0 k))) i k := by
  have h := (dat1 (F := Ideal) V c).arrAt_eq_of_cover 3 (G1 V c) (fun t _ => flushed1_eq V c t) (cover1 c)
  rw [h]
  rfl

end Cert.KernelIdeal.Hand

end
-- ==== Proof.KIValue.lean ====
/-
  The idealized kernel program's result as one function of its three arguments, and its run stated at that function.

  The run ends with the result buffer at the second call's final array.  Row `i`, class `k` of that array is the
  log-softmax along the row of `2 q·p − n2` over the query rows, the prototypes and the squared norms the second call
  finds; what it finds are the query rows the host stretch laid out, and the first call's two final arrays: the class
  sums of the support rows scaled by one over the class counts, and each scaled row's sum of squares.  Put together this
  is `Spec.outK` of the support and query arrays laid out as rows of 1600 features and of the labels.
-/
import proofs.«401966_j16947940950251_2_alg».proof.Proof.KIRun
import proofs.«401966_j16947940950251_2_alg».proof.Proof.KIHost
import proofs.«401966_j16947940950251_2_alg».proof.Proof.KIValue0
import proofs.«401966_j16947940950251_2_alg».proof.Proof.KIValue1
import proofs.«401966_j16947940950251_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The kernel program's result array from its three argument arrays. -/
def result (a0 : FVec Ideal S2560x64x5x5 .f32) (a1 : FVec Ideal S8192x64x5x5 .f32) (a2 : IVec S2560 32) : FVec Ideal S8192x512 .f32 :=
  fun y => Cert.Spec.outK
    (fun n j => shapeCast S2560x1600 a0 Gen.shapeCasts_S2560x64x5x5_S2560x1600 (ix2 n j))
    (fun i j => shapeCast S8192x1600 a1 Gen.shapeCasts_S8192x64x5x5_S8192x1600 (ix2 i j))
    (fun n => a2 (ix1 n)) (y 0) (y 1)

variable (m : (ℓ : Loc nD τ sig) → Buf (Elt Ideal) ℓ)

/-- The query rows the second call finds are the ones the host stretch laid out: the first call does not stage that array. -/
theorem found_query (c : Dev nD) :
    (fun (i : Fin 8192) (j : Fin 1600) => E2 (F := Ideal) m c main_v1 (ix2 i j))
      = fun i j => shapeCast S8192x1600 (m ((c.tc : Thread nD τ).loc main_arg1)) Gen.shapeCasts_S8192x64x5x5_S8192x1600 (ix2 i j) := by
  funext i j
  rw [show E2 (F := Ideal) m c main_v1 = E1 m c main_v1 from exit0_rest m c main_v1 (by decide)]
  exact host_query m c i j

/-- The first call's three input arrays, as whole functions, are what the host stretch laid out. -/
theorem entry_support (c : Dev nD) :
    (fun (n : Fin 2560) (j : Fin 1600) => E1 (F := Ideal) m c main_v0 (ix2 n j))
      = fun n j => shapeCast S2560x1600 (m ((c.tc : Thread nD τ).loc main_arg0)) Gen.shapeCasts_S2560x64x5x5_S2560x1600 (ix2 n j) :=
  funext fun n => funext fun j => host_support m c n j
theorem entry_label (c : Dev nD) :
    (fun (n : Fin 2560) => E1 (F := Ideal) m c main_v2 (ix2 n 0)) = fun n => m ((c.tc : Thread nD τ).loc main_arg2) (ix1 n) :=
  funext fun n => host_label m c n
theorem entry_recip (c : Dev nD) :
    (fun (k : Fin 512) => E1 (F := Ideal) m c main_v9 (ix2 k 0))
      = fun k => Ideal.div 1 (Cert.Spec.cnt (fun n => m ((c.tc : Thread nD τ).loc main_arg2) (ix1 n)) k) :=
  funext fun k => host_recip m c k

/-- The prototypes the second call finds are the first call's final prototype array: the kernel's arrangement of the
    class means. -/
theorem found_proto (c : Dev nD) :
    (fun (k : Fin 512) (j : Fin 1600) => E2 (F := Ideal) m c main_v10_0 (ix2 k j))
      = Cert.Spec.protoK
          (fun n j => shapeCast S2560x1600 (m ((c.tc : Thread nD τ).loc main_arg0)) Gen.shapeCasts_S2560x64x5x5_S2560x1600 (ix2 n j))
          (fun n => m ((c.tc : Thread nD τ).loc main_arg2) (ix1 n)) := by
  funext k j
  rw [show E2 (F := Ideal) m c main_v10_0 = (dat0 (E1 m) c).arrAt 3 cfg0.N from (exit0_arr m c 3).symm, final0_proto]
  unfold Cert.Spec.protoK
  rw [entry_support, entry_label, entry_recip]

/-- The squared norms the second call finds are the first call's final squared-norm array. -/
theorem found_norm (c : Dev nD) :
    (fun (k : Fin 512) => E2 (F := Ideal) m c main_v10_1 (ix2 0 k))
      = Cert.Spec.sq (Cert.Spec.protoK
          (fun n j => shapeCast S2560x1600 (m ((c.tc : Thread nD τ).loc main_arg0)) Gen.shapeCasts_S2560x64x5x5_S2560x1600 (ix2 n j))
          (fun n => m ((c.tc : Thread nD τ).loc main_arg2) (ix1 n))) := by
  funext k
  rw [show E2 (F := Ideal) m c main_v10_1 = (dat0 (E1 m) c).arrAt 4 cfg0.N from (exit0_arr m c 4).symm, final0_norm]
  unfold Cert.Spec.protoK
  rw [entry_support, entry_label, entry_recip]

/-- The second call's final array is `result` of the arguments. -/
theorem final_eq (c : Dev nD) :
    (dat1 (F := Ideal) (E2 m) c).arrAt 3 cfg1.N
      = result (m ((c.tc : Thread nD τ).loc main_arg0)) (m ((c.tc : Thread nD τ).loc main_arg1)) (m ((c.tc : Thread nD τ).loc main_arg2)) := by
  funext y
  obtain ⟨i, k, rfl⟩ : ∃ (i : Fin 8192) (k : Fin 512), y = ix2 i k := ⟨y 0, y 1, eq_ix2 y⟩
  rw [final1, found_query, found_proto, found_norm]
  rfl

/-- At the ideal values, from any memory with zero counters: every weakly fair execution of the kernel program's @main
    terminates with the result buffer at `result` of the arguments' launch contents and the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v11)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (final_eq m c), (h c).2⟩) (run_result m ρ)

end Cert.KernelIdeal.Hand

end
-- ==== Proof.RefStages.lean ====
/-
  The reference program's 48 host operations read in three stages. The list is cut into three consecutive chunks; each
  chunk is read, from any contents on entry, at the one or two buffers a later chunk reads: the prototypes and the
  reshaped query rows after the first, the scores after the second, the log-softmax of the scores after the third.
  Composed, they give the result buffer after all 48 operations as one function of the three arguments; no operation
  writes an argument, so those keep their contents.
-/
import proofs.«401966_j16947940950251_2_alg».proof.Proof.RefRun
import Idealize.ShloMosaic.Lib.StableHlo.Run

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The first fifteen operations: the class sums, the class counts and the prototypes. -/
abbrev chunk1 : List (HloOp τ sig (Elt F)) :=
  [ reshape main_arg0 main_v0 rfl shapeCasts_S2560x64x5x5_S2560x1600,
    reshape main_arg1 main_v1 rfl shapeCasts_S8192x64x5x5_S8192x1600,
    nullary main_cst (constant S_ .f32 0x00000000#32),
    unary main_cst main_v2 (broadcastInDim S512x1600 ![] bcast_S_S512x1600 : (⟨S_, .f32⟩ : BufTy).Contents (Elt F) → (⟨S512x1600, .f32⟩ : BufTy).Contents (Elt F)),
    unary main_arg2 main_v3 (broadcastInDim S2560x1 ![0] bcast_S2560_S2560x1_0 : (⟨S2560, .i32⟩ : BufTy).Contents (Elt F) → (⟨S2560x1, .i32⟩ : BufTy).Contents (Elt F)),
    ternary main_v2 main_v3 main_v0 main_v4 ((fun x i u => Host.scatterAdd scatter_S512x1600_S2560x1_S2560x1600_1_0_0_1 x i u) : (⟨S512x1600, .f32⟩ : BufTy).Contents (Elt F) → (⟨S2560x1, .i32⟩ : BufTy).Contents (Elt F) → (⟨S2560x1600, .f32⟩ : BufTy).Contents (Elt F) → (⟨S512x1600, .f32⟩ : BufTy).Contents (Elt F)),
    nullary main_cst_0 (constant S_ .f32 0x3F800000#32),
    unary main_cst_0 main_v5 (broadcastInDim S2560 ![] bcast_S_S2560 : (⟨S_, .f32⟩ : BufTy).Contents (Elt F) → (⟨S2560, .f32⟩ : BufTy).Contents (Elt F)),
    nullary main_cst_1 (constant S_ .f32 0x00000000#32),
    unary main_cst_1 main_v6 (broadcastInDim S512 ![] bcast_S_S512 : (⟨S_, .f32⟩ : BufTy).Contents (Elt F) → (⟨S512, .f32⟩ : BufTy).Contents (Elt F)),
    unary main_arg2 main_v7 (broadcastInDim S2560x1 ![0] bcast_S2560_S2560x1_0 : (⟨S2560, .i32⟩ : BufTy).Contents (Elt F) → (⟨S2560x1, .i32⟩ : BufTy).Contents (Elt F)),
    ternary main_v6 main_v7 main_v5 main_v8 ((fun x i u => Host.scatterAdd scatter_S512_S2560x1_S2560_n_0_0_1 x i u) : (⟨S512, .f32⟩ : BufTy).Contents (Elt F) → (⟨S2560x1, .i32⟩ : BufTy).Contents (Elt F) → (⟨S2560, .f32⟩ : BufTy).Contents (Elt F) → (⟨S512, .f32⟩ : BufTy).Contents (Elt F)),
    unary main_v8 main_v9 (broadcastInDim S512x1 ![0] bcast_S512_S512x1_0 : (⟨S512, .f32⟩ : BufTy).Contents (Elt F) → (⟨S512x1, .f32⟩ : BufTy).Contents (Elt F)),
    unary main_v9 main_v10 (broadcastInDim S512x1600 ![0, 1] bcast_S512x1_S512x1600_0_1 : (⟨S512x1, .f32⟩ : BufTy).Contents (Elt F) → (⟨S512x1600, .f32⟩ : BufTy).Contents (Elt F)),
    binary main_v4 main_v10 main_v11 (Host.divf : (⟨S512x1600, .f32⟩ : BufTy).Contents (Elt F) → (⟨S512x1600, .f32⟩ : BufTy).Contents (Elt F) → (⟨S512x1600, .f32⟩ : BufTy).Contents (Elt F)) ]

/-- The next eighteen: the squared norms, the inner products and the scores. -/
abbrev chunk2 : List (HloOp τ sig (Elt F)) :=
  [ binary main_v1 main_v1 main_v12 (mulf : (⟨S8192x1600, .f32⟩ : BufTy).Contents (Elt F) → (⟨S8192x1600, .f32⟩ : BufTy).Contents (Elt F) → (⟨S8192x1600, .f32⟩ : BufTy).Contents (Elt F)),
    nullary main_cst_2 (constant S_ .f32 0x00000000#32),
    binary main_v12 main_cst_2 main_v13 ((fun x v => Host.reduceAdd x v reducesTo_S8192x1600_S8192_d1 h_S_) : (⟨S8192x1600, .f32⟩ : BufTy).Contents (Elt F) → (⟨S_, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    binary main_v11 main_v11 main_v15 (mulf : (⟨S512x1600, .f32⟩ : BufTy).Contents (Elt F) → (⟨S512x1600, .f32⟩ : BufTy).Contents (Elt F) → (⟨S512x1600, .f32⟩ : BufTy).Contents (Elt F)),
    nullary main_cst_3 (constant S_ .f32 0x00000000#32),
    binary main_v15 main_cst_3 main_v16 ((fun x v => Host.reduceAdd x v reducesTo_S512x1600_S512_d1 h_S_) : (⟨S512x1600, .f32⟩ : BufTy).Contents (Elt F) → (⟨S_, .f32⟩ : BufTy).Contents (Elt F) → (⟨S512, .f32⟩ : BufTy).Contents (Elt F)),
    unary main_v16 main_v17 (broadcastInDim S1x512 ![1] bcast_S512_S1x512_1 : (⟨S512, .f32⟩ : BufTy).Contents (Elt F) → (⟨S1x512, .f32⟩ : BufTy).Contents (Elt F)),
    unary main_v14 main_v18 (broadcastInDim S8192x512 ![0, 1] bcast_S8192x1_S8192x512_0_1 : (⟨S8192x1, .f32⟩ : BufTy).Contents (Elt F) → (⟨S8192x512, .f32⟩ : BufTy).Contents (Elt F)),
    unary main_v17 main_v19 (broadcastInDim S8192x512 ![0, 1] bcast_S1x512_S8192x512_0_1 : (⟨S1x512, .f32⟩ : BufTy).Contents (Elt F) → (⟨S8192x512, .f32⟩ : BufTy).Contents (Elt F)),
    binary main_v18 main_v19 main_v20 (addf : (⟨S8192x512, .f32⟩ : BufTy).Contents (Elt F) → (⟨S8192x512, .f32⟩ : BufTy).Contents (Elt F) → (⟨S8192x512, .f32⟩ : BufTy).Contents (Elt F)),
    unary main_v11 main_v21 ((transpose S1600x512 [1, 0] · transposes_S512x1600_S1600x512_1_0) : (⟨S512x1600, .f32⟩ : BufTy).Contents (Elt F) → (⟨S1600x512, .f32⟩ : BufTy).Contents (Elt F)),
    binary main_v1 main_v21 main_v22 ((fun l r => Host.dotGeneral dot_S8192x1600_S1600x512_S8192x512_1_0_0_1_n_n none l r) : (⟨S8192x1600, .f32⟩ : BufTy).Contents (Elt F) → (⟨S1600x512, .f32⟩ : BufTy).Contents (Elt F) → (⟨S8192x512, .f32⟩ : BufTy).Contents (Elt F)),
    nullary main_cst_4 (constant S_ .f32 0x40000000#32),
    unary main_cst_4 main_v23 (broadcastInDim S8192x512 ![] bcast_S_S8192x512 : (⟨S_, .f32⟩ : BufTy).Contents (Elt F) → (⟨S8192x512, .f32⟩ : BufTy).Contents (Elt F)),
    binary main_v23 main_v22 main_v24 (mulf : (⟨S8192x512, .f32⟩ : BufTy).Contents (Elt F) → (⟨S8192x512, .f32⟩ : BufTy).Contents (Elt F) → (⟨S8192x512, .f32⟩ : BufTy).Contents (Elt F)),
    binary main_v20 main_v24 main_v25 (subf : (⟨S8192x512, .f32⟩ : BufTy).Contents (Elt F) → (⟨S8192x512, .f32⟩ : BufTy).Contents (Elt F) → (⟨S8192x512, .f32⟩ : BufTy).Contents (Elt F)),
    unary main_v25 main_v26 (Host.negf : (⟨S8192x512, .f32⟩ : BufTy).Contents (Elt F) → (⟨S8192x512, .f32⟩ : BufTy).Contents (Elt F)) ]

/-- The last fifteen: the log-softmax of the scores, row by row. -/
abbrev chunk3 : List (HloOp τ sig (Elt F)) :=
  [ TRef.nullary (TRef.of (T := ⟨S_, .f32⟩) main_call0_cst) (constant S_ .f32 0xFF800000#32),
    TRef.binary (TRef.of (T := ⟨S8192x512, .f32⟩) main_v26) (TRef.of (T := ⟨S_, .f32⟩) main_call0_cst) (TRef.of (T := ⟨S8192, .f32⟩) main_call0_v0) (fun x v => Host.reduce FloatOps.maximumf x v reducesTo_S8192x512_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x512, .f32⟩) main_call0_v4) (broadcastInDim S8192x512 ![0, 1] bcast_S8192x1_S8192x512_0_1),
    TRef.binary (TRef.of (T := ⟨S8192x512, .f32⟩) main_v26) (TRef.of (T := ⟨S8192x512, .f32⟩) main_call0_v4) (TRef.of (T := ⟨S8192x512, .f32⟩) main_call0_v5) subf,
    TRef.unary (TRef.of (T := ⟨S8192x512, .f32⟩) main_call0_v5) (TRef.of (T := ⟨S8192x512, .f32⟩) main_call0_v6) Host.exp,
    TRef.nullary (TRef.of (T := ⟨S_, .f32⟩) main_call0_cst_1) (constant S_ .f32 0x00000000#32),
    TRef.binary (TRef.of (T := ⟨S8192x512, .f32⟩) main_call0_v6) (TRef.of (T := ⟨S_, .f32⟩) main_call0_cst_1) (TRef.of (T := ⟨S8192, .f32⟩) main_call0_v7) (fun x v => Host.reduceAdd x v reducesTo_S8192x512_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x512, .f32⟩) main_call0_v10) (broadcastInDim S8192x512 ![0, 1] bcast_S8192x1_S8192x512_0_1),
    TRef.binary (TRef.of (T := ⟨S8192x512, .f32⟩) main_call0_v5) (TRef.of (T := ⟨S8192x512, .f32⟩) main_call0_v10) (TRef.of (T := ⟨S8192x512, .f32⟩) main_v27) subf ]

theorem ops_split : (ops : List (HloOp τ sig (Elt F))) = chunk1 ++ (chunk2 ++ chunk3) := rfl
/-- Two lists are equal when their heads and their tails are. -/
theorem cons_eq {α : Type} {a a' : α} {l l' : List α} (h : a = a') (hl : l = l') : a :: l = a' :: l' := by rw [h, hl]

/-! Each of the last fifteen operations, written over typed references, is the operation over its plain references: a typed
    reference at a literal buffer carries that buffer, and moving contents along its type equation is the identity. -/
theorem op3_0 : (TRef.nullary (TRef.of (T := ⟨S_, .f32⟩) main_call0_cst) (constant S_ .f32 0xFF800000#32) : HloOp τ sig (Elt F))
    = nullary main_call0_cst ((constant S_ .f32 0xFF800000#32) : (⟨S_, .f32⟩ : BufTy).Contents (Elt F)) := rfl
theorem op3_1 : (TRef.binary (TRef.of (T := ⟨S8192x512, .f32⟩) main_v26) (TRef.of (T := ⟨S_, .f32⟩) main_call0_cst) (TRef.of (T := ⟨S8192, .f32⟩) main_call0_v0) (fun x v => Host.reduce FloatOps.maximumf x v reducesTo_S8192x512_S8192_d1 h_S_) : HloOp τ sig (Elt F))
    = binary main_v26 main_call0_cst main_call0_v0 ((fun x v => Host.reduce FloatOps.maximumf x v reducesTo_S8192x512_S8192_d1 h_S_) : (⟨S8192x512, .f32⟩ : BufTy).Contents (Elt F) → (⟨S_, .f32⟩ : BufTy).Contents (Elt F) → (⟨S8192, .f32⟩ : BufTy).Contents (Elt F)) := by
  generalize (fun (x : (⟨S8192x512, .f32⟩ : BufTy).Contents (Elt F)) (v : (⟨S_, .f32⟩ : BufTy).Contents (Elt F)) => Host.reduce FloatOps.maximumf x v reducesTo_S8192x512_S8192_d1 h_S_) = f
  rfl
theorem op3_2 : (TRef.nullary (TRef.of (T := ⟨S_, .f32⟩) main_call0_cst_0) (constant S_ .f32 0xFF800000#32) : HloOp τ sig (Elt F))
    = nullary main_call0_cst_0 ((constant S_ .f32 0xFF800000#32) : (⟨S_, .f32⟩ : BufTy).Contents (Elt F)) := rfl
theorem op3_3 : (TRef.unary (TRef.of (T := ⟨S_, .f32⟩) main_call0_cst_0) (TRef.of (T := ⟨S8192, .f32⟩) main_call0_v1) (broadcastInDim S8192 ![] bcast_S_S8192) : HloOp τ sig (Elt F))
    = unary main_call0_cst_0 main_call0_v1 ((broadcastInDim S8192 ![] bcast_S_S8192) : (⟨S_, .f32⟩ : BufTy).Contents (Elt F) → (⟨S8192, .f32⟩ : BufTy).Contents (Elt F)) := rfl
theorem op3_4 : (TRef.binary (TRef.of (T := ⟨S8192, .f32⟩) main_call0_v1) (TRef.of (T := ⟨S8192, .f32⟩) main_call0_v0) (TRef.of (T := ⟨S8192, .f32⟩) main_call0_v2) maximumf : HloOp τ sig (Elt F))
    = binary main_call0_v1 main_call0_v0 main_call0_v2 (maximumf : (⟨S8192, .f32⟩ : BufTy).Contents (Elt F) → (⟨S8192, .f32⟩ : BufTy).Contents (Elt F) → (⟨S8192, .f32⟩ : BufTy).Contents (Elt F)) := rfl
theorem op3_5 : (TRef.unary (TRef.of (T := ⟨S8192, .f32⟩) main_call0_v2) (TRef.of (T := ⟨S8192x1, .f32⟩) main_call0_v3) (broadcastInDim S8192x1 ![0] bcast_S8192_S8192x1_0) : HloOp τ sig (Elt F))
    = unary main_call0_v2 main_call0_v3 ((broadcastInDim S8192x1 ![0] bcast_S8192_S8192x1_0) : (⟨S8192, .f32⟩ : BufTy).Contents (Elt F) → (⟨S8192x1, .f32⟩ : BufTy).Contents (Elt F)) := rfl
theorem op3_6 : (TRef.unary (TRef.of (T := ⟨S8192x1, .f32⟩) main_call0_v3) (TRef.of (T := ⟨S8192x512, .f32⟩) main_call0_v4) (broadcastInDim S8192x512 ![0, 1] bcast_S8192x1_S8192x512_0_1) : HloOp τ sig (Elt F))
    = unary main_call0_v3 main_call0_v4 ((broadcastInDim S8192x512 ![0, 1] bcast_S8192x1_S8192x512_0_1) : (⟨S8192x1, .f32⟩ : BufTy).Contents (Elt F) → (⟨S8192x512, .f32⟩ : BufTy).Contents (Elt F)) := rfl
theorem op3_7 : (TRef.binary (TRef.of (T := ⟨S8192x512, .f32⟩) main_v26) (TRef.of (T := ⟨S8192x512, .f32⟩) main_call0_v4) (TRef.of (T := ⟨S8192x512, .f32⟩) main_call0_v5) subf : HloOp τ sig (Elt F))
    = binary main_v26 main_call0_v4 main_call0_v5 (subf : (⟨S8192x512, .f32⟩ : BufTy).Contents (Elt F) → (⟨S8192x512, .f32⟩ : BufTy).Contents (Elt F) → (⟨S8192x512, .f32⟩ : BufTy).Contents (Elt F)) := rfl
theorem op3_8 : (TRef.unary (TRef.of (T := ⟨S8192x512, .f32⟩) main_call0_v5) (TRef.of (T := ⟨S8192x512, .f32⟩) main_call0_v6) Host.exp : HloOp τ sig (Elt F))
    = unary main_call0_v5 main_call0_v6 (Host.exp : (⟨S8192x512, .f32⟩ : BufTy).Contents (Elt F) → (⟨S8192x512, .f32⟩ : BufTy).Contents (Elt F)) := rfl
theorem op3_9 : (TRef.nullary (TRef.of (T := ⟨S_, .f32⟩) main_call0_cst_1) (constant S_ .f32 0x00000000#32) : HloOp τ sig (Elt F))
    = nullary main_call0_cst_1 ((constant S_ .f32 0x00000000#32) : (⟨S_, .f32⟩ : BufTy).Contents (Elt F)) := rfl
theorem op3_10 : (TRef.binary (TRef.of (T := ⟨S8192x512, .f32⟩) main_call0_v6) (TRef.of (T := ⟨S_, .f32⟩) main_call0_cst_1) (TRef.of (T := ⟨S8192, .f32⟩) main_call0_v7) (fun x v => Host.reduceAdd x v reducesTo_S8192x512_S8192_d1 h_S_) : HloOp τ sig (Elt F))
    = binary main_call0_v6 main_call0_cst_1 main_call0_v7 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)) := rfl
theorem op3_11 : (TRef.unary (TRef.of (T := ⟨S8192, .f32⟩) main_call0_v7) (TRef.of (T := ⟨S8192x1, .f32⟩) main_call0_v8) (broadcastInDim S8192x1 ![0] bcast_S8192_S8192x1_0) : HloOp τ sig (Elt F))
    = unary main_call0_v7 main_call0_v8 ((broadcastInDim S8192x1 ![0] bcast_S8192_S8192x1_0) : (⟨S8192, .f32⟩ : BufTy).Contents (Elt F) → (⟨S8192x1, .f32⟩ : BufTy).Contents (Elt F)) := rfl
theorem op3_12 : (TRef.unary (TRef.of (T := ⟨S8192x1, .f32⟩) main_call0_v8) (TRef.of (T := ⟨S8192x1, .f32⟩) main_call0_v9) Host.log : HloOp τ sig (Elt F))
    = unary main_call0_v8 main_call0_v9 (Host.log : (⟨S8192x1, .f32⟩ : BufTy).Contents (Elt F) → (⟨S8192x1, .f32⟩ : BufTy).Contents (Elt F)) := rfl
theorem op3_13 : (TRef.unary (TRef.of (T := ⟨S8192x1, .f32⟩) main_call0_v9) (TRef.of (T := ⟨S8192x512, .f32⟩) main_call0_v10) (broadcastInDim S8192x512 ![0, 1] bcast_S8192x1_S8192x512_0_1) : HloOp τ sig (Elt F))
    = unary main_call0_v9 main_call0_v10 ((broadcastInDim S8192x512 ![0, 1] bcast_S8192x1_S8192x512_0_1) : (⟨S8192x1, .f32⟩ : BufTy).Contents (Elt F) → (⟨S8192x512, .f32⟩ : BufTy).Contents (Elt F)) := rfl
theorem op3_14 : (TRef.binary (TRef.of (T := ⟨S8192x512, .f32⟩) main_call0_v5) (TRef.of (T := ⟨S8192x512, .f32⟩) main_call0_v10) (TRef.of (T := ⟨S8192x512, .f32⟩) main_v27) subf : HloOp τ sig (Elt F))
    = binary main_call0_v5 main_call0_v10 main_v27 (subf : (⟨S8192x512, .f32⟩ : BufTy).Contents (Elt F) → (⟨S8192x512, .f32⟩ : BufTy).Contents (Elt F) → (⟨S8192x512, .f32⟩ : BufTy).Contents (Elt F)) := rfl

/-- The last fifteen operations, each over its plain references. -/
abbrev chunk3' : List (HloOp τ sig (Elt F)) :=
  [ nullary main_call0_cst ((constant S_ .f32 0xFF800000#32) : (⟨S_, .f32⟩ : BufTy).Contents (Elt F)),
    binary main_v26 main_call0_cst main_call0_v0 ((fun x v => Host.reduce FloatOps.maximumf x v reducesTo_S8192x512_S8192_d1 h_S_) : (⟨S8192x512, .f32⟩ : BufTy).Contents (Elt F) → (⟨S_, .f32⟩ : BufTy).Contents (Elt F) → (⟨S8192, .f32⟩ : BufTy).Contents (Elt F)),
    nullary main_call0_cst_0 ((constant S_ .f32 0xFF800000#32) : (⟨S_, .f32⟩ : BufTy).Contents (Elt F)),
    unary main_call0_cst_0 main_call0_v1 ((broadcastInDim S8192 ![] bcast_S_S8192) : (⟨S_, .f32⟩ : BufTy).Contents (Elt F) → (⟨S8192, .f32⟩ : BufTy).Contents (Elt F)),
    binary main_call0_v1 main_call0_v0 main_call0_v2 (maximumf : (⟨S8192, .f32⟩ : BufTy).Contents (Elt F) → (⟨S8192, .f32⟩ : BufTy).Contents (Elt F) → (⟨S8192, .f32⟩ : BufTy).Contents (Elt F)),
    unary main_call0_v2 main_call0_v3 ((broadcastInDim S8192x1 ![0] bcast_S8192_S8192x1_0) : (⟨S8192, .f32⟩ : BufTy).Contents (Elt F) → (⟨S8192x1, .f32⟩ : BufTy).Contents (Elt F)),
    unary main_call0_v3 main_call0_v4 ((broadcastInDim S8192x512 ![0, 1] bcast_S8192x1_S8192x512_0_1) : (⟨S8192x1, .f32⟩ : BufTy).Contents (Elt F) → (⟨S8192x512, .f32⟩ : BufTy).Contents (Elt F)),
    binary main_v26 main_call0_v4 main_call0_v5 (subf : (⟨S8192x512, .f32⟩ : BufTy).Contents (Elt F) → (⟨S8192x512, .f32⟩ : BufTy).Contents (Elt F) → (⟨S8192x512, .f32⟩ : BufTy).Contents (Elt F)),
    unary main_call0_v5 main_call0_v6 (Host.exp : (⟨S8192x512, .f32⟩ : BufTy).Contents (Elt F) → (⟨S8192x512, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_call0_v7 main_call0_v8 ((broadcastInDim S8192x1 ![0] bcast_S8192_S8192x1_0) : (⟨S8192, .f32⟩ : BufTy).Contents (Elt F) → (⟨S8192x1, .f32⟩ : BufTy).Contents (Elt F)),
    unary main_call0_v8 main_call0_v9 (Host.log : (⟨S8192x1, .f32⟩ : BufTy).Contents (Elt F) → (⟨S8192x1, .f32⟩ : BufTy).Contents (Elt F)),
    unary main_call0_v9 main_call0_v10 ((broadcastInDim S8192x512 ![0, 1] bcast_S8192x1_S8192x512_0_1) : (⟨S8192x1, .f32⟩ : BufTy).Contents (Elt F) → (⟨S8192x512, .f32⟩ : BufTy).Contents (Elt F)),
    binary main_call0_v5 main_call0_v10 main_v27 (subf : (⟨S8192x512, .f32⟩ : BufTy).Contents (Elt F) → (⟨S8192x512, .f32⟩ : BufTy).Contents (Elt F) → (⟨S8192x512, .f32⟩ : BufTy).Contents (Elt F)) ]

theorem chunk3_eq : (chunk3 : List (HloOp τ sig (Elt F))) = chunk3' :=
  cons_eq op3_0 (cons_eq op3_1 (cons_eq op3_2 (cons_eq op3_3 (cons_eq op3_4 (cons_eq op3_5 (cons_eq op3_6 (cons_eq op3_7 (cons_eq op3_8 (cons_eq op3_9 (cons_eq op3_10 (cons_eq op3_11 (cons_eq op3_12 (cons_eq op3_13 (cons_eq op3_14 (rfl)))))))))))))))

/-! ## What each stage computes, as one function of what it reads -/

/-- The class sums: the support rows scattered by their labels into zeros. -/
def sumsV (s : FVec F S2560x1600 .f32) (l : IVec S2560 32) : FVec F S512x1600 .f32 :=
  Host.scatterAdd scatter_S512x1600_S2560x1_S2560x1600_1_0_0_1
    (broadcastInDim S512x1600 ![] bcast_S_S512x1600 (constant S_ .f32 0x00000000#32))
    (broadcastInDim S2560x1 ![0] bcast_S2560_S2560x1_0 l) s

/-- The class counts: ones scattered by the labels into zeros. -/
def cntV (l : IVec S2560 32) : FVec F S512 .f32 :=
  Host.scatterAdd scatter_S512_S2560x1_S2560_n_0_0_1
    (broadcastInDim S512 ![] bcast_S_S512 (constant S_ .f32 0x00000000#32))
    (broadcastInDim S2560x1 ![0] bcast_S2560_S2560x1_0 l)
    (broadcastInDim S2560 ![] bcast_S_S2560 (constant S_ .f32 0x3F800000#32))

/-- The prototypes: each class sum divided by its class's count. -/
def protoV (s : FVec F S2560x1600 .f32) (l : IVec S2560 32) : FVec F S512x1600 .f32 :=
  Host.divf (sumsV s l)
    (broadcastInDim S512x1600 ![0, 1] bcast_S512x1_S512x1600_0_1 (broadcastInDim S512x1 ![0] bcast_S512_S512x1_0 (cntV l)))

/-- The scores: minus the sum of the two squared norms less twice the inner product. -/
def scoreV (q : FVec F S8192x1600 .f32) (P : FVec F S512x1600 .f32) : FVec F S8192x512 .f32 :=
  Host.negf (subf
    (addf
      (broadcastInDim S8192x512 ![0, 1] bcast_S8192x1_S8192x512_0_1 (broadcastInDim S8192x1 ![0] bcast_S8192_S8192x1_0
        (Host.reduceAdd (mulf q q) (constant S_ .f32 0x00000000#32) reducesTo_S8192x1600_S8192_d1 h_S_)))
      (broadcastInDim S8192x512 ![0, 1] bcast_S1x512_S8192x512_0_1 (broadcastInDim S1x512 ![1] bcast_S512_S1x512_1
        (Host.reduceAdd (mulf P P) (constant S_ .f32 0x00000000#32) reducesTo_S512x1600_S512_d1 h_S_))))
    (mulf (broadcastInDim S8192x512 ![] bcast_S_S8192x512 (constant S_ .f32 0x40000000#32))
      (Host.dotGeneral dot_S8192x1600_S1600x512_S8192x512_1_0_0_1_n_n none q
        (transpose S1600x512 [1, 0] P transposes_S512x1600_S1600x512_1_0))))

/-- The row maxima of a score array: the maximum of minus infinity and the fold of the maximum from minus infinity. -/
def rowMaxV (x : FVec F S8192x512 .f32) : FVec F S8192 .f32 :=
  maximumf (broadcastInDim S8192 ![] bcast_S_S8192 (constant S_ .f32 0xFF800000#32))
    (Host.reduce FloatOps.maximumf x (constant S_ .f32 0xFF800000#32) reducesTo_S8192x512_S8192_d1 h_S_)

/-- A score array less its rows' maxima. -/
def shiftedV (x : FVec F S8192x512 .f32) : FVec F S8192x512 .f32 :=
  subf x (broadcastInDim S8192x512 ![0, 1] bcast_S8192x1_S8192x512_0_1 (broadcastInDim S8192x1 ![0] bcast_S8192_S8192x1_0 (rowMaxV x)))

/-- The log-softmax of a score array: the shifted scores less the logarithm of the row sums of their exponentials. -/
def lsmV (x : FVec F S8192x512 .f32) : FVec F S8192x512 .f32 :=
  subf (shiftedV x) (broadcastInDim S8192x512 ![0, 1] bcast_S8192x1_S8192x512_0_1 (Host.log (broadcastInDim S8192x1 ![0] bcast_S8192_S8192x1_0
    (Host.reduceAdd (Host.exp (shiftedV x)) (constant S_ .f32 0x00000000#32) reducesTo_S8192x512_S8192_d1 h_S_))))

/-! ## The stages, each from any entry contents -/

/-- After the first stage: the prototypes of the reshaped support rows and the labels, and the reshaped query rows. -/
theorem stage1 (W : Valuation τ sig (Elt F)) :
    after (chunk1 (F := F)) W (Proc.devRef .tc main_v11)
        = protoV (shapeCast S2560x1600 (W (Proc.devRef .tc main_arg0)) shapeCasts_S2560x64x5x5_S2560x1600) (W (Proc.devRef .tc main_arg2))
      ∧ after (chunk1 (F := F)) W (Proc.devRef .tc main_v1)
        = shapeCast S8192x1600 (W (Proc.devRef .tc main_arg1)) shapeCasts_S8192x64x5x5_S8192x1600 := by
  constructor
  · after_results
    rfl
  · after_results
    rfl

/-- After the second stage: the scores of the query rows against the prototypes. -/
theorem stage2 (W : Valuation τ sig (Elt F)) :
    after (chunk2 (F := F)) W (Proc.devRef .tc main_v26) = scoreV (W (Proc.devRef .tc main_v1)) (W (Proc.devRef .tc main_v11)) := by
  after_results
  rfl

/-- After the third stage: the log-softmax of the scores. -/
theorem stage3 (W : Valuation τ sig (Elt F)) :
    after (chunk3 (F := F)) W (Proc.devRef .tc main_v27) = lsmV (W (Proc.devRef .tc main_v26)) := by
  rw [chunk3_eq]
  after_results
  rfl

/-- The result buffer after all 48 operations, from the three arguments. -/
theorem result_raw (V : Valuation τ sig (Elt F)) :
    after (ops (F := F)) V (Proc.devRef .tc main_v27)
      = lsmV (scoreV (shapeCast S8192x1600 (V (Proc.devRef .tc main_arg1)) shapeCasts_S8192x64x5x5_S8192x1600)
          (protoV (shapeCast S2560x1600 (V (Proc.devRef .tc main_arg0)) shapeCasts_S2560x64x5x5_S2560x1600) (V (Proc.devRef .tc main_arg2)))) := by
  rw [ops_split, after_append, after_append, stage3, stage2, (stage1 V).1, (stage1 V).2]

/-- No operation writes an argument: after all 48 the three arguments hold what they held. -/
theorem args_raw (V : Valuation τ sig (Elt F)) :
    after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2) := by
  refine ⟨?_, ?_, ?_⟩
  · after_results
  · after_results
  · after_results

end Cert.ReferenceIdeal.Hand

end
-- ==== Proof.RefValue.lean ====
/-
  The reference program's result as one function of its three arguments: the log-softmax of minus the squared distances
  to the class-mean prototypes, `Spec.outR` of the support and query arrays laid out as rows of 1600 features and of the
  labels.  Read off the run of its 48 host operations stage by stage: each stage's array is read at one index — a
  broadcast or a transpose at the coordinates it copies from, a row sum as the sum over the row, the row maximum as the
  fold of the maximum from minus infinity, the product as the sum over the 1600 features, the two scatters as the class
  sums and counts — and so identified with the definition of `Spec` it computes.
-/
import proofs.«401966_j16947940950251_2_alg».proof.Proof.RefRun
import proofs.«401966_j16947940950251_2_alg».proof.Proof.RefStages
import proofs.«401966_j16947940950251_2_alg».proof.Proof.Spec
import proofs.«401966_j16947940950251_2_alg».proof.Proof.ScatterRead
import Idealize.ShloMosaic.PureOps.Ideal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value
import Idealize.ShloMosaic.Lib.StableHlo.Run

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

/-- The reference's result array from its three argument arrays. -/
def result (a0 : FVec Ideal S2560x64x5x5 .f32) (a1 : FVec Ideal S8192x64x5x5 .f32) (a2 : IVec S2560 32) : FVec Ideal S8192x512 .f32 :=
  fun y => Cert.Spec.outR
    (fun n j => shapeCast S2560x1600 a0 shapeCasts_S2560x64x5x5_S2560x1600 (ix2 n j))
    (fun i j => shapeCast S8192x1600 a1 shapeCasts_S8192x64x5x5_S8192x1600 (ix2 i j))
    (fun n => a2 (ix1 n)) (y 0) (y 1)

/-! ## Layout operations at the program's shapes, read by coordinates -/

section Layout
variable {α : Type}

/-- The labels as a column: row `n` holds label `n`. -/
theorem bcast_lbl (l : S2560.Idx → α) (n : Fin 2560) :
    broadcastInDim S2560x1 ![0] bcast_S2560_S2560x1_0 l (ix2 n 0) = l (ix1 n) :=
  broadcastInDim_apply _ bcast_S2560_S2560x1_0 l _ _ fun a => match a with
    | ⟨0, _⟩ => by show n.val = if (2560 : Nat) = 1 then 0 else n.val; rw [if_neg (by decide)]

/-- A vector of 512 as a column: row `k` holds entry `k`. -/
theorem bcast_vec512 (v : S512.Idx → α) (k : Fin 512) :
    broadcastInDim S512x1 ![0] bcast_S512_S512x1_0 v (ix2 k 0) = v (ix1 k) :=
  broadcastInDim_apply _ bcast_S512_S512x1_0 v _ _ fun a => match a with
    | ⟨0, _⟩ => by show k.val = if (512 : Nat) = 1 then 0 else k.val; rw [if_neg (by decide)]

/-- A column of 512 spread over 1600 columns: entry `(k, j)` is the column's row `k`. -/
theorem bcast_col512 (x : S512x1.Idx → α) (k : Fin 512) (j : Fin 1600) :
    broadcastInDim S512x1600 ![0, 1] bcast_S512x1_S512x1600_0_1 x (ix2 k j) = x (ix2 k 0) :=
  broadcastInDim_apply _ bcast_S512x1_S512x1600_0_1 x _ _ fun a => match a with
    | ⟨0, _⟩ => by show k.val = if (512 : Nat) = 1 then 0 else k.val; rw [if_neg (by decide)]
    | ⟨1, _⟩ => by show 0 = if (1 : Nat) = 1 then 0 else j.val; rw [if_pos rfl]

/-- A vector of 8192 as a column: row `i` holds entry `i`. -/
theorem bcast_vec8192 (v : S8192.Idx → α) (i : Fin 8192) :
    broadcastInDim S8192x1 ![0] bcast_S8192_S8192x1_0 v (ix2 i 0) = v (ix1 i) :=
  broadcastInDim_apply _ bcast_S8192_S8192x1_0 v _ _ fun a => match a with
    | ⟨0, _⟩ => by show i.val = if (8192 : Nat) = 1 then 0 else i.val; rw [if_neg (by decide)]

/-- A column of 8192 spread over 512 columns: entry `(i, k)` is the column's row `i`. -/
theorem bcast_col8192 (x : S8192x1.Idx → α) (i : Fin 8192) (k : Fin 512) :
    broadcastInDim S8192x512 ![0, 1] bcast_S8192x1_S8192x512_0_1 x (ix2 i k) = x (ix2 i 0) :=
  broadcastInDim_apply _ bcast_S8192x1_S8192x512_0_1 x _ _ fun a => match a with
    | ⟨0, _⟩ => by show i.val = if (8192 : Nat) = 1 then 0 else i.val; rw [if_neg (by decide)]
    | ⟨1, _⟩ => by show 0 = if (1 : Nat) = 1 then 0 else k.val; rw [if_pos rfl]

/-- A vector of 512 as a row: column `k` holds entry `k`. -/
theorem bcast_row512 (v : S512.Idx → α) (k : Fin 512) :
    broadcastInDim S1x512 ![1] bcast_S512_S1x512_1 v (ix2 0 k) = v (ix1 k) :=
  broadcastInDim_apply _ bcast_S512_S1x512_1 v _ _ fun a => match a with
    | ⟨0, _⟩ => by show k.val = if (512 : Nat) = 1 then 0 else k.val; rw [if_neg (by decide)]

/-- A row of 512 spread over 8192 rows: entry `(i, k)` is the row's column `k`. -/
theorem bcast_rows512 (x : S1x512.Idx → α) (i : Fin 8192) (k : Fin 512) :
    broadcastInDim S8192x512 ![0, 1] bcast_S1x512_S8192x512_0_1 x (ix2 i k) = x (ix2 0 k) :=
  broadcastInDim_apply _ bcast_S1x512_S8192x512_0_1 x _ _ fun a => match a with
    | ⟨0, _⟩ => by show 0 = if (1 : Nat) = 1 then 0 else i.val; rw [if_pos rfl]
    | ⟨1, _⟩ => by show k.val = if (512 : Nat) = 1 then 0 else k.val; rw [if_neg (by decide)]

/-- The transposed prototypes: entry `(j, k)` is the prototypes' entry `(k, j)`. -/
theorem transpose_proto (P : S512x1600.Idx → α) (j : Fin 1600) (k : Fin 512) :
    transpose S1600x512 [1, 0] P transposes_S512x1600_S1600x512_1_0 (ix2 j k) = P (ix2 k j) :=
  transpose_apply [1, 0] P transposes_S512x1600_S1600x512_1_0 _ _ fun b => match b with
    | ⟨0, _⟩ => rfl
    | ⟨1, _⟩ => rfl

end Layout

/-! ## The elementwise host operations and the constants, at the extended reals -/

theorem hostNegf_apply {s : Shape} (a : FVec Ideal s .f32) (y : s.Idx) : Host.negf a y = -(a y) := rfl
theorem hostExp_apply {s : Shape} (a : FVec Ideal s .f32) (y : s.Idx) : Host.exp a y = Ideal.exp (a y) := rfl
theorem hostLog_apply {s : Shape} (a : FVec Ideal s .f32) (y : s.Idx) : Host.log a y = Ideal.log (a y) := rfl

/-- The word of minus infinity is the bottom of the extended reals. -/
theorem ofBits_neg_inf : Ideal.ofBits .f32 0xFF800000#32 = (⊥ : EReal) := by simp [Ideal.ofBits, Ideal.ieee]

/-! ## The reductions and the product, as sums and a fold over one coordinate -/

/-- A row sum of an 8192 × 1600 array from zero. -/
theorem rowSum_q (x : FVec Ideal S8192x1600 .f32) (i : Fin 8192) :
    Host.reduceAdd x (constant S_ .f32 0x00000000#32) reducesTo_S8192x1600_S8192_d1 h_S_ (ix1 i) = ∑ j : Fin 1600, x (ix2 i j) := by
  rw [hostReduceAdd_apply, Ideal.hostReduceAdd_single reducesTo_S8192x1600_S8192_d1 (by decide), constant_apply,
    Ideal.ofBits_zero_f32, zero_add]
  exact Finset.sum_congr rfl fun j _ => congrArg x (funext fun a => Fin.ext (by match a with | ⟨0, _⟩ => rfl | ⟨1, _⟩ => rfl))

/-- A row sum of a 512 × 1600 array from zero. -/
theorem rowSum_p (x : FVec Ideal S512x1600 .f32) (k : Fin 512) :
    Host.reduceAdd x (constant S_ .f32 0x00000000#32) reducesTo_S512x1600_S512_d1 h_S_ (ix1 k) = ∑ j : Fin 1600, x (ix2 k j) := by
  rw [hostReduceAdd_apply, Ideal.hostReduceAdd_single reducesTo_S512x1600_S512_d1 (by decide), constant_apply,
    Ideal.ofBits_zero_f32, zero_add]
  exact Finset.sum_congr rfl fun j _ => congrArg x (funext fun a => Fin.ext (by match a with | ⟨0, _⟩ => rfl | ⟨1, _⟩ => rfl))

/-- A row sum of an 8192 × 512 array from zero. -/
theorem rowSum_x (x : FVec Ideal S8192x512 .f32) (i : Fin 8192) :
    Host.reduceAdd x (constant S_ .f32 0x00000000#32) reducesTo_S8192x512_S8192_d1 h_S_ (ix1 i) = ∑ k : Fin 512, x (ix2 i k) := by
  rw [hostReduceAdd_apply, Ideal.hostReduceAdd_single reducesTo_S8192x512_S8192_d1 (by decide), constant_apply,
    Ideal.ofBits_zero_f32, zero_add]
  exact Finset.sum_congr rfl fun k _ => congrArg x (funext fun a => Fin.ext (by match a with | ⟨0, _⟩ => rfl | ⟨1, _⟩ => rfl))

/-- A row maximum of an 8192 × 512 array from minus infinity: the fold of the maximum over the row from the bottom. -/
theorem rowMax_x (x : FVec Ideal S8192x512 .f32) (i : Fin 8192) :
    Host.reduce FloatOps.maximumf x (constant S_ .f32 0xFF800000#32) reducesTo_S8192x512_S8192_d1 h_S_ (ix1 i)
      = (Finset.univ : Finset (Fin 512)).fold max ⊥ (fun k => x (ix2 i k)) := by
  have hR : S8192x512.Reduces [1] S8192 := by decide
  rw [Host.reduce_eq_fold_single FloatOps.maximumf x _ reducesTo_S8192x512_S8192_d1 hR h_S_ (ix1 i)]
  have hf : (x ∘ hR.lift (ix1 i)) = fun k : Fin 512 => x (ix2 i k) :=
    funext fun k => congrArg x (funext fun a => Fin.ext (by match a with | ⟨0, _⟩ => rfl | ⟨1, _⟩ => rfl))
  rw [hf, constant_apply, ofBits_neg_inf]
  rfl

/-- The product's left operand is read at the result's row … -/
theorem dot_lhs0 (y : S8192x512.Idx) (c : dot_S8192x1600_S1600x512_S8192x512_1_0_0_1_n_n.contr.Idx) :
    (dot_S8192x1600_S1600x512_S8192x512_1_0_0_1_n_n.lhsIdx y c 0).val = (y 0).val := by
  unfold DotDims.lhsIdx
  rw [dif_neg (show ¬(0 : Fin S8192x1600.rank) ∈ dot_S8192x1600_S1600x512_S8192x512_1_0_0_1_n_n.lhsBatch by decide),
    dif_pos (show (0 : Fin S8192x1600.rank) ∈ dot_S8192x1600_S1600x512_S8192x512_1_0_0_1_n_n.lhsNonContracting by decide)]
  rfl
/-- … and the contracted coordinate, … -/
theorem dot_lhs1 (y : S8192x512.Idx) (c : dot_S8192x1600_S1600x512_S8192x512_1_0_0_1_n_n.contr.Idx) :
    (dot_S8192x1600_S1600x512_S8192x512_1_0_0_1_n_n.lhsIdx y c 1).val = (c ⟨0, by decide⟩).val :=
  dot_S8192x1600_S1600x512_S8192x512_1_0_0_1_n_n.lhsIdx_val_of_single rfl y c
/-- … its right operand at the contracted coordinate … -/
theorem dot_rhs0 (y : S8192x512.Idx) (c : dot_S8192x1600_S1600x512_S8192x512_1_0_0_1_n_n.contr.Idx) :
    (dot_S8192x1600_S1600x512_S8192x512_1_0_0_1_n_n.rhsIdx y c 0).val = (c ⟨0, by decide⟩).val :=
  dot_S8192x1600_S1600x512_S8192x512_1_0_0_1_n_n.rhsIdx_val_of_single rfl y c
/-- … and the result's column. -/
theorem dot_rhs1 (y : S8192x512.Idx) (c : dot_S8192x1600_S1600x512_S8192x512_1_0_0_1_n_n.contr.Idx) :
    (dot_S8192x1600_S1600x512_S8192x512_1_0_0_1_n_n.rhsIdx y c 1).val = (y 1).val := by
  unfold DotDims.rhsIdx
  rw [dif_neg (show ¬(1 : Fin S1600x512.rank) ∈ dot_S8192x1600_S1600x512_S8192x512_1_0_0_1_n_n.rhsBatch by decide),
    dif_pos (show (1 : Fin S1600x512.rank) ∈ dot_S8192x1600_S1600x512_S8192x512_1_0_0_1_n_n.rhsNonContracting by decide)]
  rfl

/-- The product of an 8192 × 1600 array with a 1600 × 512 array: the sum over the 1600 contracted coordinates. -/
theorem dot_apply (q : FVec Ideal S8192x1600 .f32) (Pt : FVec Ideal S1600x512 .f32) (i : Fin 8192) (k : Fin 512) :
    Host.dotGeneral dot_S8192x1600_S1600x512_S8192x512_1_0_0_1_n_n none q Pt (ix2 i k) = ∑ j : Fin 1600, q (ix2 i j) * Pt (ix2 j k) := by
  simp only [Host.dotGeneral]
  rw [Ideal.dotGeneral_apply, ← Equiv.sum_comp (contrEquiv1 dot_S8192x1600_S1600x512_S8192x512_1_0_0_1_n_n 1600 rfl rfl).symm]
  refine Finset.sum_congr rfl fun j _ => ?_
  have hj := contrEquiv1_symm_val dot_S8192x1600_S1600x512_S8192x512_1_0_0_1_n_n 1600 rfl rfl j
  have el : dot_S8192x1600_S1600x512_S8192x512_1_0_0_1_n_n.lhsIdx (ix2 i k)
      ((contrEquiv1 dot_S8192x1600_S1600x512_S8192x512_1_0_0_1_n_n 1600 rfl rfl).symm j) = ix2 i j := funext fun a => Fin.ext (by
    match a with
    | ⟨0, _⟩ => exact dot_lhs0 _ _
    | ⟨1, _⟩ => exact (dot_lhs1 _ _).trans hj)
  have er : dot_S8192x1600_S1600x512_S8192x512_1_0_0_1_n_n.rhsIdx (ix2 i k)
      ((contrEquiv1 dot_S8192x1600_S1600x512_S8192x512_1_0_0_1_n_n 1600 rfl rfl).symm j) = ix2 j k := funext fun a => Fin.ext (by
    match a with
    | ⟨0, _⟩ => exact (dot_rhs0 _ _).trans hj
    | ⟨1, _⟩ => exact dot_rhs1 _ _)
  rw [el, er]

/-- The same product against the transposed prototypes: the sum over the features of query times prototype. -/
theorem dotT_apply (q : FVec Ideal S8192x1600 .f32) (P : FVec Ideal S512x1600 .f32) (i : Fin 8192) (k : Fin 512) :
    Host.dotGeneral dot_S8192x1600_S1600x512_S8192x512_1_0_0_1_n_n none q
        (transpose S1600x512 [1, 0] P transposes_S512x1600_S1600x512_1_0) (ix2 i k) = ∑ j : Fin 1600, q (ix2 i j) * P (ix2 k j) := by
  rw [dot_apply]
  exact Finset.sum_congr rfl fun j _ => by rw [transpose_proto]

/-! ## Each stage is its definition over the extended reals -/

/-- The class sums are `Spec.sums`. -/
theorem sumsV_apply (s : FVec Ideal S2560x1600 .f32) (l : IVec S2560 32) (k : Fin 512) (j : Fin 1600) :
    sumsV s l (ix2 k j) = Cert.Spec.sums (fun n j => s (ix2 n j)) (fun n => l (ix1 n)) k j := by
  have h0 : broadcastInDim S512x1600 ![] bcast_S_S512x1600 (constant (F := Ideal) S_ .f32 0x00000000#32) = fun _ => (0 : EReal) :=
    funext fun y => by rw [broadcastInDim_scalar_apply, constant_apply, Ideal.ofBits_zero_f32]
  have hl : (fun n : Fin 2560 => broadcastInDim S2560x1 ![0] bcast_S2560_S2560x1_0 l (ix2 n 0)) = fun n => l (ix1 n) :=
    funext fun n => bcast_lbl l n
  unfold sumsV Host.scatterAdd
  rw [h0, ← hl]
  exact Cert.ScatterRead.sums_apply scatter_S512x1600_S2560x1_S2560x1600_1_0_0_1_wf _ s k j

/-- The class counts are `Spec.cnt`. -/
theorem cntV_apply (l : IVec S2560 32) (k : Fin 512) :
    cntV (F := Ideal) l (ix1 k) = Cert.Spec.cnt (fun n => l (ix1 n)) k := by
  have h0 : broadcastInDim S512 ![] bcast_S_S512 (constant (F := Ideal) S_ .f32 0x00000000#32) = fun _ => (0 : EReal) :=
    funext fun y => by rw [broadcastInDim_scalar_apply, constant_apply, Ideal.ofBits_zero_f32]
  have h1 : broadcastInDim S2560 ![] bcast_S_S2560 (constant (F := Ideal) S_ .f32 0x3F800000#32) = fun _ => (1 : EReal) :=
    funext fun y => by rw [broadcastInDim_scalar_apply, constant_apply, Ideal.ofBits_one_f32]
  have hl : (fun n : Fin 2560 => broadcastInDim S2560x1 ![0] bcast_S2560_S2560x1_0 l (ix2 n 0)) = fun n => l (ix1 n) :=
    funext fun n => bcast_lbl l n
  unfold cntV Host.scatterAdd
  rw [h0, h1, ← hl]
  exact Cert.ScatterRead.count_apply scatter_S512_S2560x1_S2560_n_0_0_1_wf _ k

/-- The prototypes are `Spec.protoR`: class sum divided by class count. -/
theorem protoV_apply (s : FVec Ideal S2560x1600 .f32) (l : IVec S2560 32) (k : Fin 512) (j : Fin 1600) :
    protoV s l (ix2 k j) = Cert.Spec.protoR (fun n j => s (ix2 n j)) (fun n => l (ix1 n)) k j := by
  unfold protoV Cert.Spec.protoR
  rw [hostDivf_apply, bcast_col512, bcast_vec512, sumsV_apply, cntV_apply]

/-- The scores are `Spec.scoreR`: minus the squared distance, arranged as the sum of the squared norms less twice the
    inner product. -/
theorem scoreV_apply (q : FVec Ideal S8192x1600 .f32) (P : FVec Ideal S512x1600 .f32) (i : Fin 8192) (k : Fin 512) :
    scoreV q P (ix2 i k) = Cert.Spec.scoreR (fun i j => q (ix2 i j)) (fun k j => P (ix2 k j)) i k := by
  unfold scoreV Cert.Spec.scoreR Cert.Spec.sq Cert.Spec.dot Cert.Spec.two
  rw [hostNegf_apply, subf_apply, addf_apply, mulf_apply, bcast_col8192, bcast_vec8192, rowSum_q, bcast_rows512, bcast_row512,
    rowSum_p, broadcastInDim_scalar_apply, constant_apply, dotT_apply]
  simp only [mulf_apply]

/-- The row maxima are `Spec.rowMax`: the maximum with minus infinity changes nothing. -/
theorem rowMaxV_apply (x : FVec Ideal S8192x512 .f32) (i : Fin 8192) :
    rowMaxV x (ix1 i) = Cert.Spec.rowMax (fun i k => x (ix2 i k)) i := by
  unfold rowMaxV Cert.Spec.rowMax
  rw [maximumf_apply, broadcastInDim_scalar_apply, constant_apply, ofBits_neg_inf, max_bot_left, rowMax_x]

/-- The shifted scores: each score less its row's maximum. -/
theorem shiftedV_apply (x : FVec Ideal S8192x512 .f32) (i : Fin 8192) (k : Fin 512) :
    shiftedV x (ix2 i k) = x (ix2 i k) - Cert.Spec.rowMax (fun i k => x (ix2 i k)) i := by
  unfold shiftedV
  rw [subf_apply, bcast_col8192, bcast_vec8192, rowMaxV_apply]

/-- The last stage is `Spec.lsm`. -/
theorem lsmV_apply (x : FVec Ideal S8192x512 .f32) (i : Fin 8192) (k : Fin 512) :
    lsmV x (ix2 i k) = Cert.Spec.lsm (fun i k => x (ix2 i k)) i k := by
  unfold lsmV Cert.Spec.lsm
  rw [subf_apply, bcast_col8192, hostLog_apply, bcast_vec8192, rowSum_x]
  simp only [hostExp_apply, shiftedV_apply]

/-! ## The result -/

/-- The composition of the three stages at the reshaped arguments is `result`. -/
theorem stages_eq_result (a0 : FVec Ideal S2560x64x5x5 .f32) (a1 : FVec Ideal S8192x64x5x5 .f32) (a2 : IVec S2560 32) :
    lsmV (scoreV (shapeCast S8192x1600 a1 shapeCasts_S8192x64x5x5_S8192x1600)
        (protoV (shapeCast S2560x1600 a0 shapeCasts_S2560x64x5x5_S2560x1600) a2)) = result a0 a1 a2 := by
  have hP : (fun k j => protoV (shapeCast S2560x1600 a0 shapeCasts_S2560x64x5x5_S2560x1600) a2 (ix2 k j))
      = Cert.Spec.protoR (fun n j => shapeCast S2560x1600 a0 shapeCasts_S2560x64x5x5_S2560x1600 (ix2 n j)) (fun n => a2 (ix1 n)) :=
    funext fun k => funext fun j => protoV_apply _ a2 k j
  have hS : (fun i k => scoreV (shapeCast S8192x1600 a1 shapeCasts_S8192x64x5x5_S8192x1600)
        (protoV (shapeCast S2560x1600 a0 shapeCasts_S2560x64x5x5_S2560x1600) a2) (ix2 i k))
      = Cert.Spec.scoreR (fun i j => shapeCast S8192x1600 a1 shapeCasts_S8192x64x5x5_S8192x1600 (ix2 i j))
          (Cert.Spec.protoR (fun n j => shapeCast S2560x1600 a0 shapeCasts_S2560x64x5x5_S2560x1600 (ix2 n j)) (fun n => a2 (ix1 n))) := by
    funext i k
    rw [scoreV_apply, hP]
  funext y
  obtain ⟨i, k, rfl⟩ : ∃ (i : Fin 8192) (k : Fin 512), y = ix2 i k := ⟨y 0, y 1, eq_ix2 y⟩
  rw [lsmV_apply, hS]
  rfl

/-- At the ideal values, from any memory with zero counters: every weakly fair execution of the reference's @main
    terminates with the result buffer at `result` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r hr c => ?_) (run_raw (F := Ideal) m ρ)
  have hA := args_raw (F := Ideal) (launchContents m c)
  refine ⟨?_, ?_, ?_, ?_⟩
  · rw [hr c main_v27, result_raw]
    exact stages_eq_result _ _ _
  · rw [hr c main_arg0]; exact hA.1
  · rw [hr c main_arg1]; exact hA.2.1
  · rw [hr c main_arg2]; exact hA.2.2

end Cert.ReferenceIdeal.Hand

end
-- ==== Proof.PreRead.lean ====
/-
  What the precondition says, decoded: every support entry and every query entry is a real number, and no class is
  empty (the count of the rows carrying each class's label is not zero).
-/
import proofs.«401966_j16947940950251_2_alg».proof.Pre_finite_inputs
import proofs.«401966_j16947940950251_2_alg».proof.Proof.Gen.Pre_finite_inputs
import proofs.«401966_j16947940950251_2_alg».proof.Proof.Spec
import proofs.«401966_j16947940950251_2_alg».proof.Proof.ScatterRead
import Idealize.ShloMosaic.PureOps.Ideal
import Idealize.ShloMosaic.Lib.ValueIdx
import Idealize.ShloMosaic.Lib.ReduceAll

noncomputable section

namespace Cert.PreRead

open Idealize.ShloMosaic Idealize.ShloMosaic.ValueIdx Cert.Pre_finite_inputs

/-- The float words the precondition names: `+∞`, `0.0` and `1.0`. -/
theorem ofBits_inf : Ideal.ofBits .f32 0x7F800000#32 = (⊤ : EReal) := by simp [Ideal.ofBits, Ideal.ieee]
theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee, -EReal.coe_mul]; norm_num

/-- A one-bit word made from a truth value is 1 exactly when the value is true. -/
theorem ofBool_eq_one (b : Bool) : BitVec.ofBool b = 1#1 ↔ b = true := by cases b <;> decide

/-- An extended real whose absolute value `max x (−x)` is below `+∞` is a real number: at either infinity the
    absolute value is `+∞` itself. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  simp only [ofBool_eq_one, decide_eq_true_eq] at h
  induction x using EReal.rec with
  | bot => simp at h
  | coe r => exact ⟨r, rfl⟩
  | top => simp at h

/-- The labels laid out as a column read, at `(n, 0)`, the label of row `n`. -/
theorem bcast_label (hb : S2560.BroadcastsInDim S2560x1 (![0] : Fin 1 → Fin S2560x1.rank)) (a2 : IVec S2560 32)
    (n : Fin 2560) : broadcastInDim S2560x1 ![0] hb a2 (ix2 n 0) = a2 (ix1 n) := by
  simp only [broadcastInDim]
  congr 1
  funext a
  match a with
  | ⟨0, _⟩ =>
    apply Fin.ext
    split
    · next h1 => change (2560 : Nat) = 1 at h1; omega
    · rfl

/-- The printed precondition, all ones at the ideal values, gives: both float inputs real everywhere, and every class's
    count of support rows non-zero. -/
theorem of_pre [Cert.Pre_finite_inputs.Facts] (a0 : FVec Ideal S2560x64x5x5 .f32) (a1 : FVec Ideal S8192x64x5x5 .f32) (a2 : IVec S2560 32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ k : Fin 512, Cert.Spec.cnt (fun n => a2 (ix1 n)) k ≠ 0) := by
  -- the result has one index; there the three conjuncts, joined by `and`, are each 1
  haveI : Subsingleton S_.Idx := ⟨fun a b => funext fun d => d.elim0⟩
  have h0 := congrFun h ix0
  dsimp only [fn, fn_part1] at h0
  obtain ⟨h38, h15⟩ := IntOp.andi_eq_one.1 h0
  obtain ⟨h3, h7⟩ := IntOp.andi_eq_one.1 h38
  -- each conjunct is an `and` over all of a compare's elements, so every element's compare is 1
  refine ⟨fun i => ?_, fun i => ?_, fun k => ?_⟩
  · exact real_of_abs_lt (a0 i) (Host.reduce_andi_all _ _ _ _ _ h3 i)
  · exact real_of_abs_lt (a1 i) (Host.reduce_andi_all _ _ _ _ _ h7 i)
  · -- at class `k` the compare says `0 <` ones scattered into zeros by the labels, which is the class's count
    have hk := Host.reduce_andi_all _ _ _ _ _ h15 (ix1 k)
    have hf : (fun n : Fin 2560 => broadcastInDim S2560x1 ![0] Facts.bcast_S2560_S2560x1_0 a2 (ix2 n 0))
        = fun n => a2 (ix1 n) := funext fun n => bcast_label _ a2 n
    have e := ScatterRead.count_apply Facts.scatter_S512_S2560x1_S2560_n_0_0_1_wf
      (broadcastInDim S2560x1 ![0] Facts.bcast_S2560_S2560x1_0 a2) k
    have hk' : Ideal.cmp .ogt
        (Ideal.hostScatterAdd (⟨[], [0], [0], 1, Facts.scatter_S512_S2560x1_S2560_n_0_0_1_wf⟩ :
            ScatterDims ⟨1, ![512]⟩ ⟨2, ![2560, 1]⟩ ⟨1, ![2560]⟩)
          (fun _ => Ideal.ofBits .f32 0x00000000#32)
          (broadcastInDim S2560x1 ![0] Facts.bcast_S2560_S2560x1_0 a2)
          (fun _ => Ideal.ofBits .f32 0x3F800000#32) (ix1 k))
        (Ideal.ofBits .f32 0x00000000#32) = 1#1 := hk
    rw [ofBits_zero, ofBits_one, e, congrArg (fun f => Cert.Spec.cnt f k) hf] at hk'
    unfold Ideal.cmp at hk'
    simp only [ofBool_eq_one, decide_eq_true_eq] at hk'
    exact ne_of_gt hk'

end Cert.PreRead

end
-- ==== Proof.lean ====
/-
  The certificate: a two-call prototype-network kernel against its plain reference, over the extended reals.

  Both programs take 2560 support rows of 1600 features with an integer label each, and 8192 query rows; they form one
  prototype per class (512 classes) as the mean of the class's support rows, score each query against each prototype by
  minus the squared distance, and return the log-softmax of each query's 512 scores.

  The kernel computes this in two pipelined calls.  The first walks the support rows in five blocks, accumulating the
  class sums in a scratch buffer as a one-hot matrix of the block's labels times the block's rows, and at the last block
  multiplies the sums by the reciprocal class counts (computed on the host by a scatter of ones) and stores the prototypes
  and their squared norms.  The second walks the query rows in eight blocks and stores, per row, the log-softmax of
  `2 q·p − |p|²`.  The reference scatters the support rows by label, divides by the scattered count, forms
  `−(|q|² + |p|² − 2 q·p)` and applies the log-softmax.

  The two agree wherever every input entry is a real number and no class is empty — the precondition: with a non-zero
  count the product with its reciprocal is the quotient, every intermediate is then a real number, the two scores differ
  along each row by the query's own squared norm, a real constant, and the log-softmax of a row does not change when a
  real constant is subtracted from all of it.  (With an empty class the reference's own prototype is the undefined
  quotient zero by zero; that is the domain the precondition states.)

  The three frames: each kernel program's run is the pipeline library's launch of @main as a host stretch and two
  regions, the first region's invariant carrying the running class sums between its five points; the reference's run is
  the sequential run of its 48 host operations.  `preserves` is trivial: the idealized kernel is the kernel's own text
  read at the ideal values.
-/
import proofs.«401966_j16947940950251_2_alg».proof.Defs
import proofs.«401966_j16947940950251_2_alg».proof.Proof.Gen.Kernel
import proofs.«401966_j16947940950251_2_alg».proof.Proof.Gen.KernelIdeal
import proofs.«401966_j16947940950251_2_alg».proof.Proof.Gen.ReferenceIdeal
import proofs.«401966_j16947940950251_2_alg».proof.Proof.Gen.Pre_finite_inputs
import proofs.«401966_j16947940950251_2_alg».proof.Proof.KRun
import proofs.«401966_j16947940950251_2_alg».proof.Proof.KIRun
import proofs.«401966_j16947940950251_2_alg».proof.Proof.KIValue
import proofs.«401966_j16947940950251_2_alg».proof.Proof.RefValue
import proofs.«401966_j16947940950251_2_alg».proof.Proof.PreRead
import proofs.«401966_j16947940950251_2_alg».proof.Proof.Spec
import Idealize.ShloMosaic.Adequacy
import Idealize.ShloMosaic.Init

noncomputable section

namespace Cert.Proof

open Idealize.ShloMosaic Idealize.SL.Sem

/-- The word-level kernel program runs to the end, faults nowhere and leaves its three arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealized kernel is the kernel's own text read at the ideal values: nothing to preserve. -/
theorem preserves : Cert.preserves_Kernel_KernelIdeal := trivial

/-- Under the precondition the two results are one function of the arguments: the two arrangements of the class means
    and of the scores agree when every entry is real and no class is empty. -/
theorem result_eq (a0 : FVec Ideal Cert.Pre_finite_inputs.S2560x64x5x5 .f32) (a1 : FVec Ideal Cert.Pre_finite_inputs.S8192x64x5x5 .f32)
    (a2 : IVec Cert.Pre_finite_inputs.S2560 32)
    (h : Cert.Pre_finite_inputs.fn (F := Ideal) a0 a1 a2 = fun _ => 1#1) :
    Cert.ReferenceIdeal.Hand.result a0 a1 a2 = Cert.KernelIdeal.Hand.result a0 a1 a2 := by
  obtain ⟨h0, h1, hc⟩ := Cert.PreRead.of_pre a0 a1 a2 h
  funext y
  unfold Cert.ReferenceIdeal.Hand.result Cert.KernelIdeal.Hand.result
  exact (congrFun (congrFun (Cert.Spec.outK_eq_outR _ _ _ (fun n j => h0 _) (fun i j => h1 _) hc) (y 0)) (y 1)).symm

/-- At the ideal values, from memories agreeing on the arguments, both programs run, end with equal results and leave
    their arguments unchanged. -/
theorem algebraic : Cert.algebraic_KernelIdeal_ReferenceIdeal := by
  intro m ρ m' ρ' hpre hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2]
  exact result_eq _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
